-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x13 : Shape := ⟨2, ![50000, 13]⟩
abbrev S2x1600000 : Shape := ⟨2, ![2, 1600000]⟩
abbrev S50000 : Shape := ⟨1, ![50000]⟩
abbrev S13 : Shape := ⟨1, ![13]⟩
abbrev S13x32 : Shape := ⟨2, ![13, 32]⟩
abbrev S32 : Shape := ⟨1, ![32]⟩
abbrev S32x32 : Shape := ⟨2, ![32, 32]⟩
abbrev S90x64 : Shape := ⟨2, ![90, 64]⟩
abbrev S64 : Shape := ⟨1, ![64]⟩
abbrev S64x32 : Shape := ⟨2, ![64, 32]⟩
abbrev S45x32 : Shape := ⟨2, ![45, 32]⟩
abbrev S32x1 : Shape := ⟨2, ![32, 1]⟩
abbrev S1 : Shape := ⟨1, ![1]⟩
abbrev S_ : Shape := ⟨0, ![]⟩

class Facts : Prop where
  bcast_S_S50000x13 : S_.BroadcastsInDim S50000x13 (![] : Fin 0 → Fin S50000x13.rank)
  reducesTo_S50000x13_S_d0_1 : S50000x13.ReducesTo [0, 1] S_
  h_S_ : 0 < S_.numel
  bcast_S_S13 : S_.BroadcastsInDim S13 (![] : Fin 0 → Fin S13.rank)
  reducesTo_S13_S_d0 : S13.ReducesTo [0] S_
  bcast_S_S13x32 : S_.BroadcastsInDim S13x32 (![] : Fin 0 → Fin S13x32.rank)
  reducesTo_S13x32_S_d0_1 : S13x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S90x64 : S_.BroadcastsInDim S90x64 (![] : Fin 0 → Fin S90x64.rank)
  reducesTo_S90x64_S_d0_1 : S90x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S45x32 : S_.BroadcastsInDim S45x32 (![] : Fin 0 → Fin S45x32.rank)
  reducesTo_S45x32_S_d0_1 : S45x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part4 {F : FTy → Type} [FloatOps F] (main_arg1 : IVec S2x1600000 32) (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S2x1600000 32 := broadcastInDim S2x1600000 ![] bcast_S_S2x1600000 main_c_28
  let main_v75 : IVec S2x1600000 1 := cmpi .sge main_arg1 main_v74
  let main_c_29 : IVec S_ 1 := constantI S_ 1 1#1
  let main_v76 : IVec S_ 1 := (fun x v => Host.reduce IntOp.andi x v reducesTo_S2x1600000_S_d0_1 h_S_) main_v75 main_c_29
  let main_v77 : IVec S_ 1 := andi main_v73 main_v76
  let main_c_30 : IVec S_ 32 := constantI S_ 32 50000#32
  let main_v78 : IVec S2x1600000 32 := broadcastInDim S2x1600000 ![] bcast_S_S2x1600000 main_c_30
  let main_v79 : IVec S2x1600000 1 := cmpi .slt main_arg1 main_v78
  let main_c_31 : IVec S_ 1 := constantI S_ 1 1#1
  let main_v80 : IVec S_ 1 := (fun x v => Host.reduce IntOp.andi x v reducesTo_S2x1600000_S_d0_1 h_S_) main_v79 main_c_31
  let main_v81 : IVec S_ 1 := andi main_v77 main_v80
  main_v81

def fn_part3 {F : FTy → Type} [FloatOps F] (main_arg1 : IVec S2x1600000 32) (main_arg13 : FVec F S45x32 .f32) (main_arg14 : FVec F S32 .f32) (main_arg15 : FVec F S32x1 .f32) (main_arg16 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S45x32 .f32 := Host.absf main_arg13
  let main_cst_20 : FVec F S_ .f32 := constant S_ .f32 0x7F800000#32
  let main_v55 : FVec F S45x32 .f32 := broadcastInDim S45x32 ![] bcast_S_S45x32 main_cst_20
  let main_v56 : IVec S45x32 1 := cmpf .olt main_v54 main_v55
  let main_c_21 : IVec S_ 1 := constantI S_ 1 1#1
  let main_v57 : IVec S_ 1 := (fun x v => Host.reduce IntOp.andi x v reducesTo_S45x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x1 .f32 := Host.absf main_arg15
  let main_cst_24 : FVec F S_ .f32 := constant S_ .f32 0x7F800000#32
  let main_v65 : FVec F S32x1 .f32 := broadcastInDim S32x1 ![] bcast_S_S32x1 main_cst_24
  let main_v66 : IVec S32x1 1 := cmpf .olt main_v64 main_v65
  let main_c_25 : IVec S_ 1 := constantI S_ 1 1#1
  let main_v67 : IVec S_ 1 := (fun x v => Host.reduce IntOp.andi x v reducesTo_S32x1_S_d0_1 h_S_) main_v66 main_c_25
  fn_part4 (F := F) main_arg1 main_arg16 main_v63 main_v67

def fn_part2 {F : FTy → Type} [FloatOps F] (main_arg1 : IVec S2x1600000 32) (main_arg9 : FVec F S90x64 .f32) (main_arg10 : FVec F S64 .f32) (main_arg11 : FVec F S64x32 .f32) (main_arg12 : FVec F S32 .f32) (main_arg13 : FVec F S45x32 .f32) (main_arg14 : FVec F S32 .f32) (main_arg15 : FVec F S32x1 .f32) (main_arg16 : FVec F S1 .f32) (main_v33 : IVec S_ 1) : IVec S_ 1 :=
  let main_v34 : FVec F S90x64 .f32 := Host.absf main_arg9
  let main_cst_12 : FVec F S_ .f32 := constant S_ .f32 0x7F800000#32
  let main_v35 : FVec F S90x64 .f32 := broadcastInDim S90x64 ![] bcast_S_S90x64 main_cst_12
  let main_v36 : IVec S90x64 1 := cmpf .olt main_v34 main_v35
  let main_c_13 : IVec S_ 1 := constantI S_ 1 1#1
  let main_v37 : IVec S_ 1 := (fun x v => Host.reduce IntOp.andi x v reducesTo_S90x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg1 main_arg13 main_arg14 main_arg15 main_arg16 main_v48 main_v49 main_v50

def fn_part1 {F : FTy → Type} [FloatOps F] (main_arg1 : IVec S2x1600000 32) (main_arg6 : FVec F S32 .f32) (main_arg7 : FVec F S32x32 .f32) (main_arg8 : FVec F S32 .f32) (main_arg9 : FVec F S90x64 .f32) (main_arg10 : FVec F S64 .f32) (main_arg11 : FVec F S64x32 .f32) (main_arg12 : FVec F S32 .f32) (main_arg13 : FVec F S45x32 .f32) (main_arg14 : FVec F S32 .f32) (main_arg15 : FVec F S32x1 .f32) (main_arg16 : FVec F S1 .f32) (main_v13 : IVec S_ 1) (main_v16 : IVec S13x32 1) : IVec S_ 1 :=
  let main_c_5 : IVec S_ 1 := constantI S_ 1 1#1
  let main_v17 : IVec S_ 1 := (fun x v => Host.reduce IntOp.andi x v reducesTo_S13x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg9 main_arg10 main_arg11 main_arg12 main_arg13 main_arg14 main_arg15 main_arg16 main_v33

def fn {F : FTy → Type} [FloatOps F] (main_arg0 : FVec F S50000x13 .f32) (main_arg1 : IVec S2x1600000 32) (main_arg2 : IVec S50000 32) (main_arg3 : FVec F S13 .f32) (main_arg4 : FVec F S13 .f32) (main_arg5 : FVec F S13x32 .f32) (main_arg6 : FVec F S32 .f32) (main_arg7 : FVec F S32x32 .f32) (main_arg8 : FVec F S32 .f32) (main_arg9 : FVec F S90x64 .f32) (main_arg10 : FVec F S64 .f32) (main_arg11 : FVec F S64x32 .f32) (main_arg12 : FVec F S32 .f32) (main_arg13 : FVec F S45x32 .f32) (main_arg14 : FVec F S32 .f32) (main_arg15 : FVec F S32x1 .f32) (main_arg16 : FVec F S1 .f32) : IVec S_ 1 :=
  let main_v0 : FVec F S50000x13 .f32 := Host.absf main_arg0
  let main_cst : FVec F S_ .f32 := constant S_ .f32 0x7F800000#32
  let main_v1 : FVec F S50000x13 .f32 := broadcastInDim S50000x13 ![] bcast_S_S50000x13 main_cst
  let main_v2 : IVec S50000x13 1 := cmpf .olt main_v0 main_v1
  let main_c : IVec S_ 1 := constantI S_ 1 1#1
  let main_v3 : IVec S_ 1 := (fun x v => Host.reduce IntOp.andi x v reducesTo_S50000x13_S_d0_1 h_S_) main_v2 main_c
  let main_v4 : FVec F S13 .f32 := Host.absf main_arg3
  let main_cst_0 : FVec F S_ .f32 := constant S_ .f32 0x7F800000#32
  let main_v5 : FVec F S13 .f32 := broadcastInDim S13 ![] bcast_S_S13 main_cst_0
  let main_v6 : IVec S13 1 := cmpf .olt main_v4 main_v5
  let main_c_1 : IVec S_ 1 := constantI S_ 1 1#1
  let main_v7 : IVec S_ 1 := (fun x v => Host.reduce IntOp.andi x v reducesTo_S13_S_d0 h_S_) main_v6 main_c_1
  let main_v8 : IVec S_ 1 := andi main_v3 main_v7
  let main_v9 : FVec F S13 .f32 := Host.absf main_arg4
  let main_cst_2 : FVec F S_ .f32 := constant S_ .f32 0x7F800000#32
  let main_v10 : FVec F S13 .f32 := broadcastInDim S13 ![] bcast_S_S13 main_cst_2
  let main_v11 : IVec S13 1 := cmpf .olt main_v9 main_v10
  let main_c_3 : IVec S_ 1 := constantI S_ 1 1#1
  let main_v12 : IVec S_ 1 := (fun x v => Host.reduce IntOp.andi x v reducesTo_S13_S_d0 h_S_) main_v11 main_c_3
  let main_v13 : IVec S_ 1 := andi main_v8 main_v12
  let main_v14 : FVec F S13x32 .f32 := Host.absf main_arg5
  let main_cst_4 : FVec F S_ .f32 := constant S_ .f32 0x7F800000#32
  let main_v15 : FVec F S13x32 .f32 := broadcastInDim S13x32 ![] bcast_S_S13x32 main_cst_4
  let main_v16 : IVec S13x32 1 := cmpf .olt main_v14 main_v15
  fn_part1 (F := F) main_arg1 main_arg6 main_arg7 main_arg8 main_arg9 main_arg10 main_arg11 main_arg12 main_arg13 main_arg14 main_arg15 main_arg16 main_v13 main_v16
-- ==== Kernel.lean ====
abbrev S50000x13 : Shape := ⟨2, ![50000, 13]⟩
abbrev S2x1600000 : Shape := ⟨2, ![2, 1600000]⟩
abbrev S50000 : Shape := ⟨1, ![50000]⟩
abbrev S13 : Shape := ⟨1, ![13]⟩
abbrev S13x32 : Shape := ⟨2, ![13, 32]⟩
abbrev S32 : Shape := ⟨1, ![32]⟩
abbrev S32x32 : Shape := ⟨2, ![32, 32]⟩
abbrev S90x64 : Shape := ⟨2, ![90, 64]⟩
abbrev S64 : Shape := ⟨1, ![64]⟩
abbrev S64x32 : Shape := ⟨2, ![64, 32]⟩
abbrev S45x32 : Shape := ⟨2, ![45, 32]⟩
abbrev S32x1 : Shape := ⟨2, ![32, 1]⟩
abbrev S1 : Shape := ⟨1, ![1]⟩
abbrev S_ : Shape := ⟨0, ![]⟩
abbrev S1x13 : Shape := ⟨2, ![1, 13]⟩
abbrev S1x32 : Shape := ⟨2, ![1, 32]⟩
abbrev S50000x32 : Shape := ⟨2, ![50000, 32]⟩
abbrev S5000x13 : Shape := ⟨2, ![5000, 13]⟩
abbrev S5000x32 : Shape := ⟨2, ![5000, 32]⟩
abbrev S1x1600000 : Shape := ⟨2, ![1, 1600000]⟩
abbrev S1600000 : Shape := ⟨1, ![1600000]⟩
abbrev S50000x45 : Shape := ⟨2, ![50000, 45]⟩
abbrev S1600000x1 : Shape := ⟨2, ![1600000, 1]⟩
abbrev S1x1 : Shape := ⟨2, ![1, 1]⟩
abbrev S1600000x45 : Shape := ⟨2, ![1600000, 45]⟩
abbrev S1x64 : Shape := ⟨2, ![1, 64]⟩
abbrev S1600000x32 : Shape := ⟨2, ![1600000, 32]⟩
abbrev S4000x45 : Shape := ⟨2, ![4000, 45]⟩
abbrev S4000x32 : Shape := ⟨2, ![4000, 32]⟩
abbrev S4000x90 : Shape := ⟨2, ![4000, 90]⟩
abbrev S4000x64 : Shape := ⟨2, ![4000, 64]⟩
abbrev S128x45 : Shape := ⟨2, ![128, 45]⟩
abbrev S50000x1 : Shape := ⟨2, ![50000, 1]⟩
abbrev S128x1 : Shape := ⟨2, ![128, 1]⟩
abbrev S128x32 : Shape := ⟨2, ![128, 32]⟩

abbrev nBuf : Space → Nat
  | .hbm => 122
  | .vmem => 28
  | .smem => 0
  | _ => 0

abbrev bufTy : (tb : Table) → Fin (tcTables nBuf tb) → BufTy
  | .hbm, ⟨0, _⟩ => ⟨S50000x13, .f32⟩
  | .hbm, ⟨1, _⟩ => ⟨S2x1600000, .i32⟩
  | .hbm, ⟨2, _⟩ => ⟨S50000, .i32⟩
  | .hbm, ⟨3, _⟩ => ⟨S13, .f32⟩
  | .hbm, ⟨4, _⟩ => ⟨S13, .f32⟩
  | .hbm, ⟨5, _⟩ => ⟨S13x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S90x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S45x32, .f32⟩
  | .hbm, ⟨14, _⟩ => ⟨S32, .f32⟩
  | .hbm, ⟨15, _⟩ => ⟨S32x1, .f32⟩
  | .hbm, ⟨16, _⟩ => ⟨S1, .f32⟩
  | .hbm, ⟨17, _⟩ => ⟨S_, .f32⟩
  | .hbm, ⟨18, _⟩ => ⟨S13, .f32⟩
  | .hbm, ⟨19, _⟩ => ⟨S_, .f32⟩
  | .hbm, ⟨20, _⟩ => ⟨S13, .f32⟩
  | .hbm, ⟨21, _⟩ => ⟨S13, .f32⟩
  | .hbm, ⟨22, _⟩ => ⟨S1x13, .f32⟩
  | .hbm, ⟨23, _⟩ => ⟨S50000x13, .f32⟩
  | .hbm, ⟨24, _⟩ => ⟨S50000x13, .f32⟩
  | .hbm, ⟨25, _⟩ => ⟨S50000x13, .f32⟩
  | .hbm, ⟨26, _⟩ => ⟨S_, .f32⟩
  | .hbm, ⟨27, _⟩ => ⟨S13, .f32⟩
  | .hbm, ⟨28, _⟩ => ⟨S_, .f32⟩
  | .hbm, ⟨29, _⟩ => ⟨S13, .f32⟩
  | .hbm, ⟨30, _⟩ => ⟨S13, .f32⟩
  | .hbm, ⟨31, _⟩ => ⟨S_, .f32⟩
  | .hbm, ⟨32, _⟩ => ⟨S13, .f32⟩
  | .hbm, ⟨33, _⟩ => ⟨S13, .f32⟩
  | .hbm, ⟨34, _⟩ => ⟨S13, .f32⟩
  | .hbm, ⟨35, _⟩ => ⟨S13, .f32⟩
  | .hbm, ⟨36, _⟩ => ⟨S1x13, .f32⟩
  | .hbm, ⟨37, _⟩ => ⟨S13, .f32⟩
  | .hbm, ⟨38, _⟩ => ⟨S13, .f32⟩
  | .hbm, ⟨39, _⟩ => ⟨S13, .f32⟩
  | .hbm, ⟨40, _⟩ => ⟨S1x13, .f32⟩
  | .hbm, ⟨41, _⟩ => ⟨S1x32, .f32⟩
  | .hbm, ⟨42, _⟩ => ⟨S1x32, .f32⟩
  | .hbm, ⟨43, _⟩ => ⟨S50000x13, .f32⟩
  | .hbm, ⟨44, _⟩ => ⟨S50000x32, .f32⟩
  | .hbm, ⟨45, _⟩ => ⟨S1x1600000, .i32⟩
  | .hbm, ⟨46, _⟩ => ⟨S1600000, .i32⟩
  | .hbm, ⟨47, _⟩ => ⟨S1x1600000, .i32⟩
  | .hbm, ⟨48, _⟩ => ⟨S1600000, .i32⟩
  | .hbm, ⟨49, _⟩ => ⟨S50000x45, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1, .i32⟩
  | .hbm, ⟨59, _⟩ => ⟨S_, .i32⟩
  | .hbm, ⟨60, _⟩ => ⟨S1600000x1, .i32⟩
  | .hbm, ⟨61, _⟩ => ⟨S1600000x1, .i1⟩
  | .hbm, ⟨62, _⟩ => ⟨S1x1, .i32⟩
  | .hbm, ⟨63, _⟩ => ⟨S1600000x1, .i32⟩
  | .hbm, ⟨64, _⟩ => ⟨S1600000x1, .i1⟩
  | .hbm, ⟨65, _⟩ => ⟨S1600000x1, .i1⟩
  | .hbm, ⟨66, _⟩ => ⟨S_, .i1⟩
  | .hbm, ⟨67, _⟩ => ⟨S1600000, .i1⟩
  | .hbm, ⟨68, _⟩ => ⟨S1600000x45, .f32⟩
  | .hbm, ⟨69, _⟩ => ⟨S1600000x45, .i1⟩
  | .hbm, ⟨70, _⟩ => ⟨S_, .f32⟩
  | .hbm, ⟨71, _⟩ => ⟨S1600000x45, .f32⟩
  | .hbm, ⟨72, _⟩ => ⟨S1600000x45, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1, .i32⟩
  | .hbm, ⟨82, _⟩ => ⟨S_, .i32⟩
  | .hbm, ⟨83, _⟩ => ⟨S1600000x1, .i32⟩
  | .hbm, ⟨84, _⟩ => ⟨S1600000x1, .i1⟩
  | .hbm, ⟨85, _⟩ => ⟨S1x1, .i32⟩
  | .hbm, ⟨86, _⟩ => ⟨S1600000x1, .i32⟩
  | .hbm, ⟨87, _⟩ => ⟨S1600000x1, .i1⟩
  | .hbm, ⟨88, _⟩ => ⟨S1600000x1, .i1⟩
  | .hbm, ⟨89, _⟩ => ⟨S_, .i1⟩
  | .hbm, ⟨90, _⟩ => ⟨S1600000, .i1⟩
  | .hbm, ⟨91, _⟩ => ⟨S1600000x45, .f32⟩
  | .hbm, ⟨92, _⟩ => ⟨S1600000x45, .i1⟩
  | .hbm, ⟨93, _⟩ => ⟨S_, .f32⟩
  | .hbm, ⟨94, _⟩ => ⟨S1600000x45, .f32⟩
  | .hbm, ⟨95, _⟩ => ⟨S1600000x45, .f32⟩
  | .hbm, ⟨96, _⟩ => ⟨S1x64, .f32⟩
  | .hbm, ⟨97, _⟩ => ⟨S1x32, .f32⟩
  | .hbm, ⟨98, _⟩ => ⟨S1600000x32, .f32⟩
  | .hbm, ⟨99, _⟩ => ⟨S_, .f32⟩
  | .hbm, ⟨100, _⟩ => ⟨S50000x32, .f32⟩
  | .hbm, ⟨101, _⟩ => ⟨S1600000x1, .i32⟩
  | .hbm, ⟨102, _⟩ => ⟨S50000x32, .f32⟩
  | .hbm, ⟨103, _⟩ => ⟨S50000x45, .f32⟩
  | .hbm, ⟨104, _⟩ => ⟨S_, .f32⟩
  | .hbm, ⟨105, _⟩ => ⟨S128x45, .f32⟩
  | .hbm, ⟨106, _⟩ => ⟨S50000x1, .i32⟩
  | .hbm, ⟨107, _⟩ => ⟨S128x45, .f32⟩
  | .hbm, ⟨108, _⟩ => ⟨S_, .f32⟩
  | .hbm, ⟨109, _⟩ => ⟨S50000x1, .f32⟩
  | .hbm, ⟨110, _⟩ => ⟨S_, .f32⟩
  | .hbm, ⟨111, _⟩ => ⟨S128x1, .f32⟩
  | .hbm, ⟨112, _⟩ => ⟨S50000x1, .i32⟩
  | .hbm, ⟨113, _⟩ => ⟨S128x1, .f32⟩
  | .hbm, ⟨114, _⟩ => ⟨S_, .f32⟩
  | .hbm, ⟨115, _⟩ => ⟨S128x1, .f32⟩
  | .hbm, ⟨116, _⟩ => ⟨S128x1, .f32⟩
  | .hbm, ⟨117, _⟩ => ⟨S128x45, .f32⟩
  | .hbm, ⟨118, _⟩ => ⟨S128x45, .f32⟩
  | .hbm, ⟨119, _⟩ => ⟨S1x32, .f32⟩
  | .hbm, ⟨120, _⟩ => ⟨S1x1, .f32⟩
  | .hbm, ⟨121, _⟩ => ⟨S128x1, .f32⟩
  | .local _ .vmem, ⟨0, _⟩ => ⟨S5000x13, .f32⟩
  | .local _ .vmem, ⟨1, _⟩ => ⟨S5000x13, .f32⟩
  | .local _ .vmem, ⟨2, _⟩ => ⟨S1x13, .f32⟩
  | .local _ .vmem, ⟨3, _⟩ => ⟨S1x13, .f32⟩
  | .local _ .vmem, ⟨4, _⟩ => ⟨S13x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S5000x13, .f32⟩
  | .local _ .vmem, ⟨9, _⟩ => ⟨S5000x13, .f32⟩
  | .local _ .vmem, ⟨10, _⟩ => ⟨S5000x32, .f32⟩
  | .local _ .vmem, ⟨11, _⟩ => ⟨S5000x32, .f32⟩
  | .local _ .vmem, ⟨12, _⟩ => ⟨S4000x45, .f32⟩
  | .local _ .vmem, ⟨13, _⟩ => ⟨S4000x45, .f32⟩
  | .local _ .vmem, ⟨14, _⟩ => ⟨S4000x45, .f32⟩
  | .local _ .vmem, ⟨15, _⟩ => ⟨S4000x45, .f32⟩
  | .local _ .vmem, ⟨16, _⟩ => ⟨S90x64, .f32⟩
  | .local _ .vmem, ⟨17, _⟩ => ⟨S1x64, .f32⟩
  | .local _ .vmem, ⟨18, _⟩ => ⟨S64x32, .f32⟩
  | .local _ .vmem, ⟨19, _⟩ => ⟨S1x32, .f32⟩
  | .local _ .vmem, ⟨20, _⟩ => ⟨S4000x32, .f32⟩
  | .local _ .vmem, ⟨21, _⟩ => ⟨S4000x32, .f32⟩
  | .local _ .vmem, ⟨22, _⟩ => ⟨S128x45, .f32⟩
  | .local _ .vmem, ⟨23, _⟩ => ⟨S45x32, .f32⟩
  | .local _ .vmem, ⟨24, _⟩ => ⟨S1x32, .f32⟩
  | .local _ .vmem, ⟨25, _⟩ => ⟨S32x1, .f32⟩
  | .local _ .vmem, ⟨26, _⟩ => ⟨S1x1, .f32⟩
  | .local _ .vmem, ⟨27, _⟩ => ⟨S128x1, .f32⟩
  | _, _ => ⟨S50000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_cst_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21_0 : Ref sig .tc := ⟨.hbm, 43, rfl⟩
abbrev main_v21_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_cst : Ref sig .tc := ⟨.hbm, 70, rfl⟩
abbrev main_call0_v15 : Ref sig .tc := ⟨.hbm, 71, rfl⟩
abbrev main_v27 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_cst : Ref sig .tc := ⟨.hbm, 93, rfl⟩
abbrev main_call1_v15 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_cst_4 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_cst_5 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_cst_6 : Ref sig .tc := ⟨.hbm, 108, rfl⟩
abbrev main_v39 : Ref sig .tc := ⟨.hbm, 109, rfl⟩
abbrev main_cst_7 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_cst_8 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x13 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x13 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S13x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x13 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x45 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x45 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S90x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x45 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S45x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  reducesTo_S50000x13_S13_d0 : S50000x13.ReducesTo [0] S13
  h_S_ : 0 < S_.numel
  bcast_S_S13 : S_.BroadcastsInDim S13 (![] : Fin 0 → Fin S13.rank)
  bcast_S13_S1x13_1 : S13.BroadcastsInDim S1x13 (![1] : Fin 1 → Fin S1x13.rank)
  bcast_S1x13_S50000x13_0_1 : S1x13.BroadcastsInDim S50000x13 (![0, 1] : Fin 2 → Fin S50000x13.rank)
  shapeCasts_S13_S1x13 : S13.ShapeCasts S1x13
  shapeCasts_S32_S1x32 : S32.ShapeCasts S1x32
  inb_S5000x13_S5000x13_0_0 : ∀ a, (![0, 0] : Fin 2 → Nat) a + S5000x13.size a ≤ S5000x13.size a
  h_S5000x13 : 0 < S5000x13.numel
  inb_S1x13_S1x13_0_0 : ∀ a, (![0, 0] : Fin 2 → Nat) a + S1x13.size a ≤ S1x13.size a
  h_S1x13 : 0 < S1x13.numel
  shapeCasts_S1x13_S1x13 : S1x13.ShapeCasts S1x13
  broadcasts_S1x13_S5000x13 : S1x13.Broadcasts S5000x13
  bitsLt_bf16_f32 : FTy.bits .bf16 < FTy.bits .f32
  inb_S13x32_S13x32_0_0 : ∀ a, (![0, 0] : Fin 2 → Nat) a + S13x32.size a ≤ S13x32.size a
  h_S13x32 : 0 < S13x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S5000x32_S5000x32_0_0 : ∀ a, (![0, 0] : Fin 2 → Nat) a + S5000x32.size a ≤ S5000x32.size a
  h_S5000x32 : 0 < S5000x32.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S50000x32_S50000x13_S50000x45_d1 : Shape.Concatenates [S50000x32, S50000x13] S50000x45 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x45_0 : S1600000.BroadcastsInDim S1600000x45 (![0] : Fin 1 → Fin S1600000x45.rank)
  bcast_S_S1600000x45 : S_.BroadcastsInDim S1600000x45 (![] : Fin 0 → Fin S1600000x45.rank)
  shapeCasts_S64_S1x64 : S64.ShapeCasts S1x64
  inb_S4000x45_S4000x45_0_0 : ∀ a, (![0, 0] : Fin 2 → Nat) a + S4000x45.size a ≤ S4000x45.size a
  h_S4000x45 : 0 < S4000x45.numel
  shapeCasts_S4000x45_S4000x45 : S4000x45.ShapeCasts S4000x45
  concatenates_S4000x45_S4000x45_S4000x90_d1 : Shape.Concatenates [S4000x45, S4000x45] S4000x90 1
  inb_S90x64_S90x64_0_0 : ∀ a, (![0, 0] : Fin 2 → Nat) a + S90x64.size a ≤ S90x64.size a
  h_S90x64 : 0 < S90x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  bcast_S_S50000x32 : S_.BroadcastsInDim S50000x32 (![] : Fin 0 → Fin S50000x32.rank)
  bcast_S_S128x45 : S_.BroadcastsInDim S128x45 (![] : Fin 0 → Fin S128x45.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S128x1 : S_.BroadcastsInDim S128x1 (![] : Fin 0 → Fin S128x1.rank)
  bcast_S128x1_S128x45_0_1 : S128x1.BroadcastsInDim S128x45 (![0, 1] : Fin 2 → Fin S128x45.rank)
  shapeCasts_S1_S1x1 : S1.ShapeCasts S1x1
  inb_S128x45_S128x45_0_0 : ∀ a, (![0, 0] : Fin 2 → Nat) a + S128x45.size a ≤ S128x45.size a
  h_S128x45 : 0 < S128x45.numel
  shapeCasts_S128x45_S128x45 : S128x45.ShapeCasts S128x45
  inb_S45x32_S45x32_0_0 : ∀ a, (![0, 0] : Fin 2 → Nat) a + S45x32.size a ≤ S45x32.size a
  h_S45x32 : 0 < S45x32.numel
  broadcasts_S1x32_S128x32 : S1x32.Broadcasts S128x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  dot_S5000x13_S13x32_S5000x32_1_0_0_1_n_n_wf : DotDims.WF S5000x13 S13x32 S5000x32 [1] [0] [0] [1] [] []
  dot_S5000x32_S32x32_S5000x32_1_0_0_1_n_n_wf : DotDims.WF S5000x32 S32x32 S5000x32 [1] [0] [0] [1] [] []
  gather_S50000x45_S1600000x1_S1600000x45_1_0_n_n_0_1_145_wf : GatherDims.WF S50000x45 S1600000x1 S1600000x45 [1] [0] [] [0] [] 1 ![1, 45]
  dot_S4000x90_S90x64_S4000x64_1_0_0_1_n_n_wf : DotDims.WF S4000x90 S90x64 S4000x64 [1] [0] [0] [1] [] []
  dot_S4000x64_S64x32_S4000x32_1_0_0_1_n_n_wf : DotDims.WF S4000x64 S64x32 S4000x32 [1] [0] [0] [1] [] []
  scatter_S50000x32_S1600000x1_S1600000x32_1_0_0_1_wf : ScatterDims.WF S50000x32 S1600000x1 S1600000x32 [1] [0] [0] 1
  scatter_S128x45_S50000x1_S50000x45_1_0_0_1_wf : ScatterDims.WF S128x45 S50000x1 S50000x45 [1] [0] [0] 1
  scatter_S128x1_S50000x1_S50000x1_1_0_0_1_wf : ScatterDims.WF S128x1 S50000x1 S50000x1 [1] [0] [0] 1
  dot_S128x45_S45x32_S128x32_1_0_0_1_n_n_wf : DotDims.WF S128x45 S45x32 S128x32 [1] [0] [0] [1] [] []
  dot_S128x32_S32x1_S128x1_1_0_0_1_n_n_wf : DotDims.WF S128x32 S32x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x13.size a ≤ S50000x13.size a
  hwx0_0 : ∀ i : grid0.Coords, EltTy.bits .f32 = 32 ∨ (Rect.block (s := S50000x13) S5000x13.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x13.size a ≤ S1x13.size a
  hwx0_1 : ∀ i : grid0.Coords, EltTy.bits .f32 = 32 ∨ (Rect.block (s := S1x13) S1x13.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x13.size a ≤ S1x13.size a
  hwx0_2 : ∀ i : grid0.Coords, EltTy.bits .f32 = 32 ∨ (Rect.block (s := S1x13) S1x13.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x32.size a ≤ S13x32.size a
  hwx0_3 : ∀ i : grid0.Coords, EltTy.bits .f32 = 32 ∨ (Rect.block (s := S13x32) S13x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x13.size a ≤ S50000x13.size a
  hwx0_7 : ∀ i : grid0.Coords, EltTy.bits .f32 = 32 ∨ (Rect.block (s := S50000x13) S5000x13.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x32.size a ≤ S50000x32.size a
  hwx0_8 : ∀ i : grid0.Coords, EltTy.bits .f32 = 32 ∨ (Rect.block (s := S50000x32) S5000x32.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x45.size a ≤ S1600000x45.size a
  hwx1_0 : ∀ i : grid1.Coords, EltTy.bits .f32 = 32 ∨ (Rect.block (s := S1600000x45) S4000x45.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x45.size a ≤ S1600000x45.size a
  hwx1_1 : ∀ i : grid1.Coords, EltTy.bits .f32 = 32 ∨ (Rect.block (s := S1600000x45) S4000x45.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S90x64.size a ≤ S90x64.size a
  hwx1_2 : ∀ i : grid1.Coords, EltTy.bits .f32 = 32 ∨ (Rect.block (s := S90x64) S90x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x32.size a ≤ S1600000x32.size a
  hwx1_6 : ∀ i : grid1.Coords, EltTy.bits .f32 = 32 ∨ (Rect.block (s := S1600000x32) S4000x32.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x45.size a ≤ S128x45.size a
  hwx2_0 : ∀ i : grid2.Coords, EltTy.bits .f32 = 32 ∨ (Rect.block (s := S128x45) S128x45.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S45x32.size a ≤ S45x32.size a
  hwx2_1 : ∀ i : grid2.Coords, EltTy.bits .f32 = 32 ∨ (Rect.block (s := S45x32) S45x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x1.size a ≤ S32x1.size a
  hwx2_3 : ∀ i : grid2.Coords, EltTy.bits .f32 = 32 ∨ (Rect.block (s := S32x1) S32x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)

variable [Facts₀]

def dot_S5000x13_S13x32_S5000x32_1_0_0_1_n_n : DotDims S5000x13 S13x32 S5000x32 where
  lhsContracting := [1]
  rhsContracting := [0]
  lhsNonContracting := [0]
  rhsNonContracting := [1]
  lhsBatch := []
  rhsBatch := []
  wf := dot_S5000x13_S13x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S50000x45_S1600000x1_S1600000x45_1_0_n_n_0_1_145 : GatherDims S50000x45 S1600000x1 S1600000x45 where
  offsetDims := [1]
  collapsedSliceDims := [0]
  operandBatchingDims := []
  startIndicesBatchingDims := []
  startIndexMap := [0]
  indexVectorDim := 1
  sliceSizes := ![1, 45]
  wf := gather_S50000x45_S1600000x1_S1600000x45_1_0_n_n_0_1_145_wf
def dot_S4000x90_S90x64_S4000x64_1_0_0_1_n_n : DotDims S4000x90 S90x64 S4000x64 where
  lhsContracting := [1]
  rhsContracting := [0]
  lhsNonContracting := [0]
  rhsNonContracting := [1]
  lhsBatch := []
  rhsBatch := []
  wf := dot_S4000x90_S90x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S128x45_S50000x1_S50000x45_1_0_0_1 : ScatterDims S128x45 S50000x1 S50000x45 where
  updateWindowDims := [1]
  insertedWindowDims := [0]
  scatterDimsToOperandDims := [0]
  indexVectorDim := 1
  wf := scatter_S128x45_S50000x1_S50000x45_1_0_0_1_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf
def dot_S128x45_S45x32_S128x32_1_0_0_1_n_n : DotDims S128x45 S45x32 S128x32 where
  lhsContracting := [1]
  rhsContracting := [0]
  lhsNonContracting := [0]
  rhsNonContracting := [1]
  lhsBatch := []
  rhsBatch := []
  wf := dot_S128x45_S45x32_S128x32_1_0_0_1_n_n_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf

abbrev win0_0 : Pipeline.Window sig grid0 :=
  Pipeline.Window.ofSpec (Memref.whole main_arg0) S5000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x13.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x13.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S13x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_0) S5000x13.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_1) S5000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v27) S4000x45.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x45.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S90x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S4000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S128x45.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S45x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S32x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S128x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x13 : Shape := ⟨2, ![50000, 13]⟩
abbrev S2x1600000 : Shape := ⟨2, ![2, 1600000]⟩
abbrev S50000 : Shape := ⟨1, ![50000]⟩
abbrev S13 : Shape := ⟨1, ![13]⟩
abbrev S13x32 : Shape := ⟨2, ![13, 32]⟩
abbrev S32 : Shape := ⟨1, ![32]⟩
abbrev S32x32 : Shape := ⟨2, ![32, 32]⟩
abbrev S90x64 : Shape := ⟨2, ![90, 64]⟩
abbrev S64 : Shape := ⟨1, ![64]⟩
abbrev S64x32 : Shape := ⟨2, ![64, 32]⟩
abbrev S45x32 : Shape := ⟨2, ![45, 32]⟩
abbrev S32x1 : Shape := ⟨2, ![32, 1]⟩
abbrev S1 : Shape := ⟨1, ![1]⟩
abbrev S_ : Shape := ⟨0, ![]⟩
abbrev S1x13 : Shape := ⟨2, ![1, 13]⟩
abbrev S50000x32 : Shape := ⟨2, ![50000, 32]⟩
abbrev S1x32 : Shape := ⟨2, ![1, 32]⟩
abbrev S50000x45 : Shape := ⟨2, ![50000, 45]⟩
abbrev S1x1600000 : Shape := ⟨2, ![1, 1600000]⟩
abbrev S1600000 : Shape := ⟨1, ![1600000]⟩
abbrev S1600000x1 : Shape := ⟨2, ![1600000, 1]⟩
abbrev S1600000x45 : Shape := ⟨2, ![1600000, 45]⟩
abbrev S1600000x90 : Shape := ⟨2, ![1600000, 90]⟩
abbrev S1600000x64 : Shape := ⟨2, ![1600000, 64]⟩
abbrev S1x64 : Shape := ⟨2, ![1, 64]⟩
abbrev S1600000x32 : Shape := ⟨2, ![1600000, 32]⟩
abbrev S128x45 : Shape := ⟨2, ![128, 45]⟩
abbrev S50000x1 : Shape := ⟨2, ![50000, 1]⟩
abbrev S128x1 : Shape := ⟨2, ![128, 1]⟩
abbrev S128x32 : Shape := ⟨2, ![128, 32]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S50000x13, .f32⟩
  | 1 => ⟨S2x1600000, .i32⟩
  | 2 => ⟨S50000, .i32⟩
  | 3 => ⟨S13, .f32⟩
  | 4 => ⟨S13, .f32⟩
  | 5 => ⟨S13x32, .f32⟩
  | 6 => ⟨S32, .f32⟩
  | 7 => ⟨S32x32, .f32⟩
  | 8 => ⟨S32, .f32⟩
  | 9 => ⟨S90x64, .f32⟩
  | 10 => ⟨S64, .f32⟩
  | 11 => ⟨S64x32, .f32⟩
  | 12 => ⟨S32, .f32⟩
  | 13 => ⟨S45x32, .f32⟩
  | 14 => ⟨S32, .f32⟩
  | 15 => ⟨S32x1, .f32⟩
  | 16 => ⟨S1, .f32⟩
  | 17 => ⟨S_, .f32⟩
  | 18 => ⟨S13, .f32⟩
  | 19 => ⟨S_, .f32⟩
  | 20 => ⟨S13, .f32⟩
  | 21 => ⟨S13, .f32⟩
  | 22 => ⟨S1x13, .f32⟩
  | 23 => ⟨S50000x13, .f32⟩
  | 24 => ⟨S50000x13, .f32⟩
  | 25 => ⟨S50000x13, .f32⟩
  | 26 => ⟨S_, .f32⟩
  | 27 => ⟨S13, .f32⟩
  | 28 => ⟨S_, .f32⟩
  | 29 => ⟨S13, .f32⟩
  | 30 => ⟨S13, .f32⟩
  | 31 => ⟨S1x13, .f32⟩
  | 32 => ⟨S50000x13, .f32⟩
  | 33 => ⟨S50000x13, .f32⟩
  | 34 => ⟨S_, .f32⟩
  | 35 => ⟨S13, .f32⟩
  | 36 => ⟨S13, .f32⟩
  | 37 => ⟨S13, .f32⟩
  | 38 => ⟨S1x13, .f32⟩
  | 39 => ⟨S50000x13, .f32⟩
  | 40 => ⟨S50000x13, .f32⟩
  | 41 => ⟨S1x13, .f32⟩
  | 42 => ⟨S50000x13, .f32⟩
  | 43 => ⟨S50000x13, .f32⟩
  | 44 => ⟨S1x13, .f32⟩
  | 45 => ⟨S50000x13, .f32⟩
  | 46 => ⟨S50000x13, .f32⟩
  | 47 => ⟨S50000x32, .f32⟩
  | 48 => ⟨S1x32, .f32⟩
  | 49 => ⟨S50000x32, .f32⟩
  | 50 => ⟨S50000x32, .f32⟩
  | 51 => ⟨S_, .f32⟩
  | 52 => ⟨S50000x32, .f32⟩
  | 53 => ⟨S50000x32, .f32⟩
  | 54 => ⟨S50000x32, .f32⟩
  | 55 => ⟨S1x32, .f32⟩
  | 56 => ⟨S50000x32, .f32⟩
  | 57 => ⟨S50000x32, .f32⟩
  | 58 => ⟨S50000x32, .f32⟩
  | 59 => ⟨S50000x45, .f32⟩
  | 60 => ⟨S1x1600000, .i32⟩
  | 61 => ⟨S1600000, .i32⟩
  | 62 => ⟨S1x1600000, .i32⟩
  | 63 => ⟨S1600000, .i32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x45, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x45, .f32⟩
  | 82 => ⟨S1600000x45, .f32⟩
  | 83 => ⟨S1600000x90, .f32⟩
  | 84 => ⟨S1600000x64, .f32⟩
  | 85 => ⟨S1x64, .f32⟩
  | 86 => ⟨S1600000x64, .f32⟩
  | 87 => ⟨S1600000x64, .f32⟩
  | 88 => ⟨S_, .f32⟩
  | 89 => ⟨S1600000x64, .f32⟩
  | 90 => ⟨S1600000x64, .f32⟩
  | 91 => ⟨S1600000x32, .f32⟩
  | 92 => ⟨S1x32, .f32⟩
  | 93 => ⟨S1600000x32, .f32⟩
  | 94 => ⟨S1600000x32, .f32⟩
  | 95 => ⟨S1600000x32, .f32⟩
  | 96 => ⟨S_, .f32⟩
  | 97 => ⟨S50000x32, .f32⟩
  | 98 => ⟨S1600000x1, .i32⟩
  | 99 => ⟨S50000x32, .f32⟩
  | 100 => ⟨S50000x45, .f32⟩
  | 101 => ⟨S_, .f32⟩
  | 102 => ⟨S128x45, .f32⟩
  | 103 => ⟨S50000x1, .i32⟩
  | 104 => ⟨S128x45, .f32⟩
  | 105 => ⟨S_, .f32⟩
  | 106 => ⟨S50000x1, .f32⟩
  | 107 => ⟨S_, .f32⟩
  | 108 => ⟨S128x1, .f32⟩
  | 109 => ⟨S50000x1, .i32⟩
  | 110 => ⟨S128x1, .f32⟩
  | 111 => ⟨S_, .f32⟩
  | 112 => ⟨S128x1, .f32⟩
  | 113 => ⟨S128x1, .f32⟩
  | 114 => ⟨S128x45, .f32⟩
  | 115 => ⟨S128x45, .f32⟩
  | 116 => ⟨S128x32, .f32⟩
  | 117 => ⟨S1x32, .f32⟩
  | 118 => ⟨S128x32, .f32⟩
  | 119 => ⟨S128x32, .f32⟩
  | 120 => ⟨S_, .f32⟩
  | 121 => ⟨S128x32, .f32⟩
  | 122 => ⟨S128x32, .f32⟩
  | 123 => ⟨S128x1, .f32⟩
  | 124 => ⟨S1x1, .f32⟩
  | 125 => ⟨S128x1, .f32⟩
  | 126 => ⟨S128x1, .f32⟩
  | 127 => ⟨S128x1, .f32⟩
  | _ => ⟨S50000x13, .f32⟩

abbrev hbmTy0_1 (i : Nat) : BufTy := match i % 128 with
  | 0 => ⟨S128x1, .f32⟩
  | 1 => ⟨S_, .f32⟩
  | 2 => ⟨S128x1, .f32⟩
  | 3 => ⟨S128x1, .f32⟩
  | 4 => ⟨S_, .f32⟩
  | 5 => ⟨S128x1, .f32⟩
  | 6 => ⟨S128x1, .f32⟩
  | _ => ⟨S50000x13, .f32⟩

abbrev hbmTy (i : Nat) : BufTy := match i / 128 with
  | 0 => hbmTy0_0 i
  | 1 => hbmTy0_1 i
  | _ => ⟨S50000x13, .f32⟩

abbrev bufTy : (tb : Table) → Fin (tcTables nBuf tb) → BufTy
  | .hbm, ⟨i, _⟩ => hbmTy i
  | _, _ => ⟨S50000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_cst : Ref sig .tc := ⟨.hbm, 51, rfl⟩
abbrev main_call0_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c : Ref sig .tc := ⟨.hbm, 64, rfl⟩
abbrev main_v40 : Ref sig .tc := ⟨.hbm, 65, rfl⟩
abbrev main_v41 : Ref sig .tc := ⟨.hbm, 66, rfl⟩
abbrev main_c_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_5 : Ref sig .tc := ⟨.hbm, 73, rfl⟩
abbrev main_v47 : Ref sig .tc := ⟨.hbm, 74, rfl⟩
abbrev main_v48 : Ref sig .tc := ⟨.hbm, 75, rfl⟩
abbrev main_c_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call1_cst : Ref sig .tc := ⟨.hbm, 88, rfl⟩
abbrev main_call1_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_7 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_8 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_9 : Ref sig .tc := ⟨.hbm, 105, rfl⟩
abbrev main_v73 : Ref sig .tc := ⟨.hbm, 106, rfl⟩
abbrev main_cst_10 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_11 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call2_cst : Ref sig .tc := ⟨.hbm, 120, rfl⟩
abbrev main_call2_v0 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_12 : Ref sig .tc := ⟨.hbm, 129, rfl⟩
abbrev main_v92 : Ref sig .tc := ⟨.hbm, 130, rfl⟩
abbrev main_v93 : Ref sig .tc := ⟨.hbm, 131, rfl⟩
abbrev main_cst_13 : Ref sig .tc := ⟨.hbm, 132, rfl⟩
abbrev main_v94 : Ref sig .tc := ⟨.hbm, 133, rfl⟩
abbrev main_v95 : Ref sig .tc := ⟨.hbm, 134, rfl⟩

abbrev nD : Nat := 1
abbrev τ : Topo := Topo.v7x

variable {F : FTy → Type} [FloatOps F]

class Facts₀ : Prop where
  reducesTo_S50000x13_S13_d0 : S50000x13.ReducesTo [0] S13
  h_S_ : 0 < S_.numel
  bcast_S_S13 : S_.BroadcastsInDim S13 (![] : Fin 0 → Fin S13.rank)
  bcast_S13_S1x13_1 : S13.BroadcastsInDim S1x13 (![1] : Fin 1 → Fin S1x13.rank)
  bcast_S1x13_S50000x13_0_1 : S1x13.BroadcastsInDim S50000x13 (![0, 1] : Fin 2 → Fin S50000x13.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  concatenates_S50000x32_S50000x13_S50000x45_d1 : Shape.Concatenates [S50000x32, S50000x13] S50000x45 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x45_S1600000x45_S1600000x90_d1 : Shape.Concatenates [S1600000x45, S1600000x45] S1600000x90 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1x32_S1600000x32_0_1 : S1x32.BroadcastsInDim S1600000x32 (![0, 1] : Fin 2 → Fin S1600000x32.rank)
  bcast_S_S128x45 : S_.BroadcastsInDim S128x45 (![] : Fin 0 → Fin S128x45.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S128x1 : S_.BroadcastsInDim S128x1 (![] : Fin 0 → Fin S128x1.rank)
  bcast_S128x1_S128x45_0_1 : S128x1.BroadcastsInDim S128x45 (![0, 1] : Fin 2 → Fin S128x45.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S50000x13_S13x32_S50000x32_1_0_0_1_n_n_wf : DotDims.WF S50000x13 S13x32 S50000x32 [1] [0] [0] [1] [] []
  dot_S50000x32_S32x32_S50000x32_1_0_0_1_n_n_wf : DotDims.WF S50000x32 S32x32 S50000x32 [1] [0] [0] [1] [] []
  gather_S50000x45_S1600000x1_S1600000x45_1_0_n_n_0_1_145_wf : GatherDims.WF S50000x45 S1600000x1 S1600000x45 [1] [0] [] [0] [] 1 ![1, 45]
  dot_S1600000x90_S90x64_S1600000x64_1_0_0_1_n_n_wf : DotDims.WF S1600000x90 S90x64 S1600000x64 [1] [0] [0] [1] [] []
  dot_S1600000x64_S64x32_S1600000x32_1_0_0_1_n_n_wf : DotDims.WF S1600000x64 S64x32 S1600000x32 [1] [0] [0] [1] [] []
  scatter_S50000x32_S1600000x1_S1600000x32_1_0_0_1_wf : ScatterDims.WF S50000x32 S1600000x1 S1600000x32 [1] [0] [0] 1
  scatter_S128x45_S50000x1_S50000x45_1_0_0_1_wf : ScatterDims.WF S128x45 S50000x1 S50000x45 [1] [0] [0] 1
  scatter_S128x1_S50000x1_S50000x1_1_0_0_1_wf : ScatterDims.WF S128x1 S50000x1 S50000x1 [1] [0] [0] 1
  dot_S128x45_S45x32_S128x32_1_0_0_1_n_n_wf : DotDims.WF S128x45 S45x32 S128x32 [1] [0] [0] [1] [] []
  dot_S128x32_S32x1_S128x1_1_0_0_1_n_n_wf : DotDims.WF S128x32 S32x1 S128x1 [1] [0] [0] [1] [] []

variable [Facts₀]

def dot_S50000x13_S13x32_S50000x32_1_0_0_1_n_n : DotDims S50000x13 S13x32 S50000x32 where
  lhsContracting := [1]
  rhsContracting := [0]
  lhsNonContracting := [0]
  rhsNonContracting := [1]
  lhsBatch := []
  rhsBatch := []
  wf := dot_S50000x13_S13x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def gather_S50000x45_S1600000x1_S1600000x45_1_0_n_n_0_1_145 : GatherDims S50000x45 S1600000x1 S1600000x45 where
  offsetDims := [1]
  collapsedSliceDims := [0]
  operandBatchingDims := []
  startIndicesBatchingDims := []
  startIndexMap := [0]
  indexVectorDim := 1
  sliceSizes := ![1, 45]
  wf := gather_S50000x45_S1600000x1_S1600000x45_1_0_n_n_0_1_145_wf
def dot_S1600000x90_S90x64_S1600000x64_1_0_0_1_n_n : DotDims S1600000x90 S90x64 S1600000x64 where
  lhsContracting := [1]
  rhsContracting := [0]
  lhsNonContracting := [0]
  rhsNonContracting := [1]
  lhsBatch := []
  rhsBatch := []
  wf := dot_S1600000x90_S90x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S128x45_S50000x1_S50000x45_1_0_0_1 : ScatterDims S128x45 S50000x1 S50000x45 where
  updateWindowDims := [1]
  insertedWindowDims := [0]
  scatterDimsToOperandDims := [0]
  indexVectorDim := 1
  wf := scatter_S128x45_S50000x1_S50000x45_1_0_0_1_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf
def dot_S128x45_S45x32_S128x32_1_0_0_1_n_n : DotDims S128x45 S45x32 S128x32 where
  lhsContracting := [1]
  rhsContracting := [0]
  lhsNonContracting := [0]
  rhsNonContracting := [1]
  lhsBatch := []
  rhsBatch := []
  wf := dot_S128x45_S45x32_S128x32_1_0_0_1_n_n_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf

class Facts : Prop extends Facts₀ where

variable [Facts]
-- ==== Proof.RefChunk1.lean ====
import proofs.«417757_j46952582480249_1_alg».proof.Proof.ReadP
import Idealize.ShloMosaic.Lib.StableHlo.Run

/-!
Operations 1 to 30 of the reference: the column mean and variance of the features and the normalised features
`(x - mean) / sqrt (var + eps) * gamma + beta`.
Run from any buffer contents that hold the inputs at their stages, these operations leave their results at the
stages the reference's reading names, and touch no buffer but the ones they write.
-/

set_option maxRecDepth 16384

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 1 to 30 of the reference's @main, in order. -/
abbrev ops1 : List (HloOp τ sig (Elt F)) :=
  [ nullary main_cst (constant S_ .f32 0x00000000#32),
    binary main_arg0 main_cst main_v0 ((fun x v => Host.reduceAdd x v reducesTo_S50000x13_S13_d0 h_S_) : (⟨S50000x13, .f32⟩ : BufTy).Contents (Elt F) → (⟨S_, .f32⟩ : BufTy).Contents (Elt F) → (⟨S13, .f32⟩ : BufTy).Contents (Elt F)),
    nullary main_cst_0 (constant S_ .f32 0x47435000#32),
    unary main_cst_0 main_v1 (broadcastInDim S13 ![] bcast_S_S13 : (⟨S_, .f32⟩ : BufTy).Contents (Elt F) → (⟨S13, .f32⟩ : BufTy).Contents (Elt F)),
    binary main_v0 main_v1 main_v2 (Host.divf : (⟨S13, .f32⟩ : BufTy).Contents (Elt F) → (⟨S13, .f32⟩ : BufTy).Contents (Elt F) → (⟨S13, .f32⟩ : BufTy).Contents (Elt F)),
    unary main_v2 main_v3 (broadcastInDim S1x13 ![1] bcast_S13_S1x13_1 : (⟨S13, .f32⟩ : BufTy).Contents (Elt F) → (⟨S1x13, .f32⟩ : BufTy).Contents (Elt F)),
    unary main_v3 main_v4 (broadcastInDim S50000x13 ![0, 1] bcast_S1x13_S50000x13_0_1 : (⟨S1x13, .f32⟩ : BufTy).Contents (Elt F) → (⟨S50000x13, .f32⟩ : BufTy).Contents (Elt F)),
    binary main_arg0 main_v4 main_v5 (subf : (⟨S50000x13, .f32⟩ : BufTy).Contents (Elt F) → (⟨S50000x13, .f32⟩ : BufTy).Contents (Elt F) → (⟨S50000x13, .f32⟩ : BufTy).Contents (Elt F)),
    binary main_v5 main_v5 main_v6 (mulf : (⟨S50000x13, .f32⟩ : BufTy).Contents (Elt F) → (⟨S50000x13, .f32⟩ : BufTy).Contents (Elt F) → (⟨S50000x13, .f32⟩ : BufTy).Contents (Elt F)),
    nullary main_cst_1 (constant S_ .f32 0x00000000#32),
    binary main_v6 main_cst_1 main_v7 ((fun x v => Host.reduceAdd x v reducesTo_S50000x13_S13_d0 h_S_) : (⟨S50000x13, .f32⟩ : BufTy).Contents (Elt F) → (⟨S_, .f32⟩ : BufTy).Contents (Elt F) → (⟨S13, .f32⟩ : BufTy).Contents (Elt F)),
    nullary main_cst_2 (constant S_ .f32 0x47435000#32),
    unary main_cst_2 main_v8 (broadcastInDim S13 ![] bcast_S_S13 : (⟨S_, .f32⟩ : BufTy).Contents (Elt F) → (⟨S13, .f32⟩ : BufTy).Contents (Elt F)),
    binary main_v7 main_v8 main_v9 (Host.divf : (⟨S13, .f32⟩ : BufTy).Contents (Elt F) → (⟨S13, .f32⟩ : BufTy).Contents (Elt F) → (⟨S13, .f32⟩ : BufTy).Contents (Elt F)),
    unary main_v2 main_v10 (broadcastInDim S1x13 ![1] bcast_S13_S1x13_1 : (⟨S13, .f32⟩ : BufTy).Contents (Elt F) → (⟨S1x13, .f32⟩ : BufTy).Contents (Elt F)),
    unary main_v10 main_v11 (broadcastInDim S50000x13 ![0, 1] bcast_S1x13_S50000x13_0_1 : (⟨S1x13, .f32⟩ : BufTy).Contents (Elt F) → (⟨S50000x13, .f32⟩ : BufTy).Contents (Elt F)),
    binary main_arg0 main_v11 main_v12 (subf : (⟨S50000x13, .f32⟩ : BufTy).Contents (Elt F) → (⟨S50000x13, .f32⟩ : BufTy).Contents (Elt F) → (⟨S50000x13, .f32⟩ : BufTy).Contents (Elt F)),
    nullary main_cst_3 (constant S_ .f32 0x3727C5AC#32),
    unary main_cst_3 main_v13 (broadcastInDim S13 ![] bcast_S_S13 : (⟨S_, .f32⟩ : BufTy).Contents (Elt F) → (⟨S13, .f32⟩ : BufTy).Contents (Elt F)),
    binary main_v9 main_v13 main_v14 (addf : (⟨S13, .f32⟩ : BufTy).Contents (Elt F) → (⟨S13, .f32⟩ : BufTy).Contents (Elt F) → (⟨S13, .f32⟩ : BufTy).Contents (Elt F)),
    unary main_v14 main_v15 (Host.sqrt : (⟨S13, .f32⟩ : BufTy).Contents (Elt F) → (⟨S13, .f32⟩ : BufTy).Contents (Elt F)),
    unary main_v15 main_v16 (broadcastInDim S1x13 ![1] bcast_S13_S1x13_1 : (⟨S13, .f32⟩ : BufTy).Contents (Elt F) → (⟨S1x13, .f32⟩ : BufTy).Contents (Elt F)),
    unary main_v16 main_v17 (broadcastInDim S50000x13 ![0, 1] bcast_S1x13_S50000x13_0_1 : (⟨S1x13, .f32⟩ : BufTy).Contents (Elt F) → (⟨S50000x13, .f32⟩ : BufTy).Contents (Elt F)),
    binary main_v12 main_v17 main_v18 (Host.divf : (⟨S50000x13, .f32⟩ : BufTy).Contents (Elt F) → (⟨S50000x13, .f32⟩ : BufTy).Contents (Elt F) → (⟨S50000x13, .f32⟩ : BufTy).Contents (Elt F)),
    unary main_arg3 main_v19 (broadcastInDim S1x13 ![1] bcast_S13_S1x13_1 : (⟨S13, .f32⟩ : BufTy).Contents (Elt F) → (⟨S1x13, .f32⟩ : BufTy).Contents (Elt F)),
    unary main_v19 main_v20 (broadcastInDim S50000x13 ![0, 1] bcast_S1x13_S50000x13_0_1 : (⟨S1x13, .f32⟩ : BufTy).Contents (Elt F) → (⟨S50000x13, .f32⟩ : BufTy).Contents (Elt F)),
    binary main_v18 main_v20 main_v21 (mulf : (⟨S50000x13, .f32⟩ : BufTy).Contents (Elt F) → (⟨S50000x13, .f32⟩ : BufTy).Contents (Elt F) → (⟨S50000x13, .f32⟩ : BufTy).Contents (Elt F)),
    unary main_arg4 main_v22 (broadcastInDim S1x13 ![1] bcast_S13_S1x13_1 : (⟨S13, .f32⟩ : BufTy).Contents (Elt F) → (⟨S1x13, .f32⟩ : BufTy).Contents (Elt F)),
    unary main_v22 main_v23 (broadcastInDim S50000x13 ![0, 1] bcast_S1x13_S50000x13_0_1 : (⟨S1x13, .f32⟩ : BufTy).Contents (Elt F) → (⟨S50000x13, .f32⟩ : BufTy).Contents (Elt F)),
    binary main_v21 main_v23 main_v24 (addf : (⟨S50000x13, .f32⟩ : BufTy).Contents (Elt F) → (⟨S50000x13, .f32⟩ : BufTy).Contents (Elt F) → (⟨S50000x13, .f32⟩ : BufTy).Contents (Elt F)) ]

/-- The buffers these operations write. -/
abbrev w1 : List (Ref sig .tc) := [main_cst, main_v0, main_cst_0, main_v1, main_v2, main_v3, main_v4, main_v5, main_v6, main_cst_1, main_v7, main_cst_2, main_v8, main_v9, main_v10, main_v11, main_v12, main_cst_3, main_v13, main_v14, main_v15, main_v16, main_v17, main_v18, main_v19, main_v20, main_v21, main_v22, main_v23, main_v24]

/-- A buffer none of these operations writes keeps its contents. -/
theorem ops1_keeps (V : Valuation τ sig (Elt F)) (r : Ref sig .tc) (hr : r ∉ w1) :
    after ops1 V (Proc.devRef .tc r) = V (Proc.devRef .tc r) := by
  refine after_of_writes_sub (W := w1) ops1 V ?_ hr
  simp only [ops1, List.Forall, nullary_writes, unary_writes, binary_writes, Finset.singleton_subset_iff, List.mem_toFinset]
  repeat' apply And.intro
  all_goals exact List.mem_map.mpr ⟨_, by decide, rfl⟩

set_option maxHeartbeats 4000000 in
/-- From contents holding the chunk's inputs at their stages, `main_v24` ends at its stage. -/
theorem ops1_v24 (V : Valuation τ sig (Elt F)) (x0 : (⟨S50000x13, .f32⟩ : BufTy).Contents (Elt F)) (x3 : (⟨S13, .f32⟩ : BufTy).Contents (Elt F)) (x4 : (⟨S13, .f32⟩ : BufTy).Contents (Elt F))
    (h0 : V (Proc.devRef .tc main_arg0) = x0)
    (h3 : V (Proc.devRef .tc main_arg3) = x3)
    (h4 : V (Proc.devRef .tc main_arg4) = x4) :
    after ops1 V (Proc.devRef .tc main_v24) = val_main_v24 (F := F) x0 x3 x4 := by
  subst h0 h3 h4
  after_results_simp
  unfold val_main_v24 val_main_v23 val_main_v22 val_main_v21 val_main_v20 val_main_v19 val_main_v18 val_main_v17
    val_main_v16 val_main_v15 val_main_v14 val_main_v13 val_main_cst_3 val_main_v12 val_main_v11 val_main_v10
    val_main_v9 val_main_v8 val_main_cst_2 val_main_v7 val_main_cst_1 val_main_v6 val_main_v5 val_main_v4
    val_main_v3 val_main_v2 val_main_v1 val_main_cst_0 val_main_v0 val_main_cst
  rfl

end Cert.ReferenceIdeal.Chunks

end
-- ==== Proof.RefChunk2.lean ====
import proofs.«417757_j46952582480249_1_alg».proof.Proof.ReadP
import Idealize.ShloMosaic.Lib.StableHlo.Run

/-!
Operations 31 to 43 of the reference: the node perceptron (two products with bias, rectifier between, tanh at the
end) and the feature table, hidden features beside normalised ones.
Run from any buffer contents that hold the inputs at their stages, these operations leave their results at the
stages the reference's reading names, and touch no buffer but the ones they write.
-/

set_option maxRecDepth 16384

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 31 to 43 of the reference's @main, in order. -/
abbrev ops2 : List (HloOp τ sig (Elt F)) :=
  [ binary main_v24 main_arg5 main_v25 ((fun l r => Host.dotGeneral dot_S50000x13_S13x32_S50000x32_1_0_0_1_n_n none l r) : (⟨S50000x13, .f32⟩ : BufTy).Contents (Elt F) → (⟨S13x32, .f32⟩ : BufTy).Contents (Elt F) → (⟨S50000x32, .f32⟩ : BufTy).Contents (Elt F)),
    unary main_arg6 main_v26 (broadcastInDim S1x32 ![1] bcast_S32_S1x32_1 : (⟨S32, .f32⟩ : BufTy).Contents (Elt F) → (⟨S1x32, .f32⟩ : BufTy).Contents (Elt F)),
    unary main_v26 main_v27 (broadcastInDim S50000x32 ![0, 1] bcast_S1x32_S50000x32_0_1 : (⟨S1x32, .f32⟩ : BufTy).Contents (Elt F) → (⟨S50000x32, .f32⟩ : BufTy).Contents (Elt F)),
    binary main_v25 main_v27 main_v28 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x32, .f32⟩) main_call0_v0) (broadcastInDim S50000x32 ![] bcast_S_S50000x32),
    TRef.binary (TRef.of (T := ⟨S50000x32, .f32⟩) main_v28) (TRef.of (T := ⟨S50000x32, .f32⟩) main_call0_v0) (TRef.of (T := ⟨S50000x32, .f32⟩) main_v29) maximumf,
    binary main_v29 main_arg7 main_v30 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_arg8 main_v31 (broadcastInDim S1x32 ![1] bcast_S32_S1x32_1 : (⟨S32, .f32⟩ : BufTy).Contents (Elt F) → (⟨S1x32, .f32⟩ : BufTy).Contents (Elt F)),
    unary main_v31 main_v32 (broadcastInDim S50000x32 ![0, 1] bcast_S1x32_S50000x32_0_1 : (⟨S1x32, .f32⟩ : BufTy).Contents (Elt F) → (⟨S50000x32, .f32⟩ : BufTy).Contents (Elt F)),
    binary main_v30 main_v32 main_v33 (addf : (⟨S50000x32, .f32⟩ : BufTy).Contents (Elt F) → (⟨S50000x32, .f32⟩ : BufTy).Contents (Elt F) → (⟨S50000x32, .f32⟩ : BufTy).Contents (Elt F)),
    unary main_v33 main_v34 (Host.tanh : (⟨S50000x32, .f32⟩ : BufTy).Contents (Elt F) → (⟨S50000x32, .f32⟩ : BufTy).Contents (Elt F)),
    binary main_v34 main_v24 main_v35 ((fun a b => concatenate S50000x45 1 [⟨S50000x32, a⟩, ⟨S50000x13, b⟩] concatenates_S50000x32_S50000x13_S50000x45_d1) : (⟨S50000x32, .f32⟩ : BufTy).Contents (Elt F) → (⟨S50000x13, .f32⟩ : BufTy).Contents (Elt F) → (⟨S50000x45, .f32⟩ : BufTy).Contents (Elt F)) ]

/-- The buffers these operations write. -/
abbrev w2 : List (Ref sig .tc) := [main_v25, main_v26, main_v27, main_v28, main_call0_cst, main_call0_v0, main_v29, main_v30, main_v31, main_v32, main_v33, main_v34, main_v35]

/-- Contents carried to a buffer's own type and back are unchanged. -/
theorem ofBuf_toBuf2 {Val : EltTy → Type} {T : BufTy} (x : TRef sig T) (v : T.Contents Val) : x.ofBuf (x.toBuf v) = v := by
  obtain ⟨r, rfl, _, _⟩ := x
  rfl

/-- The rectifier reads the biased product at its own type. -/
theorem ofBuf_v28 (h1 h2 h3) (v : (⟨S50000x32, .f32⟩ : BufTy).Contents (Elt F)) :
    (TRef.of main_v28 h1 h2 h3 : TRef sig ⟨S50000x32, .f32⟩).ofBuf v = v := cast_eq _ _
/-- The rectifier writes its result at its own type. -/
theorem toBuf_v29 (h1 h2 h3) (v : (⟨S50000x32, .f32⟩ : BufTy).Contents (Elt F)) :
    (TRef.of main_v29 h1 h2 h3 : TRef sig ⟨S50000x32, .f32⟩).toBuf v = v := cast_eq _ _

/-- A buffer none of these operations writes keeps its contents. -/
theorem ops2_keeps (V : Valuation τ sig (Elt F)) (r : Ref sig .tc) (hr : r ∉ w2) :
    after ops2 V (Proc.devRef .tc r) = V (Proc.devRef .tc r) := by
  refine after_of_writes_sub ops2 V ?_ hr
  simp only [List.Forall, nullary_writes, unary_writes, binary_writes, Finset.singleton_subset_iff, List.mem_toFinset]
  repeat' apply And.intro
  all_goals exact List.mem_map_of_mem (by decide)

set_option maxHeartbeats 40000000 in
/-- From contents holding the chunk's inputs at their stages, `main_v35` ends at its stage. -/
theorem ops2_v35 (V : Valuation τ sig (Elt F)) (x0 : (⟨S50000x13, .f32⟩ : BufTy).Contents (Elt F)) (x3 : (⟨S13, .f32⟩ : BufTy).Contents (Elt F)) (x4 : (⟨S13, .f32⟩ : BufTy).Contents (Elt F)) (x5 : (⟨S13x32, .f32⟩ : BufTy).Contents (Elt F)) (x6 : (⟨S32, .f32⟩ : BufTy).Contents (Elt F)) (x7 : (⟨S32x32, .f32⟩ : BufTy).Contents (Elt F)) (x8 : (⟨S32, .f32⟩ : BufTy).Contents (Elt F))
    (h5 : V (Proc.devRef .tc main_arg5) = x5)
    (h6 : V (Proc.devRef .tc main_arg6) = x6)
    (h7 : V (Proc.devRef .tc main_arg7) = x7)
    (h8 : V (Proc.devRef .tc main_arg8) = x8)
    (hv24 : V (Proc.devRef .tc main_v24) = val_main_v24 (F := F) x0 x3 x4) :
    after ops2 V (Proc.devRef .tc main_v35) = val_main_v35 (F := F) x0 x3 x4 x5 x6 x7 x8 := by
  after_results
  repeat rw [ofBuf_toBuf2]
  rw [ofBuf_v28, toBuf_v29, h5, h6, h7, h8, hv24]
  rfl

end Cert.ReferenceIdeal.Chunks

end
-- ==== Proof.RefChunk3.lean ====
import proofs.«417757_j46952582480249_1_alg».proof.Proof.ReadP
import Idealize.ShloMosaic.Lib.StableHlo.Run

/-!
Operations 44 to 56 of the reference: the sources and targets cut out of the edge list, the targets wrapped where
negative, and the feature rows gathered at the targets.
Run from any buffer contents that hold the inputs at their stages, these operations leave their results at the
stages the reference's reading names, and touch no buffer but the ones they write.
-/

set_option maxRecDepth 16384

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 44 to 56 of the reference's @main, in order. -/
abbrev ops3 : List (HloOp τ sig (Elt F)) :=
  [ unary main_arg1 main_v36 ((extractStridedSlice S1x1600000 ![0, 0] · slices_S2x1600000_S1x1600000_0_0) : (⟨S2x1600000, .i32⟩ : BufTy).Contents (Elt F) → (⟨S1x1600000, .i32⟩ : BufTy).Contents (Elt F)),
    reshape main_v36 main_v37 rfl shapeCasts_S1x1600000_S1600000,
    unary main_arg1 main_v38 ((extractStridedSlice S1x1600000 ![1, 0] · slices_S2x1600000_S1x1600000_1_0) : (⟨S2x1600000, .i32⟩ : BufTy).Contents (Elt F) → (⟨S1x1600000, .i32⟩ : BufTy).Contents (Elt F)),
    reshape main_v38 main_v39 rfl shapeCasts_S1x1600000_S1600000,
    nullary main_c (constantI S_ 32 0#32),
    unary main_c main_v40 (broadcastInDim S1600000 ![] bcast_S_S1600000 : (⟨S_, .i32⟩ : BufTy).Contents (Elt F) → (⟨S1600000, .i32⟩ : BufTy).Contents (Elt F)),
    binary main_v39 main_v40 main_v41 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 50000#32),
    unary main_c_4 main_v42 (broadcastInDim S1600000 ![] bcast_S_S1600000 : (⟨S_, .i32⟩ : BufTy).Contents (Elt F) → (⟨S1600000, .i32⟩ : BufTy).Contents (Elt F)),
    binary main_v39 main_v42 main_v43 (addi : (⟨S1600000, .i32⟩ : BufTy).Contents (Elt F) → (⟨S1600000, .i32⟩ : BufTy).Contents (Elt F) → (⟨S1600000, .i32⟩ : BufTy).Contents (Elt F)),
    ternary main_v41 main_v43 main_v39 main_v44 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v44 main_v45 (broadcastInDim S1600000x1 ![0] bcast_S1600000_S1600000x1_0 : (⟨S1600000, .i32⟩ : BufTy).Contents (Elt F) → (⟨S1600000x1, .i32⟩ : BufTy).Contents (Elt F)),
    binary main_v35 main_v45 main_v46 ((fun x i => Host.gather gather_S50000x45_S1600000x1_S1600000x45_1_0_n_n_0_1_145 x i) : (⟨S50000x45, .f32⟩ : BufTy).Contents (Elt F) → (⟨S1600000x1, .i32⟩ : BufTy).Contents (Elt F) → (⟨S1600000x45, .f32⟩ : BufTy).Contents (Elt F)) ]

/-- The buffers these operations write. -/
abbrev w3 : List (Ref sig .tc) := [main_v36, main_v37, main_v38, main_v39, main_c, main_v40, main_v41, main_c_4, main_v42, main_v43, main_v44, main_v45, main_v46]

/-- One written reference, listed, is among the listed references as buffers. -/
theorem written_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- A buffer none of these operations writes keeps its contents. -/
theorem ops3_keeps (V : Valuation τ sig (Elt F)) (r : Ref sig .tc) (hr : r ∉ w3) :
    after ops3 V (Proc.devRef .tc r) = V (Proc.devRef .tc r) :=
  after_of_writes_sub ops3 V (by
    simp only [ops3, List.Forall, StableHlo.nullary_writes, StableHlo.unary_writes, StableHlo.binary_writes,
      StableHlo.ternary_writes, StableHlo.reshape_writes]
    repeat' apply And.intro
    all_goals exact written_of_mem (by decide)) hr

/-- From contents holding the chunk's inputs at their stages, `main_v37` ends at its stage. -/
theorem ops3_v37 (V : Valuation τ sig (Elt F)) (x0 : (⟨S50000x13, .f32⟩ : BufTy).Contents (Elt F)) (x1 : (⟨S2x1600000, .i32⟩ : BufTy).Contents (Elt F)) (x3 : (⟨S13, .f32⟩ : BufTy).Contents (Elt F)) (x4 : (⟨S13, .f32⟩ : BufTy).Contents (Elt F)) (x5 : (⟨S13x32, .f32⟩ : BufTy).Contents (Elt F)) (x6 : (⟨S32, .f32⟩ : BufTy).Contents (Elt F)) (x7 : (⟨S32x32, .f32⟩ : BufTy).Contents (Elt F)) (x8 : (⟨S32, .f32⟩ : BufTy).Contents (Elt F))
    (h1 : V (Proc.devRef .tc main_arg1) = x1)
    (hv35 : V (Proc.devRef .tc main_v35) = val_main_v35 (F := F) x0 x3 x4 x5 x6 x7 x8) :
    after ops3 V (Proc.devRef .tc main_v37) = val_main_v37 (F := F) x1 := by
  unfold ops3
  after_results
  rw [h1]
  rfl

/-- From contents holding the chunk's inputs at their stages, `main_v39` ends at its stage. -/
theorem ops3_v39 (V : Valuation τ sig (Elt F)) (x0 : (⟨S50000x13, .f32⟩ : BufTy).Contents (Elt F)) (x1 : (⟨S2x1600000, .i32⟩ : BufTy).Contents (Elt F)) (x3 : (⟨S13, .f32⟩ : BufTy).Contents (Elt F)) (x4 : (⟨S13, .f32⟩ : BufTy).Contents (Elt F)) (x5 : (⟨S13x32, .f32⟩ : BufTy).Contents (Elt F)) (x6 : (⟨S32, .f32⟩ : BufTy).Contents (Elt F)) (x7 : (⟨S32x32, .f32⟩ : BufTy).Contents (Elt F)) (x8 : (⟨S32, .f32⟩ : BufTy).Contents (Elt F))
    (h1 : V (Proc.devRef .tc main_arg1) = x1)
    (hv35 : V (Proc.devRef .tc main_v35) = val_main_v35 (F := F) x0 x3 x4 x5 x6 x7 x8) :
    after ops3 V (Proc.devRef .tc main_v39) = val_main_v39 (F := F) x1 := by
  unfold ops3
  after_results
  rw [h1]
  rfl

/-- From contents holding the chunk's inputs at their stages, `main_v46` ends at its stage. -/
theorem ops3_v46 (V : Valuation τ sig (Elt F)) (x0 : (⟨S50000x13, .f32⟩ : BufTy).Contents (Elt F)) (x1 : (⟨S2x1600000, .i32⟩ : BufTy).Contents (Elt F)) (x3 : (⟨S13, .f32⟩ : BufTy).Contents (Elt F)) (x4 : (⟨S13, .f32⟩ : BufTy).Contents (Elt F)) (x5 : (⟨S13x32, .f32⟩ : BufTy).Contents (Elt F)) (x6 : (⟨S32, .f32⟩ : BufTy).Contents (Elt F)) (x7 : (⟨S32x32, .f32⟩ : BufTy).Contents (Elt F)) (x8 : (⟨S32, .f32⟩ : BufTy).Contents (Elt F))
    (h1 : V (Proc.devRef .tc main_arg1) = x1)
    (hv35 : V (Proc.devRef .tc main_v35) = val_main_v35 (F := F) x0 x3 x4 x5 x6 x7 x8) :
    after ops3 V (Proc.devRef .tc main_v46) = val_main_v46 (F := F) x0 x1 x3 x4 x5 x6 x7 x8 := by
  unfold ops3
  after_results
  rw [h1, hv35]
  rfl

end Cert.ReferenceIdeal.Chunks

end
-- ==== Proof.RefChunk4.lean ====
import proofs.«417757_j46952582480249_1_alg».proof.Proof.ReadP
import Idealize.ShloMosaic.Lib.StableHlo.Run

/-!
Operations 57 to 65 of the reference: the sources wrapped where negative and the feature rows gathered at them.
Run from any buffer contents that hold the inputs at their stages, these operations leave their results at the
stages the reference's reading names, and touch no buffer but the ones they write.
-/

set_option maxRecDepth 16384

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 57 to 65 of the reference's @main, in order. -/
abbrev ops4 : List (HloOp τ sig (Elt F)) :=
  [ nullary main_c_5 (constantI S_ 32 0#32),
    unary main_c_5 main_v47 (broadcastInDim S1600000 ![] bcast_S_S1600000 : (⟨S_, .i32⟩ : BufTy).Contents (Elt F) → (⟨S1600000, .i32⟩ : BufTy).Contents (Elt F)),
    binary main_v37 main_v47 main_v48 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v49 (broadcastInDim S1600000 ![] bcast_S_S1600000 : (⟨S_, .i32⟩ : BufTy).Contents (Elt F) → (⟨S1600000, .i32⟩ : BufTy).Contents (Elt F)),
    binary main_v37 main_v49 main_v50 (addi : (⟨S1600000, .i32⟩ : BufTy).Contents (Elt F) → (⟨S1600000, .i32⟩ : BufTy).Contents (Elt F) → (⟨S1600000, .i32⟩ : BufTy).Contents (Elt F)),
    ternary main_v48 main_v50 main_v37 main_v51 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v51 main_v52 (broadcastInDim S1600000x1 ![0] bcast_S1600000_S1600000x1_0 : (⟨S1600000, .i32⟩ : BufTy).Contents (Elt F) → (⟨S1600000x1, .i32⟩ : BufTy).Contents (Elt F)),
    binary main_v35 main_v52 main_v53 ((fun x i => Host.gather gather_S50000x45_S1600000x1_S1600000x45_1_0_n_n_0_1_145 x i) : (⟨S50000x45, .f32⟩ : BufTy).Contents (Elt F) → (⟨S1600000x1, .i32⟩ : BufTy).Contents (Elt F) → (⟨S1600000x45, .f32⟩ : BufTy).Contents (Elt F)) ]

/-- The buffers these operations write. -/
abbrev w4 : List (Ref sig .tc) := [main_c_5, main_v47, main_v48, main_c_6, main_v49, main_v50, main_v51, main_v52, main_v53]

/-- A buffer none of these operations writes keeps its contents. -/
theorem ops4_keeps (V : Valuation τ sig (Elt F)) (r : Ref sig .tc) (hr : r ∉ w4) :
    after ops4 V (Proc.devRef .tc r) = V (Proc.devRef .tc r) := by
  refine after_of_writes_sub ops4 V ?_ hr
  simp only [ops4, List.Forall, nullary_writes, unary_writes, binary_writes, ternary_writes, Finset.singleton_subset_iff,
    List.mem_toFinset]
  refine ⟨?_, ?_, ?_, ?_, ?_, ?_, ?_, ?_, ?_⟩ <;> exact List.mem_map.mpr ⟨_, by decide, rfl⟩

/-- From contents holding the chunk's inputs at their stages, `main_v53` ends at its stage. -/
theorem ops4_v53 (V : Valuation τ sig (Elt F)) (x0 : (⟨S50000x13, .f32⟩ : BufTy).Contents (Elt F)) (x1 : (⟨S2x1600000, .i32⟩ : BufTy).Contents (Elt F)) (x3 : (⟨S13, .f32⟩ : BufTy).Contents (Elt F)) (x4 : (⟨S13, .f32⟩ : BufTy).Contents (Elt F)) (x5 : (⟨S13x32, .f32⟩ : BufTy).Contents (Elt F)) (x6 : (⟨S32, .f32⟩ : BufTy).Contents (Elt F)) (x7 : (⟨S32x32, .f32⟩ : BufTy).Contents (Elt F)) (x8 : (⟨S32, .f32⟩ : BufTy).Contents (Elt F))
    (hv37 : V (Proc.devRef .tc main_v37) = val_main_v37 (F := F) x1)
    (hv35 : V (Proc.devRef .tc main_v35) = val_main_v35 (F := F) x0 x3 x4 x5 x6 x7 x8) :
    after ops4 V (Proc.devRef .tc main_v53) = val_main_v53 (F := F) x0 x1 x3 x4 x5 x6 x7 x8 := by
  unfold ops4
  after_results_simp
  rw [hv37, hv35]
  unfold val_main_v53 val_main_v52 val_main_v51 val_main_v50 val_main_v49 val_main_v48 val_main_v47 val_main_c_5 val_main_c_6
  rfl

end Cert.ReferenceIdeal.Chunks

end
-- ==== Proof.RefChunk5.lean ====
import proofs.«417757_j46952582480249_1_alg».proof.Proof.ReadP
import Idealize.ShloMosaic.Lib.StableHlo.Run

/-!
Operations 66 to 79 of the reference: per edge, target row followed by source minus target, through the edge
perceptron.
Run from any buffer contents that hold the inputs at their stages, these operations leave their results at the
stages the reference's reading names, and touch no buffer but the ones they write.
-/

set_option maxRecDepth 16384

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 66 to 79 of the reference's @main, in order. -/
abbrev ops5 : List (HloOp τ sig (Elt F)) :=
  [ binary main_v53 main_v46 main_v54 (subf : (⟨S1600000x45, .f32⟩ : BufTy).Contents (Elt F) → (⟨S1600000x45, .f32⟩ : BufTy).Contents (Elt F) → (⟨S1600000x45, .f32⟩ : BufTy).Contents (Elt F)),
    binary main_v46 main_v54 main_v55 ((fun a b => concatenate S1600000x90 1 [⟨S1600000x45, a⟩, ⟨S1600000x45, b⟩] concatenates_S1600000x45_S1600000x45_S1600000x90_d1) : (⟨S1600000x45, .f32⟩ : BufTy).Contents (Elt F) → (⟨S1600000x45, .f32⟩ : BufTy).Contents (Elt F) → (⟨S1600000x90, .f32⟩ : BufTy).Contents (Elt F)),
    binary main_v55 main_arg9 main_v56 ((fun l r => Host.dotGeneral dot_S1600000x90_S90x64_S1600000x64_1_0_0_1_n_n none l r) : (⟨S1600000x90, .f32⟩ : BufTy).Contents (Elt F) → (⟨S90x64, .f32⟩ : BufTy).Contents (Elt F) → (⟨S1600000x64, .f32⟩ : BufTy).Contents (Elt F)),
    unary main_arg10 main_v57 (broadcastInDim S1x64 ![1] bcast_S64_S1x64_1 : (⟨S64, .f32⟩ : BufTy).Contents (Elt F) → (⟨S1x64, .f32⟩ : BufTy).Contents (Elt F)),
    unary main_v57 main_v58 (broadcastInDim S1600000x64 ![0, 1] bcast_S1x64_S1600000x64_0_1 : (⟨S1x64, .f32⟩ : BufTy).Contents (Elt F) → (⟨S1600000x64, .f32⟩ : BufTy).Contents (Elt F)),
    binary main_v56 main_v58 main_v59 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1600000x64, .f32⟩) main_call1_v0) (broadcastInDim S1600000x64 ![] bcast_S_S1600000x64),
    TRef.binary (TRef.of (T := ⟨S1600000x64, .f32⟩) main_v59) (TRef.of (T := ⟨S1600000x64, .f32⟩) main_call1_v0) (TRef.of (T := ⟨S1600000x64, .f32⟩) main_v60) maximumf,
    binary main_v60 main_arg11 main_v61 ((fun l r => Host.dotGeneral dot_S1600000x64_S64x32_S1600000x32_1_0_0_1_n_n none l r) : (⟨S1600000x64, .f32⟩ : BufTy).Contents (Elt F) → (⟨S64x32, .f32⟩ : BufTy).Contents (Elt F) → (⟨S1600000x32, .f32⟩ : BufTy).Contents (Elt F)),
    unary main_arg12 main_v62 (broadcastInDim S1x32 ![1] bcast_S32_S1x32_1 : (⟨S32, .f32⟩ : BufTy).Contents (Elt F) → (⟨S1x32, .f32⟩ : BufTy).Contents (Elt F)),
    unary main_v62 main_v63 (broadcastInDim S1600000x32 ![0, 1] bcast_S1x32_S1600000x32_0_1 : (⟨S1x32, .f32⟩ : BufTy).Contents (Elt F) → (⟨S1600000x32, .f32⟩ : BufTy).Contents (Elt F)),
    binary main_v61 main_v63 main_v64 (addf : (⟨S1600000x32, .f32⟩ : BufTy).Contents (Elt F) → (⟨S1600000x32, .f32⟩ : BufTy).Contents (Elt F) → (⟨S1600000x32, .f32⟩ : BufTy).Contents (Elt F)),
    unary main_v64 main_v65 (Host.tanh : (⟨S1600000x32, .f32⟩ : BufTy).Contents (Elt F) → (⟨S1600000x32, .f32⟩ : BufTy).Contents (Elt F)) ]

/-- The buffers these operations write. -/
abbrev w5 : List (Ref sig .tc) := [main_v54, main_v55, main_v56, main_v57, main_v58, main_v59, main_call1_cst, main_call1_v0, main_v60, main_v61, main_v62, main_v63, main_v64, main_v65]

/-- A buffer none of these operations writes keeps its contents. -/
theorem ops5_keeps (V : Valuation τ sig (Elt F)) (r : Ref sig .tc) (hr : r ∉ w5) :
    after ops5 V (Proc.devRef .tc r) = V (Proc.devRef .tc r) := by
  refine after_of_writes_sub ops5 V ?_ hr
  simp only [List.Forall, nullary_writes, unary_writes, binary_writes, Finset.singleton_subset_iff, List.mem_toFinset]
  repeat' apply And.intro
  all_goals exact List.mem_map_of_mem (by decide)

/-- Transporting contents to a typed reference's buffer type and back is the identity. -/
theorem ofBuf_toBuf5 {Val : EltTy → Type} {T : BufTy} (x : TRef sig T) (v : T.Contents Val) : x.ofBuf (x.toBuf v) = v := by
  obtain ⟨r, rfl, _, _⟩ := x
  rfl
theorem ofBuf_v59 (h1 h2 h3) (v : (⟨S1600000x64, .f32⟩ : BufTy).Contents (Elt F)) : (TRef.of main_v59 h1 h2 h3 : TRef sig ⟨S1600000x64, .f32⟩).ofBuf v = v := cast_eq _ _
theorem toBuf_v60 (h1 h2 h3) (v : (⟨S1600000x64, .f32⟩ : BufTy).Contents (Elt F)) : (TRef.of main_v60 h1 h2 h3 : TRef sig ⟨S1600000x64, .f32⟩).toBuf v = v := cast_eq _ _

set_option maxHeartbeats 4000000 in
/-- From contents holding the chunk's inputs at their stages, `main_v65` ends at its stage. -/
theorem ops5_v65 (V : Valuation τ sig (Elt F)) (x0 : (⟨S50000x13, .f32⟩ : BufTy).Contents (Elt F)) (x1 : (⟨S2x1600000, .i32⟩ : BufTy).Contents (Elt F)) (x3 : (⟨S13, .f32⟩ : BufTy).Contents (Elt F)) (x4 : (⟨S13, .f32⟩ : BufTy).Contents (Elt F)) (x5 : (⟨S13x32, .f32⟩ : BufTy).Contents (Elt F)) (x6 : (⟨S32, .f32⟩ : BufTy).Contents (Elt F)) (x7 : (⟨S32x32, .f32⟩ : BufTy).Contents (Elt F)) (x8 : (⟨S32, .f32⟩ : BufTy).Contents (Elt F)) (x9 : (⟨S90x64, .f32⟩ : BufTy).Contents (Elt F)) (x10 : (⟨S64, .f32⟩ : BufTy).Contents (Elt F)) (x11 : (⟨S64x32, .f32⟩ : BufTy).Contents (Elt F)) (x12 : (⟨S32, .f32⟩ : BufTy).Contents (Elt F))
    (h9 : V (Proc.devRef .tc main_arg9) = x9)
    (h10 : V (Proc.devRef .tc main_arg10) = x10)
    (h11 : V (Proc.devRef .tc main_arg11) = x11)
    (h12 : V (Proc.devRef .tc main_arg12) = x12)
    (hv53 : V (Proc.devRef .tc main_v53) = val_main_v53 (F := F) x0 x1 x3 x4 x5 x6 x7 x8)
    (hv46 : V (Proc.devRef .tc main_v46) = val_main_v46 (F := F) x0 x1 x3 x4 x5 x6 x7 x8) :
    after ops5 V (Proc.devRef .tc main_v65) = val_main_v65 (F := F) x0 x1 x3 x4 x5 x6 x7 x8 x9 x10 x11 x12 := by
  after_results
  simp only [ofBuf_toBuf5, ofBuf_v59, toBuf_v60, h9, h10, h11, h12]
  rw [hv53, hv46]
  unfold val_main_v65 val_main_v64 val_main_v63 val_main_v62 val_main_v61 val_main_v60 val_main_call1_v0 val_main_call1_cst val_main_v59 val_main_v58 val_main_v57 val_main_v56 val_main_v55 val_main_v54
  rfl

end Cert.ReferenceIdeal.Chunks

end
-- ==== Proof.RefChunk6.lean ====
import proofs.«417757_j46952582480249_1_alg».proof.Proof.ReadP
import Idealize.ShloMosaic.Lib.StableHlo.Run

/-!
Operations 80 to 99 of the reference: messages summed into their targets, set beside the normalised features,
summed per graph and divided by the graph's node count (at least one).
Run from any buffer contents that hold the inputs at their stages, these operations leave their results at the
stages the reference's reading names, and touch no buffer but the ones they write.
-/

set_option maxRecDepth 16384

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 80 to 99 of the reference's @main, in order. -/
abbrev ops6 : List (HloOp τ sig (Elt F)) :=
  [ nullary main_cst_7 (constant S_ .f32 0x00000000#32),
    unary main_cst_7 main_v66 (broadcastInDim S50000x32 ![] bcast_S_S50000x32 : (⟨S_, .f32⟩ : BufTy).Contents (Elt F) → (⟨S50000x32, .f32⟩ : BufTy).Contents (Elt F)),
    unary main_v39 main_v67 (broadcastInDim S1600000x1 ![0] bcast_S1600000_S1600000x1_0 : (⟨S1600000, .i32⟩ : BufTy).Contents (Elt F) → (⟨S1600000x1, .i32⟩ : BufTy).Contents (Elt F)),
    ternary main_v66 main_v67 main_v65 main_v68 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    binary main_v68 main_v24 main_v69 ((fun a b => concatenate S50000x45 1 [⟨S50000x32, a⟩, ⟨S50000x13, b⟩] concatenates_S50000x32_S50000x13_S50000x45_d1) : (⟨S50000x32, .f32⟩ : BufTy).Contents (Elt F) → (⟨S50000x13, .f32⟩ : BufTy).Contents (Elt F) → (⟨S50000x45, .f32⟩ : BufTy).Contents (Elt F)),
    nullary main_cst_8 (constant S_ .f32 0x00000000#32),
    unary main_cst_8 main_v70 (broadcastInDim S128x45 ![] bcast_S_S128x45 : (⟨S_, .f32⟩ : BufTy).Contents (Elt F) → (⟨S128x45, .f32⟩ : BufTy).Contents (Elt F)),
    unary main_arg2 main_v71 (broadcastInDim S50000x1 ![0] bcast_S50000_S50000x1_0 : (⟨S50000, .i32⟩ : BufTy).Contents (Elt F) → (⟨S50000x1, .i32⟩ : BufTy).Contents (Elt F)),
    ternary main_v70 main_v71 main_v69 main_v72 ((fun x i u => Host.scatterAdd scatter_S128x45_S50000x1_S50000x45_1_0_0_1 x i u) : (⟨S128x45, .f32⟩ : BufTy).Contents (Elt F) → (⟨S50000x1, .i32⟩ : BufTy).Contents (Elt F) → (⟨S50000x45, .f32⟩ : BufTy).Contents (Elt F) → (⟨S128x45, .f32⟩ : BufTy).Contents (Elt F)),
    nullary main_cst_9 (constant S_ .f32 0x3F800000#32),
    unary main_cst_9 main_v73 (broadcastInDim S50000x1 ![] bcast_S_S50000x1 : (⟨S_, .f32⟩ : BufTy).Contents (Elt F) → (⟨S50000x1, .f32⟩ : BufTy).Contents (Elt F)),
    nullary main_cst_10 (constant S_ .f32 0x00000000#32),
    unary main_cst_10 main_v74 (broadcastInDim S128x1 ![] bcast_S_S128x1 : (⟨S_, .f32⟩ : BufTy).Contents (Elt F) → (⟨S128x1, .f32⟩ : BufTy).Contents (Elt F)),
    unary main_arg2 main_v75 (broadcastInDim S50000x1 ![0] bcast_S50000_S50000x1_0 : (⟨S50000, .i32⟩ : BufTy).Contents (Elt F) → (⟨S50000x1, .i32⟩ : BufTy).Contents (Elt F)),
    ternary main_v74 main_v75 main_v73 main_v76 ((fun x i u => Host.scatterAdd scatter_S128x1_S50000x1_S50000x1_1_0_0_1 x i u) : (⟨S128x1, .f32⟩ : BufTy).Contents (Elt F) → (⟨S50000x1, .i32⟩ : BufTy).Contents (Elt F) → (⟨S50000x1, .f32⟩ : BufTy).Contents (Elt F) → (⟨S128x1, .f32⟩ : BufTy).Contents (Elt F)),
    nullary main_cst_11 (constant S_ .f32 0x3F800000#32),
    unary main_cst_11 main_v77 (broadcastInDim S128x1 ![] bcast_S_S128x1 : (⟨S_, .f32⟩ : BufTy).Contents (Elt F) → (⟨S128x1, .f32⟩ : BufTy).Contents (Elt F)),
    binary main_v76 main_v77 main_v78 (maximumf : (⟨S128x1, .f32⟩ : BufTy).Contents (Elt F) → (⟨S128x1, .f32⟩ : BufTy).Contents (Elt F) → (⟨S128x1, .f32⟩ : BufTy).Contents (Elt F)),
    unary main_v78 main_v79 (broadcastInDim S128x45 ![0, 1] bcast_S128x1_S128x45_0_1 : (⟨S128x1, .f32⟩ : BufTy).Contents (Elt F) → (⟨S128x45, .f32⟩ : BufTy).Contents (Elt F)),
    binary main_v72 main_v79 main_v80 (Host.divf : (⟨S128x45, .f32⟩ : BufTy).Contents (Elt F) → (⟨S128x45, .f32⟩ : BufTy).Contents (Elt F) → (⟨S128x45, .f32⟩ : BufTy).Contents (Elt F)) ]

/-- The buffers these operations write. -/
abbrev w6 : List (Ref sig .tc) := [main_cst_7, main_v66, main_v67, main_v68, main_v69, main_cst_8, main_v70, main_v71, main_v72, main_cst_9, main_v73, main_cst_10, main_v74, main_v75, main_v76, main_cst_11, main_v77, main_v78, main_v79, main_v80]

/-- A buffer none of these operations writes keeps its contents. -/
theorem ops6_keeps (V : Valuation τ sig (Elt F)) (r : Ref sig .tc) (hr : r ∉ w6) :
    after ops6 V (Proc.devRef .tc r) = V (Proc.devRef .tc r) :=
  after_of_writes_sub ops6 V (by
    simp only [List.Forall, nullary_writes, unary_writes, binary_writes, ternary_writes, Finset.singleton_subset_iff,
      List.mem_toFinset]
    repeat' apply And.intro
    all_goals exact List.mem_map.mpr ⟨_, by decide, rfl⟩) hr

/-- From contents holding the chunk's inputs at their stages, `main_v80` ends at its stage. -/
theorem ops6_v80 (V : Valuation τ sig (Elt F)) (x0 : (⟨S50000x13, .f32⟩ : BufTy).Contents (Elt F)) (x1 : (⟨S2x1600000, .i32⟩ : BufTy).Contents (Elt F)) (x2 : (⟨S50000, .i32⟩ : BufTy).Contents (Elt F)) (x3 : (⟨S13, .f32⟩ : BufTy).Contents (Elt F)) (x4 : (⟨S13, .f32⟩ : BufTy).Contents (Elt F)) (x5 : (⟨S13x32, .f32⟩ : BufTy).Contents (Elt F)) (x6 : (⟨S32, .f32⟩ : BufTy).Contents (Elt F)) (x7 : (⟨S32x32, .f32⟩ : BufTy).Contents (Elt F)) (x8 : (⟨S32, .f32⟩ : BufTy).Contents (Elt F)) (x9 : (⟨S90x64, .f32⟩ : BufTy).Contents (Elt F)) (x10 : (⟨S64, .f32⟩ : BufTy).Contents (Elt F)) (x11 : (⟨S64x32, .f32⟩ : BufTy).Contents (Elt F)) (x12 : (⟨S32, .f32⟩ : BufTy).Contents (Elt F))
    (h2 : V (Proc.devRef .tc main_arg2) = x2)
    (hv39 : V (Proc.devRef .tc main_v39) = val_main_v39 (F := F) x1)
    (hv65 : V (Proc.devRef .tc main_v65) = val_main_v65 (F := F) x0 x1 x3 x4 x5 x6 x7 x8 x9 x10 x11 x12)
    (hv24 : V (Proc.devRef .tc main_v24) = val_main_v24 (F := F) x0 x3 x4) :
    after ops6 V (Proc.devRef .tc main_v80) = val_main_v80 (F := F) x0 x1 x2 x3 x4 x5 x6 x7 x8 x9 x10 x11 x12 := by
  subst h2
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rw [hv39, hv65, hv24]
  unfold val_main_v80 val_main_v79 val_main_v78 val_main_v77 val_main_v76 val_main_v75 val_main_v74 val_main_v73
    val_main_v72 val_main_v71 val_main_v70 val_main_v69 val_main_v68 val_main_v67 val_main_v66
    val_main_cst_7 val_main_cst_8 val_main_cst_9 val_main_cst_10 val_main_cst_11
  rfl

end Cert.ReferenceIdeal.Chunks

end
-- ==== Proof.RefChunk7.lean ====
import proofs.«417757_j46952582480249_1_alg».proof.Proof.ReadP
import Idealize.ShloMosaic.Lib.StableHlo.Run

/-!
Operations 100 to 118 of the reference: the read-out perceptron with the logistic function spelt `1 / (1 + exp (-z))`.
Run from any buffer contents that hold the inputs at their stages, these operations leave their results at the
stages the reference's reading names, and touch no buffer but the ones they write.
-/

set_option maxRecDepth 16384

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 100 to 118 of the reference's @main, in order. -/
abbrev ops7 : List (HloOp τ sig (Elt F)) :=
  [ binary main_v80 main_arg13 main_v81 ((fun l r => Host.dotGeneral dot_S128x45_S45x32_S128x32_1_0_0_1_n_n none l r) : (⟨S128x45, .f32⟩ : BufTy).Contents (Elt F) → (⟨S45x32, .f32⟩ : BufTy).Contents (Elt F) → (⟨S128x32, .f32⟩ : BufTy).Contents (Elt F)),
    unary main_arg14 main_v82 (broadcastInDim S1x32 ![1] bcast_S32_S1x32_1 : (⟨S32, .f32⟩ : BufTy).Contents (Elt F) → (⟨S1x32, .f32⟩ : BufTy).Contents (Elt F)),
    unary main_v82 main_v83 (broadcastInDim S128x32 ![0, 1] bcast_S1x32_S128x32_0_1 : (⟨S1x32, .f32⟩ : BufTy).Contents (Elt F) → (⟨S128x32, .f32⟩ : BufTy).Contents (Elt F)),
    binary main_v81 main_v83 main_v84 (addf : (⟨S128x32, .f32⟩ : BufTy).Contents (Elt F) → (⟨S128x32, .f32⟩ : BufTy).Contents (Elt F) → (⟨S128x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S128x32, .f32⟩) main_call2_v0) (broadcastInDim S128x32 ![] bcast_S_S128x32),
    TRef.binary (TRef.of (T := ⟨S128x32, .f32⟩) main_v84) (TRef.of (T := ⟨S128x32, .f32⟩) main_call2_v0) (TRef.of (T := ⟨S128x32, .f32⟩) main_v85) maximumf,
    binary main_v85 main_arg15 main_v86 ((fun l r => Host.dotGeneral dot_S128x32_S32x1_S128x1_1_0_0_1_n_n none l r) : (⟨S128x32, .f32⟩ : BufTy).Contents (Elt F) → (⟨S32x1, .f32⟩ : BufTy).Contents (Elt F) → (⟨S128x1, .f32⟩ : BufTy).Contents (Elt F)),
    unary main_arg16 main_v87 (broadcastInDim S1x1 ![1] bcast_S1_S1x1_1 : (⟨S1, .f32⟩ : BufTy).Contents (Elt F) → (⟨S1x1, .f32⟩ : BufTy).Contents (Elt F)),
    unary main_v87 main_v88 (broadcastInDim S128x1 ![0, 1] bcast_S1x1_S128x1_0_1 : (⟨S1x1, .f32⟩ : BufTy).Contents (Elt F) → (⟨S128x1, .f32⟩ : BufTy).Contents (Elt F)),
    binary main_v86 main_v88 main_v89 (addf : (⟨S128x1, .f32⟩ : BufTy).Contents (Elt F) → (⟨S128x1, .f32⟩ : BufTy).Contents (Elt F) → (⟨S128x1, .f32⟩ : BufTy).Contents (Elt F)),
    unary main_v89 main_v90 (Host.negf : (⟨S128x1, .f32⟩ : BufTy).Contents (Elt F) → (⟨S128x1, .f32⟩ : BufTy).Contents (Elt F)),
    unary main_v90 main_v91 (Host.exp : (⟨S128x1, .f32⟩ : BufTy).Contents (Elt F) → (⟨S128x1, .f32⟩ : BufTy).Contents (Elt F)),
    nullary main_cst_12 (constant S_ .f32 0x3F800000#32),
    unary main_cst_12 main_v92 (broadcastInDim S128x1 ![] bcast_S_S128x1 : (⟨S_, .f32⟩ : BufTy).Contents (Elt F) → (⟨S128x1, .f32⟩ : BufTy).Contents (Elt F)),
    binary main_v92 main_v91 main_v93 (addf : (⟨S128x1, .f32⟩ : BufTy).Contents (Elt F) → (⟨S128x1, .f32⟩ : BufTy).Contents (Elt F) → (⟨S128x1, .f32⟩ : BufTy).Contents (Elt F)),
    nullary main_cst_13 (constant S_ .f32 0x3F800000#32),
    unary main_cst_13 main_v94 (broadcastInDim S128x1 ![] bcast_S_S128x1 : (⟨S_, .f32⟩ : BufTy).Contents (Elt F) → (⟨S128x1, .f32⟩ : BufTy).Contents (Elt F)),
    binary main_v94 main_v93 main_v95 (Host.divf : (⟨S128x1, .f32⟩ : BufTy).Contents (Elt F) → (⟨S128x1, .f32⟩ : BufTy).Contents (Elt F) → (⟨S128x1, .f32⟩ : BufTy).Contents (Elt F)) ]

/-- The buffers these operations write. -/
abbrev w7 : List (Ref sig .tc) := [main_v81, main_v82, main_v83, main_v84, main_call2_cst, main_call2_v0, main_v85, main_v86, main_v87, main_v88, main_v89, main_v90, main_v91, main_cst_12, main_v92, main_v93, main_cst_13, main_v94, main_v95]

/-- A buffer none of these operations writes keeps its contents. -/
theorem ops7_keeps (V : Valuation τ sig (Elt F)) (r : Ref sig .tc) (hr : r ∉ w7) :
    after ops7 V (Proc.devRef .tc r) = V (Proc.devRef .tc r) := by
  refine after_of_writes_sub ops7 V ?_ hr
  simp only [List.Forall, nullary_writes, unary_writes, binary_writes, Finset.singleton_subset_iff, List.mem_toFinset]
  repeat' apply And.intro
  all_goals exact List.mem_map_of_mem (by decide)

/-- Transporting contents to a typed reference's buffer type and back is the identity. -/
theorem ofBuf_toBuf7 {Val : EltTy → Type} {T : BufTy} (x : TRef sig T) (v : T.Contents Val) : x.ofBuf (x.toBuf v) = v := by
  obtain ⟨r, rfl, _, _⟩ := x
  rfl
theorem ofBuf_v84 (h1 h2 h3) (v : (⟨S128x32, .f32⟩ : BufTy).Contents (Elt F)) : (TRef.of main_v84 h1 h2 h3 : TRef sig ⟨S128x32, .f32⟩).ofBuf v = v := cast_eq _ _
theorem toBuf_v85 (h1 h2 h3) (v : (⟨S128x32, .f32⟩ : BufTy).Contents (Elt F)) : (TRef.of main_v85 h1 h2 h3 : TRef sig ⟨S128x32, .f32⟩).toBuf v = v := cast_eq _ _

set_option maxHeartbeats 4000000 in
/-- From contents holding the chunk's inputs at their stages, `main_v95` ends at its stage. -/
theorem ops7_v95 (V : Valuation τ sig (Elt F)) (x0 : (⟨S50000x13, .f32⟩ : BufTy).Contents (Elt F)) (x1 : (⟨S2x1600000, .i32⟩ : BufTy).Contents (Elt F)) (x2 : (⟨S50000, .i32⟩ : BufTy).Contents (Elt F)) (x3 : (⟨S13, .f32⟩ : BufTy).Contents (Elt F)) (x4 : (⟨S13, .f32⟩ : BufTy).Contents (Elt F)) (x5 : (⟨S13x32, .f32⟩ : BufTy).Contents (Elt F)) (x6 : (⟨S32, .f32⟩ : BufTy).Contents (Elt F)) (x7 : (⟨S32x32, .f32⟩ : BufTy).Contents (Elt F)) (x8 : (⟨S32, .f32⟩ : BufTy).Contents (Elt F)) (x9 : (⟨S90x64, .f32⟩ : BufTy).Contents (Elt F)) (x10 : (⟨S64, .f32⟩ : BufTy).Contents (Elt F)) (x11 : (⟨S64x32, .f32⟩ : BufTy).Contents (Elt F)) (x12 : (⟨S32, .f32⟩ : BufTy).Contents (Elt F)) (x13 : (⟨S45x32, .f32⟩ : BufTy).Contents (Elt F)) (x14 : (⟨S32, .f32⟩ : BufTy).Contents (Elt F)) (x15 : (⟨S32x1, .f32⟩ : BufTy).Contents (Elt F)) (x16 : (⟨S1, .f32⟩ : BufTy).Contents (Elt F))
    (h13 : V (Proc.devRef .tc main_arg13) = x13)
    (h14 : V (Proc.devRef .tc main_arg14) = x14)
    (h15 : V (Proc.devRef .tc main_arg15) = x15)
    (h16 : V (Proc.devRef .tc main_arg16) = x16)
    (hv80 : V (Proc.devRef .tc main_v80) = val_main_v80 (F := F) x0 x1 x2 x3 x4 x5 x6 x7 x8 x9 x10 x11 x12) :
    after ops7 V (Proc.devRef .tc main_v95) = val_main_v95 (F := F) x0 x1 x2 x3 x4 x5 x6 x7 x8 x9 x10 x11 x12 x13 x14 x15 x16 := by
  after_results_simp
  simp only [ofBuf_toBuf7, ofBuf_v84, toBuf_v85, h13, h14, h15, h16, hv80]
  unfold val_main_v95 val_main_v94 val_main_cst_13 val_main_v93 val_main_v92 val_main_cst_12 val_main_v91 val_main_v90 val_main_v89 val_main_v88 val_main_v87 val_main_v86 val_main_v85 val_main_call2_v0 val_main_call2_cst val_main_v84 val_main_v83 val_main_v82 val_main_v81
  rfl

end Cert.ReferenceIdeal.Chunks

end
-- ==== Proof.RefRun.lean ====
import proofs.«417757_j46952582480249_1_alg».proof.Proof.RunOps
import proofs.«417757_j46952582480249_1_alg».proof.Proof.ReadP
import proofs.«417757_j46952582480249_1_alg».proof.Proof.RefChunk1
import proofs.«417757_j46952582480249_1_alg».proof.Proof.RefChunk2
import proofs.«417757_j46952582480249_1_alg».proof.Proof.RefChunk3
import proofs.«417757_j46952582480249_1_alg».proof.Proof.RefChunk4
import proofs.«417757_j46952582480249_1_alg».proof.Proof.RefChunk5
import proofs.«417757_j46952582480249_1_alg».proof.Proof.RefChunk6
import proofs.«417757_j46952582480249_1_alg».proof.Proof.RefChunk7
import Idealize.ShloMosaic.Lib.StableHlo.Run
import Idealize.ShloMosaic.Lib.Pipeline.Frame

/-!
The reference's run, put together from its seven stretches.

The reference's @main is a straight line of 118 host operations.  Cut into seven consecutive stretches, each stretch
leaves its results at the stage functions of the arguments once the stretch before it has, and leaves every other
buffer alone; so after the whole line the result buffer holds the last stage of the arguments and the arguments
are as launched.  Every weakly fair execution of a straight line ends in the fold of its operations' results over
the launch contents, which is what this fold computes.
-/

set_option maxRecDepth 16384

noncomputable section

namespace Cert.ReferenceIdeal.Chunks

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

/-- The line is its seven stretches in a row. -/
theorem ops_eq : (ops : List (HloOp τ sig (Elt F))) = ops1 ++ (ops2 ++ (ops3 ++ (ops4 ++ (ops5 ++ (ops6 ++ ops7))))) := rfl

/-- The fold over the line is the folds over the stretches, one after the other. -/
theorem after_ops (V : Valuation τ sig (Elt F)) :
    after ops V = after ops7 (after ops6 (after ops5 (after ops4 (after ops3 (after ops2 (after ops1 V)))))) := by
  rw [ops_eq, StableHlo.after_append, StableHlo.after_append, StableHlo.after_append, StableHlo.after_append,
    StableHlo.after_append, StableHlo.after_append]

/-- A buffer no stretch writes keeps its contents through the whole line. -/
theorem ops_keeps (V : Valuation τ sig (Elt F)) (r : Ref sig .tc) (h1 : r ∉ w1) (h2 : r ∉ w2) (h3 : r ∉ w3) (h4 : r ∉ w4)
    (h5 : r ∉ w5) (h6 : r ∉ w6) (h7 : r ∉ w7) : after ops V (Proc.devRef .tc r) = V (Proc.devRef .tc r) := by
  rw [after_ops, ops7_keeps _ r h7, ops6_keeps _ r h6, ops5_keeps _ r h5, ops4_keeps _ r h4, ops3_keeps _ r h3,
    ops2_keeps _ r h2, ops1_keeps _ r h1]

/-- From contents holding the arguments, the line leaves the result buffer at the last stage of the arguments. -/
theorem result_eq (V : Valuation τ sig (Elt F)) (x0 : (⟨S50000x13, .f32⟩ : BufTy).Contents (Elt F)) (x1 : (⟨S2x1600000, .i32⟩ : BufTy).Contents (Elt F)) (x2 : (⟨S50000, .i32⟩ : BufTy).Contents (Elt F)) (x3 : (⟨S13, .f32⟩ : BufTy).Contents (Elt F)) (x4 : (⟨S13, .f32⟩ : BufTy).Contents (Elt F)) (x5 : (⟨S13x32, .f32⟩ : BufTy).Contents (Elt F)) (x6 : (⟨S32, .f32⟩ : BufTy).Contents (Elt F)) (x7 : (⟨S32x32, .f32⟩ : BufTy).Contents (Elt F)) (x8 : (⟨S32, .f32⟩ : BufTy).Contents (Elt F)) (x9 : (⟨S90x64, .f32⟩ : BufTy).Contents (Elt F)) (x10 : (⟨S64, .f32⟩ : BufTy).Contents (Elt F)) (x11 : (⟨S64x32, .f32⟩ : BufTy).Contents (Elt F)) (x12 : (⟨S32, .f32⟩ : BufTy).Contents (Elt F)) (x13 : (⟨S45x32, .f32⟩ : BufTy).Contents (Elt F)) (x14 : (⟨S32, .f32⟩ : BufTy).Contents (Elt F)) (x15 : (⟨S32x1, .f32⟩ : BufTy).Contents (Elt F)) (x16 : (⟨S1, .f32⟩ : BufTy).Contents (Elt F))
    (a0 : V (Proc.devRef .tc main_arg0) = x0) (a1 : V (Proc.devRef .tc main_arg1) = x1) (a2 : V (Proc.devRef .tc main_arg2) = x2) (a3 : V (Proc.devRef .tc main_arg3) = x3) (a4 : V (Proc.devRef .tc main_arg4) = x4) (a5 : V (Proc.devRef .tc main_arg5) = x5) (a6 : V (Proc.devRef .tc main_arg6) = x6) (a7 : V (Proc.devRef .tc main_arg7) = x7) (a8 : V (Proc.devRef .tc main_arg8) = x8) (a9 : V (Proc.devRef .tc main_arg9) = x9) (a10 : V (Proc.devRef .tc main_arg10) = x10) (a11 : V (Proc.devRef .tc main_arg11) = x11) (a12 : V (Proc.devRef .tc main_arg12) = x12) (a13 : V (Proc.devRef .tc main_arg13) = x13) (a14 : V (Proc.devRef .tc main_arg14) = x14) (a15 : V (Proc.devRef .tc main_arg15) = x15) (a16 : V (Proc.devRef .tc main_arg16) = x16) :
    after ops V (Proc.devRef .tc main_v95) = val_main_v95 (F := F) x0 x1 x2 x3 x4 x5 x6 x7 x8 x9 x10 x11 x12 x13 x14 x15 x16 := by
  rw [after_ops]
  -- after the first stretch
  have k1 : ∀ r, r ∉ w1 → after ops1 V (Proc.devRef .tc r) = V (Proc.devRef .tc r) := fun r hr => ops1_keeps V r hr
  have s24 := ops1_v24 V x0 x3 x4 a0 a3 a4
  generalize after ops1 V = V1 at *
  -- after the second
  have k2 : ∀ r, r ∉ w2 → after ops2 V1 (Proc.devRef .tc r) = V1 (Proc.devRef .tc r) := fun r hr => ops2_keeps V1 r hr
  have s35 := ops2_v35 V1 x0 x3 x4 x5 x6 x7 x8 ((k1 main_arg5 (by decide)).trans a5) ((k1 main_arg6 (by decide)).trans a6)
    ((k1 main_arg7 (by decide)).trans a7) ((k1 main_arg8 (by decide)).trans a8) s24
  have t24 := (k2 main_v24 (by decide)).trans s24
  have b1 : V1 (Proc.devRef .tc main_arg1) = x1 := (k1 main_arg1 (by decide)).trans a1
  have b2 : V1 (Proc.devRef .tc main_arg2) = x2 := (k1 main_arg2 (by decide)).trans a2
  have b9 : V1 (Proc.devRef .tc main_arg9) = x9 := (k1 main_arg9 (by decide)).trans a9
  have b10 : V1 (Proc.devRef .tc main_arg10) = x10 := (k1 main_arg10 (by decide)).trans a10
  have b11 : V1 (Proc.devRef .tc main_arg11) = x11 := (k1 main_arg11 (by decide)).trans a11
  have b12 : V1 (Proc.devRef .tc main_arg12) = x12 := (k1 main_arg12 (by decide)).trans a12
  have b13 : V1 (Proc.devRef .tc main_arg13) = x13 := (k1 main_arg13 (by decide)).trans a13
  have b14 : V1 (Proc.devRef .tc main_arg14) = x14 := (k1 main_arg14 (by decide)).trans a14
  have b15 : V1 (Proc.devRef .tc main_arg15) = x15 := (k1 main_arg15 (by decide)).trans a15
  have b16 : V1 (Proc.devRef .tc main_arg16) = x16 := (k1 main_arg16 (by decide)).trans a16
  clear k1 s24 a0 a1 a2 a3 a4 a5 a6 a7 a8 a9 a10 a11 a12 a13 a14 a15 a16
  have c1 := (k2 main_arg1 (by decide)).trans b1
  have c2 := (k2 main_arg2 (by decide)).trans b2
  have c9 := (k2 main_arg9 (by decide)).trans b9
  have c10 := (k2 main_arg10 (by decide)).trans b10
  have c11 := (k2 main_arg11 (by decide)).trans b11
  have c12 := (k2 main_arg12 (by decide)).trans b12
  have c13 := (k2 main_arg13 (by decide)).trans b13
  have c14 := (k2 main_arg14 (by decide)).trans b14
  have c15 := (k2 main_arg15 (by decide)).trans b15
  have c16 := (k2 main_arg16 (by decide)).trans b16
  clear k2 b1 b2 b9 b10 b11 b12 b13 b14 b15 b16
  generalize after ops2 V1 = V2 at *
  -- after the third
  have k3 : ∀ r, r ∉ w3 → after ops3 V2 (Proc.devRef .tc r) = V2 (Proc.devRef .tc r) := fun r hr => ops3_keeps V2 r hr
  have s37 := ops3_v37 V2 x0 x1 x3 x4 x5 x6 x7 x8 c1 s35
  have s39 := ops3_v39 V2 x0 x1 x3 x4 x5 x6 x7 x8 c1 s35
  have s46 := ops3_v46 V2 x0 x1 x3 x4 x5 x6 x7 x8 c1 s35
  have u35 := (k3 main_v35 (by decide)).trans s35
  have u24 := (k3 main_v24 (by decide)).trans t24
  have d2 := (k3 main_arg2 (by decide)).trans c2
  have d9 := (k3 main_arg9 (by decide)).trans c9
  have d10 := (k3 main_arg10 (by decide)).trans c10
  have d11 := (k3 main_arg11 (by decide)).trans c11
  have d12 := (k3 main_arg12 (by decide)).trans c12
  have d13 := (k3 main_arg13 (by decide)).trans c13
  have d14 := (k3 main_arg14 (by decide)).trans c14
  have d15 := (k3 main_arg15 (by decide)).trans c15
  have d16 := (k3 main_arg16 (by decide)).trans c16
  clear k3 s35 t24 c1 c2 c9 c10 c11 c12 c13 c14 c15 c16
  generalize after ops3 V2 = V3 at *
  -- after the fourth
  have k4 : ∀ r, r ∉ w4 → after ops4 V3 (Proc.devRef .tc r) = V3 (Proc.devRef .tc r) := fun r hr => ops4_keeps V3 r hr
  have s53 := ops4_v53 V3 x0 x1 x3 x4 x5 x6 x7 x8 s37 u35
  have v46 := (k4 main_v46 (by decide)).trans s46
  have v39 := (k4 main_v39 (by decide)).trans s39
  have v24 := (k4 main_v24 (by decide)).trans u24
  have e2 := (k4 main_arg2 (by decide)).trans d2
  have e9 := (k4 main_arg9 (by decide)).trans d9
  have e10 := (k4 main_arg10 (by decide)).trans d10
  have e11 := (k4 main_arg11 (by decide)).trans d11
  have e12 := (k4 main_arg12 (by decide)).trans d12
  have e13 := (k4 main_arg13 (by decide)).trans d13
  have e14 := (k4 main_arg14 (by decide)).trans d14
  have e15 := (k4 main_arg15 (by decide)).trans d15
  have e16 := (k4 main_arg16 (by decide)).trans d16
  clear k4 s37 s39 s46 u35 u24 d2 d9 d10 d11 d12 d13 d14 d15 d16
  generalize after ops4 V3 = V4 at *
  -- after the fifth
  have k5 : ∀ r, r ∉ w5 → after ops5 V4 (Proc.devRef .tc r) = V4 (Proc.devRef .tc r) := fun r hr => ops5_keeps V4 r hr
  have s65 := ops5_v65 V4 x0 x1 x3 x4 x5 x6 x7 x8 x9 x10 x11 x12 e9 e10 e11 e12 s53 v46
  have w39 := (k5 main_v39 (by decide)).trans v39
  have w24 := (k5 main_v24 (by decide)).trans v24
  have f2 := (k5 main_arg2 (by decide)).trans e2
  have f13 := (k5 main_arg13 (by decide)).trans e13
  have f14 := (k5 main_arg14 (by decide)).trans e14
  have f15 := (k5 main_arg15 (by decide)).trans e15
  have f16 := (k5 main_arg16 (by decide)).trans e16
  clear k5 s53 v46 v39 v24 e2 e9 e10 e11 e12 e13 e14 e15 e16
  generalize after ops5 V4 = V5 at *
  -- after the sixth
  have k6 : ∀ r, r ∉ w6 → after ops6 V5 (Proc.devRef .tc r) = V5 (Proc.devRef .tc r) := fun r hr => ops6_keeps V5 r hr
  have s80 := ops6_v80 V5 x0 x1 x2 x3 x4 x5 x6 x7 x8 x9 x10 x11 x12 f2 w39 s65 w24
  have g13 := (k6 main_arg13 (by decide)).trans f13
  have g14 := (k6 main_arg14 (by decide)).trans f14
  have g15 := (k6 main_arg15 (by decide)).trans f15
  have g16 := (k6 main_arg16 (by decide)).trans f16
  clear k6 s65 w39 w24 f2 f13 f14 f15 f16
  generalize after ops6 V5 = V6 at *
  -- the last stretch
  exact ops7_v95 V6 x0 x1 x2 x3 x4 x5 x6 x7 x8 x9 x10 x11 x12 x13 x14 x15 x16 g13 g14 g15 g16 s80

/-- On every device, from any memory with zero counters: every weakly fair execution of the reference's @main
    terminates with the result buffer at the last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v95).trans (result_eq (launchContents m c) _ _ _ _ _ _ _ _ _ _ _ _ _ _ _ _ _ rfl rfl rfl rfl rfl rfl rfl rfl rfl rfl rfl rfl rfl rfl rfl rfl rfl),
      (h c main_arg0).trans (ops_keeps (launchContents m c) main_arg0 (by decide) (by decide) (by decide) (by decide) (by decide) (by decide) (by decide)),
      (h c main_arg1).trans (ops_keeps (launchContents m c) main_arg1 (by decide) (by decide) (by decide) (by decide) (by decide) (by decide) (by decide)),
      (h c main_arg2).trans (ops_keeps (launchContents m c) main_arg2 (by decide) (by decide) (by decide) (by decide) (by decide) (by decide) (by decide)),
      (h c main_arg3).trans (ops_keeps (launchContents m c) main_arg3 (by decide) (by decide) (by decide) (by decide) (by decide) (by decide) (by decide)),
      (h c main_arg4).trans (ops_keeps (launchContents m c) main_arg4 (by decide) (by decide) (by decide) (by decide) (by decide) (by decide) (by decide)),
      (h c main_arg5).trans (ops_keeps (launchContents m c) main_arg5 (by decide) (by decide) (by decide) (by decide) (by decide) (by decide) (by decide)),
      (h c main_arg6).trans (ops_keeps (launchContents m c) main_arg6 (by decide) (by decide) (by decide) (by decide) (by decide) (by decide) (by decide)),
      (h c main_arg7).trans (ops_keeps (launchContents m c) main_arg7 (by decide) (by decide) (by decide) (by decide) (by decide) (by decide) (by decide)),
      (h c main_arg8).trans (ops_keeps (launchContents m c) main_arg8 (by decide) (by decide) (by decide) (by decide) (by decide) (by decide) (by decide)),
      (h c main_arg9).trans (ops_keeps (launchContents m c) main_arg9 (by decide) (by decide) (by decide) (by decide) (by decide) (by decide) (by decide)),
      (h c main_arg10).trans (ops_keeps (launchContents m c) main_arg10 (by decide) (by decide) (by decide) (by decide) (by decide) (by decide) (by decide)),
      (h c main_arg11).trans (ops_keeps (launchContents m c) main_arg11 (by decide) (by decide) (by decide) (by decide) (by decide) (by decide) (by decide)),
      (h c main_arg12).trans (ops_keeps (launchContents m c) main_arg12 (by decide) (by decide) (by decide) (by decide) (by decide) (by decide) (by decide)),
      (h c main_arg13).trans (ops_keeps (launchContents m c) main_arg13 (by decide) (by decide) (by decide) (by decide) (by decide) (by decide) (by decide)),
      (h c main_arg14).trans (ops_keeps (launchContents m c) main_arg14 (by decide) (by decide) (by decide) (by decide) (by decide) (by decide) (by decide)),
      (h c main_arg15).trans (ops_keeps (launchContents m c) main_arg15 (by decide) (by decide) (by decide) (by decide) (by decide) (by decide) (by decide)),
      (h c main_arg16).trans (ops_keeps (launchContents m c) main_arg16 (by decide) (by decide) (by decide) (by decide) (by decide) (by decide) (by decide))⟩)
    (run_seq scopedRefs_eq scopedSems_eq defs main (fun _ => ops) main_eq (fun _ => ops_sub) m ρ)

end Cert.ReferenceIdeal.Chunks

end
-- ==== Proof.PreDecode.lean ====
import proofs.«417757_j46952582480249_1_alg».proof.Pre_finite_inputs
import proofs.«417757_j46952582480249_1_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

/-!
What the precondition says once read: the node features, the normalisation's scale and its shift hold real numbers
(no infinity), and every edge index lies in `[0, 50000)`.  The predicate is a conjunction of seventeen all-reductions;
only these four facts are used by the value proof.
-/

set_option maxRecDepth 16384

noncomputable section

namespace Cert.Pre_finite_inputs.Decode

open Cert.Pre_finite_inputs Cert.Pre_finite_inputs.Gen Idealize.ShloMosaic Idealize.SL.Sem Idealize.ShloMosaic.ValueIdx

/-- The rank-zero shape has one index. -/
local instance : Subsingleton S_.Idx := ⟨fun a b => funext fun d => d.elim0⟩

/-- The single-precision pattern with all exponent bits set and no fraction bit is +∞. -/
theorem inf_bits : Ideal.ofBits .f32 0x7F800000#32 = (⊤ : EReal) := by simp [Ideal.ofBits, Ideal.ieee]

/-- An extended real whose absolute value max(x, -x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The conjunction of two one-bit words is 1 exactly when both are. -/
theorem and_ix0 (x y : IVec S_ 1) : andi x y ix0 = 1#1 ↔ x ix0 = 1#1 ∧ y ix0 = 1#1 := IntOp.andi_eq_one

/-- all(|x| < +∞) over any shape: every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : ∃ r : ℝ, x i = (r : EReal) := by
  have h1 := Host.reduce_andi_all _ _ hr hu ix0 e i
  change Ideal.cmp .olt (max (x i) (-(x i))) (Ideal.ofBits .f32 0x7F800000#32) = 1#1 at h1
  rw [inf_bits] at h1
  unfold Ideal.cmp at h1
  rw [StableHlo.Predicate.ofBool_eq_one_iff, decide_eq_true_eq] at h1
  exact real_of_abs_lt_top _ h1

/-- all(x ≥ 0) over any shape of 32-bit words: every entry is nonnegative, read signed. -/
theorem all_nonneg {s : Shape} {axes : List (Fin s.rank)} (x : IVec s 32)
    (hb : S_.BroadcastsInDim s (![] : Fin 0 → Fin s.rank)) (hr : s.ReducesTo axes S_) (hu : 0 < S_.numel)
    (e : Host.reduce IntOp.andi (cmpi .sge x (broadcastInDim s ![] hb (constantI S_ 32 0#32)))
      (constantI S_ 1 1#1) hr hu ix0 = 1#1) (i : s.Idx) : 0 ≤ (x i).toInt := by
  have h1 := Host.reduce_andi_all _ _ hr hu ix0 e i
  change IntOp.cmpi .sge (x i) 0#32 = 1#1 at h1
  have h2 := IntOp.cmpi_sge.mp h1
  rwa [show (0#32 : BitVec 32).toInt = 0 from by decide] at h2

/-- all(x < 50000) over any shape of 32-bit words: every entry is below 50000, read signed. -/
theorem all_lt {s : Shape} {axes : List (Fin s.rank)} (x : IVec s 32)
    (hb : S_.BroadcastsInDim s (![] : Fin 0 → Fin s.rank)) (hr : s.ReducesTo axes S_) (hu : 0 < S_.numel)
    (e : Host.reduce IntOp.andi (cmpi .slt x (broadcastInDim s ![] hb (constantI S_ 32 50000#32)))
      (constantI S_ 1 1#1) hr hu ix0 = 1#1) (i : s.Idx) : (x i).toInt < 50000 := by
  have h1 := Host.reduce_andi_all _ _ hr hu ix0 e i
  change IntOp.cmpi .slt (x i) 50000#32 = 1#1 at h1
  have h2 := IntOp.cmpi_slt.mp h1
  rwa [show (50000#32 : BitVec 32).toInt = 50000 from by decide] at h2

/-- The precondition, read. -/
theorem of_pre (a0 : FVec Ideal S50000x13 .f32) (a1 : IVec S2x1600000 32) (a2 : IVec S50000 32) (a3 : FVec Ideal S13 .f32) (a4 : FVec Ideal S13 .f32) (a5 : FVec Ideal S13x32 .f32) (a6 : FVec Ideal S32 .f32) (a7 : FVec Ideal S32x32 .f32) (a8 : FVec Ideal S32 .f32) (a9 : FVec Ideal S90x64 .f32) (a10 : FVec Ideal S64 .f32) (a11 : FVec Ideal S64x32 .f32) (a12 : FVec Ideal S32 .f32) (a13 : FVec Ideal S45x32 .f32) (a14 : FVec Ideal S32 .f32) (a15 : FVec Ideal S32x1 .f32) (a16 : FVec Ideal S1 .f32)
    (h : fn (F := Ideal) a0 a1 a2 a3 a4 a5 a6 a7 a8 a9 a10 a11 a12 a13 a14 a15 a16 = fun _ => 1#1) :
    (∀ i, ∃ r : ℝ, a0 i = (r : EReal)) ∧ (∀ i, ∃ r : ℝ, a3 i = (r : EReal)) ∧ (∀ i, ∃ r : ℝ, a4 i = (r : EReal))
      ∧ (∀ i, 0 ≤ (a1 i).toInt ∧ (a1 i).toInt < 50000) := by
  have e := congrFun h ix0
  dsimp only [fn, fn_part1, fn_part2, fn_part3, fn_part4] at e
  simp only [and_ix0] at e
  obtain ⟨⟨⟨⟨⟨⟨⟨⟨⟨⟨⟨⟨⟨⟨⟨⟨h0, h3⟩, h4⟩, -⟩, -⟩, -⟩, -⟩, -⟩, -⟩, -⟩, -⟩, -⟩, -⟩, -⟩, -⟩, hge⟩, hlt⟩ := e
  exact ⟨all_real a0 _ _ _ h0, all_real a3 _ _ _ h3, all_real a4 _ _ _ h4,
    fun i => ⟨all_nonneg a1 _ _ _ hge i, all_lt a1 _ _ _ hlt i⟩⟩

end Cert.Pre_finite_inputs.Decode

end
-- ==== Proof.Spec.lean ====
import Idealize.ShloMosaic.PureOps.Ideal
import Idealize.ShloMosaic.Lib.ValueIdx

/-!
The arithmetic both programs perform, written once over plain coordinates.

Every dense stage of the network is a two-layer perceptron applied row by row: a row `a p ·` is mapped to
`act (∑ h, max (∑ k, a p k * w1 k h + b1 h) 0 * w2 h q + b2 q)`.  The node stage feeds it the normalised features,
the edge stage the concatenation of the target row with the difference of source and target rows, and the
read-out stage the pooled rows.
-/

noncomputable section

namespace Cert.Spec

open Idealize.ShloMosaic Idealize.ShloMosaic.ValueIdx

/-- A rank-two array of extended reals over literal extents. -/
abbrev Arr (m n : Nat) : Type := (⟨2, ![m, n]⟩ : Shape).Idx → EReal

/-- A rank-one array of extended reals. -/
abbrev Arr1 (n : Nat) : Type := (⟨1, ![n]⟩ : Shape).Idx → EReal

/-- Entry `(p, q)` of a rank-two array. -/
abbrev at2 {M N : Nat} (A : Arr M N) (p : Fin M) (q : Fin N) : EReal := A (ix2 p q)

/-- Entry `q` of a rank-one array. -/
abbrev at1 {N : Nat} (A : Arr1 N) (q : Fin N) : EReal := A (ix1 q)

/-- The array whose entry at `(p, q)` is `f p q`. -/
def arr2 {M N : Nat} (f : Fin M → Fin N → EReal) : Arr M N := fun i => f (i 0) (i 1)

theorem arr2_ix2 {M N : Nat} (f : Fin M → Fin N → EReal) (p : Fin M) (q : Fin N) : arr2 f (ix2 p q) = f p q := rfl

/-- Two arrays that agree at every pair of coordinates are equal. -/
theorem arr_ext {M N : Nat} {A B : Arr M N} (h : ∀ (p : Fin M) (q : Fin N), A (ix2 p q) = B (ix2 p q)) : A = B := by
  funext i; rw [eq_ix2 i]; exact h _ _

/-- One row of a two-layer perceptron with a rectified hidden layer and the activation `act` at the end. -/
def mlp2 {M K H N : Nat} (act : EReal → EReal) (a : Fin M → Fin K → EReal) (w1 : Fin K → Fin H → EReal) (b1 : Fin H → EReal)
    (w2 : Fin H → Fin N → EReal) (b2 : Fin N → EReal) (p : Fin M) (q : Fin N) : EReal :=
  act ((∑ h : Fin H, max ((∑ k : Fin K, a p k * w1 k h) + b1 h) 0 * w2 h q) + b2 q)

/-- The perceptron reads its input one row at a time: two inputs that agree on row `p` give the same row `p`. -/
theorem mlp2_congr_row {M M' K H N : Nat} (act : EReal → EReal) (a : Fin M → Fin K → EReal) (a' : Fin M' → Fin K → EReal)
    (w1 : Fin K → Fin H → EReal) (b1 : Fin H → EReal) (w2 : Fin H → Fin N → EReal) (b2 : Fin N → EReal)
    (p : Fin M) (p' : Fin M') (q : Fin N) (h : ∀ k, a p k = a' p' k) :
    mlp2 act a w1 b1 w2 b2 p q = mlp2 act a' w1 b1 w2 b2 p' q := by
  unfold mlp2
  simp only [h]

/-- The edge stage's input row: the target's 45 features followed by source minus target. -/
def edgeIn {E : Nat} (xi xj : Fin E → Fin 45 → EReal) (e : Fin E) (d : Fin 90) : EReal :=
  if h : d.val < 45 then xi e ⟨d.val, h⟩ else xj e ⟨d.val - 45, by omega⟩ - xi e ⟨d.val - 45, by omega⟩

/-- Rows of 32 features followed by rows of 13 features, side by side. -/
def cat32_13 {M : Nat} (u : Fin M → Fin 32 → EReal) (v : Fin M → Fin 13 → EReal) (p : Fin M) (d : Fin 45) : EReal :=
  if h : d.val < 32 then u p ⟨d.val, h⟩ else v p ⟨d.val - 32, by omega⟩

end Cert.Spec

end
-- ==== Proof.Reg0.lean ====
import proofs.«417757_j46952582480249_1_alg».proof.Proof.Gen.KernelIdeal.Frame
import proofs.«417757_j46952582480249_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The node stage, read off its pipeline: ten blocks of 5000 rows, each row normalised by the affine map
`x * scale + shift` and then passed through the two-layer perceptron.  Whatever the buffers hold when the stage is
entered (`V`), the two output arrays end as these functions of the stage's input arrays, row by row.
-/

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

/-! ## The body's two results at an entry -/

/-- The affine map of a block: entry `(p, q)` is the block's entry times the scale of column `q` plus its shift. -/
theorem affine_apply (x0 : Vec Ideal S5000x13 .f32) (x1 x2 : Vec Ideal S1x13 .f32) (p : Fin 5000) (q : Fin 13) :
    k0_pay1 (F := Ideal) x0 x1 x2 (ix2 p q) = x0 (ix2 p q) * x1 (ix2 (0 : Fin 1) q) + x2 (ix2 (0 : Fin 1) q) := by
  unfold k0_pay1
  rw [addf_apply, mulf_apply, shapeCast_self, shapeCast_self, broadcastTo_1b_ab_apply, broadcastTo_1b_ab_apply]

/-! ## The two matrix products at an entry

Each product contracts the left operand's column axis with the right operand's row axis, so its entry `(p, h)` is
the sum over `k` of `a p k * w k h`. -/

theorem lhs_hidden_0 (i : S5000x32.Idx) (q : dot_S5000x13_S13x32_S5000x32_1_0_0_1_n_n.contr.Idx) :
    (dot_S5000x13_S13x32_S5000x32_1_0_0_1_n_n.lhsIdx i q 0).val = (i 0).val := by
  unfold DotDims.lhsIdx
  rw [dif_neg (show ¬(0 : Fin S5000x13.rank) ∈ dot_S5000x13_S13x32_S5000x32_1_0_0_1_n_n.lhsBatch by decide), dif_pos (show (0 : Fin S5000x13.rank) ∈ dot_S5000x13_S13x32_S5000x32_1_0_0_1_n_n.lhsNonContracting by decide)]
  rfl
theorem lhs_hidden_1 (i : S5000x32.Idx) (q : dot_S5000x13_S13x32_S5000x32_1_0_0_1_n_n.contr.Idx) :
    (dot_S5000x13_S13x32_S5000x32_1_0_0_1_n_n.lhsIdx i q 1).val = (q ⟨0, by decide⟩).val :=
  dot_S5000x13_S13x32_S5000x32_1_0_0_1_n_n.lhsIdx_val_of_single rfl i q
theorem rhs_hidden_0 (i : S5000x32.Idx) (q : dot_S5000x13_S13x32_S5000x32_1_0_0_1_n_n.contr.Idx) :
    (dot_S5000x13_S13x32_S5000x32_1_0_0_1_n_n.rhsIdx i q 0).val = (q ⟨0, by decide⟩).val :=
  dot_S5000x13_S13x32_S5000x32_1_0_0_1_n_n.rhsIdx_val_of_single rfl i q
theorem rhs_hidden_1 (i : S5000x32.Idx) (q : dot_S5000x13_S13x32_S5000x32_1_0_0_1_n_n.contr.Idx) :
    (dot_S5000x13_S13x32_S5000x32_1_0_0_1_n_n.rhsIdx i q 1).val = (i 1).val := by
  unfold DotDims.rhsIdx
  rw [dif_neg (show ¬(1 : Fin S13x32.rank) ∈ dot_S5000x13_S13x32_S5000x32_1_0_0_1_n_n.rhsBatch by decide), dif_pos (show (1 : Fin S13x32.rank) ∈ dot_S5000x13_S13x32_S5000x32_1_0_0_1_n_n.rhsNonContracting by decide)]
  rfl

/-- The first layer's product: a row of 13 features against the 13 × 32 weights. -/
theorem hidden_apply (a : FVec Ideal S5000x13 .bf16) (w : FVec Ideal S13x32 .bf16) (p : Fin 5000) (h : Fin 32) :
    matmul dot_S5000x13_S13x32_S5000x32_1_0_0_1_n_n none a w (constant (F := Ideal) S5000x32 .f32 0x00000000#32) (ix2 p h)
      = ∑ k : Fin 13, a (ix2 p k) * w (ix2 k h) := by
  simp only [matmul]
  rw [Ideal.matmul_constant_zero_apply, ← Equiv.sum_comp (ValueIdx.contrEquiv1 dot_S5000x13_S13x32_S5000x32_1_0_0_1_n_n 13 rfl rfl).symm]
  refine Finset.sum_congr rfl fun k _ => ?_
  have hk := ValueIdx.contrEquiv1_symm_val dot_S5000x13_S13x32_S5000x32_1_0_0_1_n_n 13 rfl rfl k
  have el : dot_S5000x13_S13x32_S5000x32_1_0_0_1_n_n.lhsIdx (ix2 p h) ((ValueIdx.contrEquiv1 dot_S5000x13_S13x32_S5000x32_1_0_0_1_n_n 13 rfl rfl).symm k) = ix2 p k := funext fun a => Fin.ext (by
    match a with
    | ⟨0, _⟩ => exact lhs_hidden_0 _ _
    | ⟨1, _⟩ => exact (lhs_hidden_1 _ _).trans hk)
  have er : dot_S5000x13_S13x32_S5000x32_1_0_0_1_n_n.rhsIdx (ix2 p h) ((ValueIdx.contrEquiv1 dot_S5000x13_S13x32_S5000x32_1_0_0_1_n_n 13 rfl rfl).symm k) = ix2 k h := funext fun a => Fin.ext (by
    match a with
    | ⟨0, _⟩ => exact (rhs_hidden_0 _ _).trans hk
    | ⟨1, _⟩ => exact rhs_hidden_1 _ _)
  rw [el, er]

theorem lhs_outer_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem lhs_outer_1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
theorem rhs_outer_0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
theorem rhs_outer_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The second layer's product: a row of 32 hidden units against the 32 × 32 weights. -/
theorem outer_apply (a : FVec Ideal S5000x32 .bf16) (w : FVec Ideal S32x32 .bf16) (p : Fin 5000) (h : Fin 32) :
    matmul dot_S5000x32_S32x32_S5000x32_1_0_0_1_n_n none a w (constant (F := Ideal) S5000x32 .f32 0x00000000#32) (ix2 p h)
      = ∑ k : Fin 32, a (ix2 p k) * w (ix2 k h) := by
  simp only [matmul]
  rw [Ideal.matmul_constant_zero_apply, ← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx (ix2 p h) ((ValueIdx.contrEquiv1 dot_S5000x32_S32x32_S5000x32_1_0_0_1_n_n 32 rfl rfl).symm k) = ix2 p k := funext fun a => Fin.ext (by
    match a with
    | ⟨0, _⟩ => exact lhs_outer_0 _ _
    | ⟨1, _⟩ => exact (lhs_outer_1 _ _).trans hk)
  have er : dot_S5000x32_S32x32_S5000x32_1_0_0_1_n_n.rhsIdx (ix2 p h) ((ValueIdx.contrEquiv1 dot_S5000x32_S32x32_S5000x32_1_0_0_1_n_n 32 rfl rfl).symm k) = ix2 k h := funext fun a => Fin.ext (by
    match a with
    | ⟨0, _⟩ => exact (rhs_outer_0 _ _).trans hk
    | ⟨1, _⟩ => exact rhs_outer_1 _ _)
  rw [el, er]

/-- The perceptron of a block: entry `(p, q)` is the two-layer perceptron of row `p` of the block's affine image. -/
theorem perceptron_apply (x0 : Vec Ideal S5000x13 .f32) (x1 x2 : Vec Ideal S1x13 .f32) (x3 : Vec Ideal S13x32 .f32)
    (x4 : Vec Ideal S1x32 .f32) (x5 : Vec Ideal S32x32 .f32) (x6 : Vec Ideal S1x32 .f32) (p : Fin 5000) (q : Fin 32) :
    k0_pay2 (F := Ideal) x0 x1 x2 x3 x4 x5 x6 (ix2 p q)
      = mlp2 Ideal.tanh (fun (n : Fin 5000) (d : Fin 13) => x0 (ix2 n d) * x1 (ix2 (0 : Fin 1) d) + x2 (ix2 (0 : Fin 1) d))
          (fun k h => x3 (ix2 k h)) (fun h => x4 (ix2 (0 : Fin 1) h)) (fun h q => x5 (ix2 h q)) (fun q => x6 (ix2 (0 : Fin 1) q)) p q := by
  unfold k0_pay2 mlp2
  simp only [shapeCast_self]
  show Ideal.tanh _ = Ideal.tanh ((∑ h : Fin 32, max ((∑ k : Fin 13, (x0 (ix2 p k) * x1 (ix2 (0 : Fin 1) k) + x2 (ix2 (0 : Fin 1) k)) * x3 (ix2 k h))
    + x4 (ix2 (0 : Fin 1) h)) 0 * x5 (ix2 h q)) + x6 (ix2 (0 : Fin 1) q))
  rw [addf_apply, outer_apply, broadcastTo_1b_ab_apply]
  refine congrArg (fun s => Ideal.tanh (s + x6 (ix2 (0 : Fin 1) q))) (Finset.sum_congr rfl fun h _ => ?_)
  rw [truncf_apply, truncf_apply, maximumf_apply, broadcast_apply, addf_apply, hidden_apply, broadcastTo_1b_ab_apply]
  have hz : (Scalar.ofBits (F := Ideal) .f32 0x00000000#32 : EReal) = 0 := Ideal.ofBits_zero_f32
  rw [hz]
  refine congrArg (fun s => max (s + x4 (ix2 (0 : Fin 1) h)) 0 * x5 (ix2 h q)) (Finset.sum_congr rfl fun k _ => ?_)
  rw [truncf_apply, truncf_apply, affine_apply]

/-! ## From blocks to arrays

The stage runs over ten points; at point `t` the row-blocked windows (the input rows and both outputs) hold rows
`5000 t ..  5000 t + 4999` and the parameter windows hold their whole arrays. -/

theorem zero_offsets : (![0, 0] : Fin 2 → Nat) = fun _ => 0 := funext fun a => by fin_cases a <;> rfl

/-- The block-index maps over the ten points: the row-blocked windows are at row block `t`, column block `0`; the
    parameter windows are at block `(0, 0)` throughout. -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem point_lt (t : Fin cfg0.N) : t.val < 10 := lt_of_lt_of_eq t.isLt N_0

/-- Row `p` of the block at point `t`, as a row of the whole array. -/
def rowOf (t : Fin cfg0.N) (p : Fin 5000) : Fin 50000 := ⟨t.val * 5000 + p.val, by have := point_lt t; have := p.isLt; omega⟩

/-- The block of input rows at point `t`. -/
theorem blk_rows (c : Dev nD) (t : Fin cfg0.N) (p : Fin 5000) (q : Fin 13) :
    iblk0 (F := Ideal) V c 0 t (ix2 p q) = at2 (V c main_arg0) (rowOf t p) q := by
  obtain ⟨⟨e0, e1⟩, -⟩ := index_facts t
  show V c main_arg0 (((cfg0.win 0).blk t).view.emb (ix2 p q)) = V c main_arg0 (ix2 (rowOf t p) q)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 13 + 1 * q.val = q.val; omega

/-- The scale row, whole at every point. -/
theorem blk_scale (c : Dev nD) (t : Fin cfg0.N) (q : Fin 13) :
    iblk0 (F := Ideal) V c 1 t (ix2 (0 : Fin 1) q) = at2 (V c main_v14) 0 q := by
  obtain ⟨-, ⟨e0, e1⟩, -⟩ := index_facts t
  show V c main_v14 (((cfg0.win 1).blk t).view.emb (ix2 (0 : Fin 1) q)) = V c main_v14 (ix2 (0 : Fin 1) q)
  refine congrArg (V c main_v14) (funext fun a => Fin.ext ?_)
  match a with
  | ⟨0, _⟩ => show win0_1.index t (0 : Fin 2) * 1 + 1 * 0 = 0; omega
  | ⟨1, _⟩ => show win0_1.index t (1 : Fin 2) * 13 + 1 * q.val = q.val; omega

/-- The shift row, whole at every point. -/
theorem blk_shift (c : Dev nD) (t : Fin cfg0.N) (q : Fin 13) :
    iblk0 (F := Ideal) V c 2 t (ix2 (0 : Fin 1) q) = at2 (V c main_v18) 0 q := by
  obtain ⟨-, -, ⟨e0, e1⟩, -⟩ := index_facts t
  show V c main_v18 (((cfg0.win 2).blk t).view.emb (ix2 (0 : Fin 1) q)) = V c main_v18 (ix2 (0 : Fin 1) q)
  refine congrArg (V c main_v18) (funext fun a => Fin.ext ?_)
  match a with
  | ⟨0, _⟩ => show win0_2.index t (0 : Fin 2) * 1 + 1 * 0 = 0; omega
  | ⟨1, _⟩ => show win0_2.index t (1 : Fin 2) * 13 + 1 * q.val = q.val; omega

/-- Where entry `(p, q)` of the normalised block at point `t` lands in the array. -/
theorem emb_xn (t : Fin cfg0.N) (p : Fin 5000) (q : Fin 13) :
    ((cfg0.win 7).blk t).view.emb (ix2 p q) = ix2 (rowOf t p) q := by
  obtain ⟨-, -, -, -, -, -, -, ⟨e0, e1⟩, -⟩ := index_facts t
  funext a; apply Fin.ext
  match a with
  | ⟨0, _⟩ => show win0_7.index t (0 : Fin 2) * 5000 + 1 * p.val = t.val * 5000 + p.val; omega
  | ⟨1, _⟩ => show win0_7.index t (1 : Fin 2) * 13 + 1 * q.val = q.val; omega

/-- The normalised features as one array. -/
abbrev xnArr (c : Dev nD) : Arr 50000 13 :=
  arr2 (fun n d => at2 (V c main_arg0) n d * at2 (V c main_v14) 0 d + at2 (V c main_v18) 0 d)

/-- What point `t` writes back to the normalised features is its block of that array. -/
theorem flushed_xn (c : Dev nD) (t : Fin cfg0.N) :
    (dat0 (F := Ideal) V c).flushed 7 t = ((cfg0.win 7).blk t).view.read (Elt Ideal) (xnArr V c) := by
  show (cfg0.win 7).cut (grid0.coords t) ((dat0 (F := Ideal) V c).after 7 t) = _
  rw [after0_7]
  unfold out0_7
  rw [View.canon_unit_zero zero_offsets]
  simp only [View.ld_unit_zero (S := S5000x13) zero_offsets, View.ld_unit_zero (S := S1x13) zero_offsets]
  funext j
  obtain ⟨p, q, rfl⟩ : ∃ (p : Fin 5000) (q : Fin 13), j = ix2 p q := ⟨j 0, j 1, eq_ix2 j⟩
  show k0_pay1 (F := Ideal) (iblk0 V c 0 t) (iblk0 V c 1 t) (iblk0 V c 2 t) (ix2 p q)
    = xnArr V c (((cfg0.win 7).blk t).view.emb (ix2 p q))
  refine (affine_apply _ _ _ p q).trans ?_
  rw [emb_xn t p q]
  show _ = at2 (V c main_arg0) (rowOf t p) q * at2 (V c main_v14) 0 q + at2 (V c main_v18) 0 q
  exact congrArg₂ (· + ·) (congrArg₂ (· * ·) (blk_rows V c t p q) (blk_scale V c t q)) (blk_shift V c t q)

/-- An entry of the normalised features lies in point `t`'s block iff each coordinate is in the block's range on its axis. -/
theorem mem_blk_xn (t : Fin cfg0.N) (i : S50000x13.Idx) :
    i ∈ ((cfg0.win 7).blk t).view.set ↔ ∀ a : Fin 2, win0_7.index t a * S5000x13.size a ≤ (i a).val ∧ (i a).val < win0_7.index t a * S5000x13.size a + S5000x13.size a := by
  show i ∈ ((View.whole main_v21_0).slice (win0_7.rect t)).set ↔ _
  rw [View.set_slice_whole, Rect.mem_set_unit]
  exact Iff.rfl

/-- Every row lies in the block of the point that is its quotient by 5000. -/
theorem cover_xn (i : S50000x13.Idx) :
    ∃ t : Fin cfg0.N, (cfg0.win 7).flush t = true ∧ i ∈ ((cfg0.win 7).blk t).view.set := by
  have hi0 : (i 0).val < 50000 := (i 0).isLt
  have hi1 : (i 1).val < 13 := (i 1).isLt
  obtain ⟨t, ht⟩ : ∃ t : Fin cfg0.N, t.val = (i 0).val / 5000 :=
    ⟨⟨(i 0).val / 5000, lt_of_lt_of_eq (show (i 0).val / 5000 < 10 by omega) N_0.symm⟩, rfl⟩
  obtain ⟨-, -, -, -, -, -, -, ⟨e0, e1⟩, -⟩ := index_facts t
  refine ⟨t, flush0_7 t, ?_⟩
  rw [mem_blk_xn]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 13 ≤ (i 1).val ∧ (i 1).val < win0_7.index t (1 : Fin 2) * 13 + 13; omega

/-- The normalised features after the stage: `x * scale + shift`, column-wise scale and shift. -/
theorem final_xn (c : Dev nD) :
    ((dat0 (F := Ideal) V c).arrAt 7 cfg0.N : Arr 50000 13)
      = arr2 (fun n d => at2 (V c main_arg0) n d * at2 (V c main_v14) 0 d + at2 (V c main_v18) 0 d) :=
  (dat0 (F := Ideal) V c).arrAt_eq_of_cover 7 (xnArr V c) (fun t _ => flushed_xn V c t) cover_xn

/-- The first layer's weights, whole at every point. -/
theorem blk_w1 (c : Dev nD) (t : Fin cfg0.N) (k : Fin 13) (h : Fin 32) :
    iblk0 (F := Ideal) V c 3 t (ix2 k h) = at2 (V c main_arg5) k h := by
  obtain ⟨-, -, -, ⟨e0, e1⟩, -⟩ := index_facts t
  show V c main_arg5 (((cfg0.win 3).blk t).view.emb (ix2 k h)) = V c main_arg5 (ix2 k h)
  refine congrArg (V c main_arg5) (funext fun a => Fin.ext ?_)
  match a with
  | ⟨0, _⟩ => show win0_3.index t (0 : Fin 2) * 13 + 1 * k.val = k.val; omega
  | ⟨1, _⟩ => show win0_3.index t (1 : Fin 2) * 32 + 1 * h.val = h.val; omega

/-- The first layer's bias row, whole at every point. -/
theorem blk_b1 (c : Dev nD) (t : Fin cfg0.N) (q : Fin 32) :
    iblk0 (F := Ideal) V c 4 t (ix2 (0 : Fin 1) q) = at2 (V c main_v19) 0 q := by
  obtain ⟨-, -, -, -, ⟨e0, e1⟩, -⟩ := index_facts t
  show V c main_v19 (((cfg0.win 4).blk t).view.emb (ix2 (0 : Fin 1) q)) = V c main_v19 (ix2 (0 : Fin 1) q)
  refine congrArg (V c main_v19) (funext fun a => Fin.ext ?_)
  match a with
  | ⟨0, _⟩ => show win0_4.index t (0 : Fin 2) * 1 + 1 * 0 = 0; omega
  | ⟨1, _⟩ => show win0_4.index t (1 : Fin 2) * 32 + 1 * q.val = q.val; omega

/-- The second layer's weights, whole at every point. -/
theorem blk_w2 (c : Dev nD) (t : Fin cfg0.N) (k : Fin 32) (h : Fin 32) :
    iblk0 (F := Ideal) V c 5 t (ix2 k h) = at2 (V c main_arg7) k h := by
  obtain ⟨-, -, -, -, -, ⟨e0, e1⟩, -⟩ := index_facts t
  show V c main_arg7 (((cfg0.win 5).blk t).view.emb (ix2 k h)) = V c main_arg7 (ix2 k h)
  refine congrArg (V c main_arg7) (funext fun a => Fin.ext ?_)
  match a with
  | ⟨0, _⟩ => show win0_5.index t (0 : Fin 2) * 32 + 1 * k.val = k.val; omega
  | ⟨1, _⟩ => show win0_5.index t (1 : Fin 2) * 32 + 1 * h.val = h.val; omega

/-- The second layer's bias row, whole at every point. -/
theorem blk_b2 (c : Dev nD) (t : Fin cfg0.N) (q : Fin 32) :
    iblk0 (F := Ideal) V c 6 t (ix2 (0 : Fin 1) q) = at2 (V c main_v20) 0 q := by
  obtain ⟨-, -, -, -, -, -, ⟨e0, e1⟩, -⟩ := index_facts t
  show V c main_v20 (((cfg0.win 6).blk t).view.emb (ix2 (0 : Fin 1) q)) = V c main_v20 (ix2 (0 : Fin 1) q)
  refine congrArg (V c main_v20) (funext fun a => Fin.ext ?_)
  match a with
  | ⟨0, _⟩ => show win0_6.index t (0 : Fin 2) * 1 + 1 * 0 = 0; omega
  | ⟨1, _⟩ => show win0_6.index t (1 : Fin 2) * 32 + 1 * q.val = q.val; omega

/-- Where entry `(p, q)` of the hidden block at point `t` lands in the array. -/
theorem emb_hn (t : Fin cfg0.N) (p : Fin 5000) (q : Fin 32) :
    ((cfg0.win 8).blk t).view.emb (ix2 p q) = ix2 (rowOf t p) q := by
  obtain ⟨-, -, -, -, -, -, -, -, ⟨e0, e1⟩⟩ := index_facts t
  funext a; apply Fin.ext
  match a with
  | ⟨0, _⟩ => show win0_8.index t (0 : Fin 2) * 5000 + 1 * p.val = t.val * 5000 + p.val; omega
  | ⟨1, _⟩ => show win0_8.index t (1 : Fin 2) * 32 + 1 * q.val = q.val; omega

/-- The perceptron depends on its five arguments only through the entries it reads. -/
theorem mlp2_congr {M M' K H N : Nat} (act : EReal → EReal) (a : Fin M → Fin K → EReal) (a' : Fin M' → Fin K → EReal)
    (w1 w1' : Fin K → Fin H → EReal) (b1 b1' : Fin H → EReal) (w2 w2' : Fin H → Fin N → EReal) (b2 b2' : Fin N → EReal)
    (p : Fin M) (p' : Fin M') (q : Fin N) (ha : ∀ k, a p k = a' p' k) (hw1 : ∀ k h, w1 k h = w1' k h)
    (hb1 : ∀ h, b1 h = b1' h) (hw2 : ∀ h q, w2 h q = w2' h q) (hb2 : ∀ q, b2 q = b2' q) :
    mlp2 act a w1 b1 w2 b2 p q = mlp2 act a' w1' b1' w2' b2' p' q := by
  unfold mlp2
  simp only [ha, hw1, hb1, hw2, hb2]

/-- The hidden features as one array. -/
abbrev hnArr (c : Dev nD) : Arr 50000 32 :=
  arr2 (mlp2 Ideal.tanh
    (fun n d => at2 (V c main_arg0) n d * at2 (V c main_v14) 0 d + at2 (V c main_v18) 0 d)
    (fun k h => at2 (V c main_arg5) k h) (fun h => at2 (V c main_v19) 0 h)
    (fun h q => at2 (V c main_arg7) h q) (fun q => at2 (V c main_v20) 0 q))

/-- What point `t` writes back to the hidden features is its block of that array. -/
theorem flushed_hn (c : Dev nD) (t : Fin cfg0.N) :
    (dat0 (F := Ideal) V c).flushed 8 t = ((cfg0.win 8).blk t).view.read (Elt Ideal) (hnArr V c) := by
  show (cfg0.win 8).cut (grid0.coords t) ((dat0 (F := Ideal) V c).after 8 t) = _
  rw [after0_8]
  unfold out0_8
  rw [View.canon_unit_zero zero_offsets]
  simp only [View.ld_unit_zero (S := S5000x13) zero_offsets, View.ld_unit_zero (S := S1x13) zero_offsets,
    View.ld_unit_zero (S := S13x32) zero_offsets, View.ld_unit_zero (S := S1x32) zero_offsets,
    View.ld_unit_zero (S := S32x32) zero_offsets]
  funext j
  obtain ⟨p, q, rfl⟩ : ∃ (p : Fin 5000) (q : Fin 32), j = ix2 p q := ⟨j 0, j 1, eq_ix2 j⟩
  show k0_pay2 (F := Ideal) (iblk0 V c 0 t) (iblk0 V c 1 t) (iblk0 V c 2 t) (iblk0 V c 3 t) (iblk0 V c 4 t)
      (iblk0 V c 5 t) (iblk0 V c 6 t) (ix2 p q)
    = hnArr V c (((cfg0.win 8).blk t).view.emb (ix2 p q))
  refine (perceptron_apply _ _ _ _ _ _ _ p q).trans ?_
  rw [emb_hn t p q]
  show _ = mlp2 Ideal.tanh
    (fun n d => at2 (V c main_arg0) n d * at2 (V c main_v14) 0 d + at2 (V c main_v18) 0 d)
    (fun k h => at2 (V c main_arg5) k h) (fun h => at2 (V c main_v19) 0 h)
    (fun h q => at2 (V c main_arg7) h q) (fun q => at2 (V c main_v20) 0 q) (rowOf t p) q
  exact mlp2_congr Ideal.tanh _ _ _ _ _ _ _ _ _ _ p (rowOf t p) q
    (fun k => congrArg₂ (· + ·) (congrArg₂ (· * ·) (blk_rows V c t p k) (blk_scale V c t k)) (blk_shift V c t k))
    (blk_w1 V c t) (blk_b1 V c t) (blk_w2 V c t) (blk_b2 V c t)

/-- An entry of the hidden features lies in point `t`'s block iff each coordinate is in the block's range on its axis. -/
theorem mem_blk_hn (t : Fin cfg0.N) (i : S50000x32.Idx) :
    i ∈ ((cfg0.win 8).blk t).view.set ↔ ∀ a : Fin 2, win0_8.index t a * S5000x32.size a ≤ (i a).val ∧ (i a).val < win0_8.index t a * S5000x32.size a + S5000x32.size a := by
  show i ∈ ((View.whole main_v21_1).slice (win0_8.rect t)).set ↔ _
  rw [View.set_slice_whole, Rect.mem_set_unit]
  exact Iff.rfl

/-- Every row lies in the block of the point that is its quotient by 5000. -/
theorem cover_hn (i : S50000x32.Idx) :
    ∃ t : Fin cfg0.N, (cfg0.win 8).flush t = true ∧ i ∈ ((cfg0.win 8).blk t).view.set := by
  have hi0 : (i 0).val < 50000 := (i 0).isLt
  have hi1 : (i 1).val < 32 := (i 1).isLt
  obtain ⟨t, ht⟩ : ∃ t : Fin cfg0.N, t.val = (i 0).val / 5000 :=
    ⟨⟨(i 0).val / 5000, lt_of_lt_of_eq (show (i 0).val / 5000 < 10 by omega) N_0.symm⟩, rfl⟩
  obtain ⟨-, -, -, -, -, -, -, -, ⟨e0, e1⟩⟩ := index_facts t
  refine ⟨t, flush0_8 t, ?_⟩
  rw [mem_blk_hn]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 32 ≤ (i 1).val ∧ (i 1).val < win0_8.index t (1 : Fin 2) * 32 + 32; omega

/-- The hidden features after the stage: the perceptron of the normalised rows, `tanh` at the end. -/
theorem final_hn (c : Dev nD) :
    ((dat0 (F := Ideal) V c).arrAt 8 cfg0.N : Arr 50000 32)
      = arr2 (mlp2 Ideal.tanh
          (fun n d => at2 (V c main_arg0) n d * at2 (V c main_v14) 0 d + at2 (V c main_v18) 0 d)
          (fun k h => at2 (V c main_arg5) k h) (fun h => at2 (V c main_v19) 0 h)
          (fun h q => at2 (V c main_arg7) h q) (fun q => at2 (V c main_v20) 0 q)) :=
  (dat0 (F := Ideal) V c).arrAt_eq_of_cover 8 (hnArr V c) (fun t _ => flushed_hn V c t) cover_hn

end Cert.KernelIdeal.Reg0

end
-- ==== Proof.Reg1.lean ====
import proofs.«417757_j46952582480249_1_alg».proof.Proof.Gen.KernelIdeal.Frame
import proofs.«417757_j46952582480249_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The edge stage, read off its pipeline: four hundred blocks of 4000 edges; each edge's message is the perceptron of
the target's row followed by source minus target.  Whatever the buffers hold when the stage is entered (`V`), the
message array ends as this function of the two gathered arrays and the weights, edge by edge.
-/

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

/-! ## The two contractions, entry by entry -/

theorem lhsA_0 (i : S4000x64.Idx) (q : dot_S4000x90_S90x64_S4000x64_1_0_0_1_n_n.contr.Idx) :
    (dot_S4000x90_S90x64_S4000x64_1_0_0_1_n_n.lhsIdx i q 0).val = (i 0).val := by
  unfold DotDims.lhsIdx
  rw [dif_neg (show ¬(0 : Fin S4000x90.rank) ∈ dot_S4000x90_S90x64_S4000x64_1_0_0_1_n_n.lhsBatch by decide), dif_pos (show (0 : Fin S4000x90.rank) ∈ dot_S4000x90_S90x64_S4000x64_1_0_0_1_n_n.lhsNonContracting by decide)]
  rfl
theorem lhsA_1 (i : S4000x64.Idx) (q : dot_S4000x90_S90x64_S4000x64_1_0_0_1_n_n.contr.Idx) :
    (dot_S4000x90_S90x64_S4000x64_1_0_0_1_n_n.lhsIdx i q 1).val = (q ⟨0, by decide⟩).val :=
  dot_S4000x90_S90x64_S4000x64_1_0_0_1_n_n.lhsIdx_val_of_single rfl i q
theorem rhsA_0 (i : S4000x64.Idx) (q : dot_S4000x90_S90x64_S4000x64_1_0_0_1_n_n.contr.Idx) :
    (dot_S4000x90_S90x64_S4000x64_1_0_0_1_n_n.rhsIdx i q 0).val = (q ⟨0, by decide⟩).val :=
  dot_S4000x90_S90x64_S4000x64_1_0_0_1_n_n.rhsIdx_val_of_single rfl i q
theorem rhsA_1 (i : S4000x64.Idx) (q : dot_S4000x90_S90x64_S4000x64_1_0_0_1_n_n.contr.Idx) :
    (dot_S4000x90_S90x64_S4000x64_1_0_0_1_n_n.rhsIdx i q 1).val = (i 1).val := by
  unfold DotDims.rhsIdx
  rw [dif_neg (show ¬(1 : Fin S90x64.rank) ∈ dot_S4000x90_S90x64_S4000x64_1_0_0_1_n_n.rhsBatch by decide), dif_pos (show (1 : Fin S90x64.rank) ∈ dot_S4000x90_S90x64_S4000x64_1_0_0_1_n_n.rhsNonContracting by decide)]
  rfl

/-- The first layer's product at row `p`, hidden unit `h`: the sum over the 90 inputs. -/
theorem mmA_apply (A : FVec Ideal S4000x90 .bf16) (B : FVec Ideal S90x64 .bf16) (p : Fin 4000) (h : Fin 64) :
    matmul dot_S4000x90_S90x64_S4000x64_1_0_0_1_n_n none A B (constant S4000x64 .f32 0x00000000#32) (ix2 p h)
      = ∑ k : Fin 90, A (ix2 p k) * B (ix2 k h) := by
  show FloatOps.matmul dot_S4000x90_S90x64_S4000x64_1_0_0_1_n_n none A B (constant S4000x64 .f32 0x00000000#32) (ix2 p h) = _
  rw [Ideal.matmul_constant_zero_apply, ← Equiv.sum_comp (ValueIdx.contrEquiv1 dot_S4000x90_S90x64_S4000x64_1_0_0_1_n_n 90 rfl rfl).symm]
  refine Finset.sum_congr rfl fun k _ => ?_
  have hk := ValueIdx.contrEquiv1_symm_val dot_S4000x90_S90x64_S4000x64_1_0_0_1_n_n 90 rfl rfl k
  have el : dot_S4000x90_S90x64_S4000x64_1_0_0_1_n_n.lhsIdx (ix2 p h) ((ValueIdx.contrEquiv1 dot_S4000x90_S90x64_S4000x64_1_0_0_1_n_n 90 rfl rfl).symm k) = ix2 p k := funext fun a => Fin.ext (by
    match a with
    | ⟨0, _⟩ => exact lhsA_0 _ _
    | ⟨1, _⟩ => exact (lhsA_1 _ _).trans hk)
  have er : dot_S4000x90_S90x64_S4000x64_1_0_0_1_n_n.rhsIdx (ix2 p h) ((ValueIdx.contrEquiv1 dot_S4000x90_S90x64_S4000x64_1_0_0_1_n_n 90 rfl rfl).symm k) = ix2 k h := funext fun a => Fin.ext (by
    match a with
    | ⟨0, _⟩ => exact (rhsA_0 _ _).trans hk
    | ⟨1, _⟩ => exact rhsA_1 _ _)
  rw [el, er]

theorem lhsB_0 (i : S4000x32.Idx) (q : dot_S4000x64_S64x32_S4000x32_1_0_0_1_n_n.contr.Idx) :
    (dot_S4000x64_S64x32_S4000x32_1_0_0_1_n_n.lhsIdx i q 0).val = (i 0).val := by
  unfold DotDims.lhsIdx
  rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
  rfl
theorem lhsB_1 (i : S4000x32.Idx) (q : dot_S4000x64_S64x32_S4000x32_1_0_0_1_n_n.contr.Idx) :
    (dot_S4000x64_S64x32_S4000x32_1_0_0_1_n_n.lhsIdx i q 1).val = (q ⟨0, by decide⟩).val :=
  dot_S4000x64_S64x32_S4000x32_1_0_0_1_n_n.lhsIdx_val_of_single rfl i q
theorem rhsB_0 (i : S4000x32.Idx) (q : dot_S4000x64_S64x32_S4000x32_1_0_0_1_n_n.contr.Idx) :
    (dot_S4000x64_S64x32_S4000x32_1_0_0_1_n_n.rhsIdx i q 0).val = (q ⟨0, by decide⟩).val :=
  dot_S4000x64_S64x32_S4000x32_1_0_0_1_n_n.rhsIdx_val_of_single rfl i q
theorem rhsB_1 (i : S4000x32.Idx) (q : dot_S4000x64_S64x32_S4000x32_1_0_0_1_n_n.contr.Idx) :
    (dot_S4000x64_S64x32_S4000x32_1_0_0_1_n_n.rhsIdx i q 1).val = (i 1).val := by
  unfold DotDims.rhsIdx
  rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
  rfl

/-- The second layer's product at row `p`, output `q`: the sum over the 64 hidden units. -/
theorem mmB_apply (A : FVec Ideal S4000x64 .bf16) (B : FVec Ideal S64x32 .bf16) (p : Fin 4000) (q : Fin 32) :
    matmul dot_S4000x64_S64x32_S4000x32_1_0_0_1_n_n none A B (constant S4000x32 .f32 0x00000000#32) (ix2 p q)
      = ∑ h : Fin 64, A (ix2 p h) * B (ix2 h q) := by
  show FloatOps.matmul dot_S4000x64_S64x32_S4000x32_1_0_0_1_n_n none A B (constant S4000x32 .f32 0x00000000#32) (ix2 p q) = _
  rw [Ideal.matmul_constant_zero_apply, ← Equiv.sum_comp (ValueIdx.contrEquiv1 dot_S4000x64_S64x32_S4000x32_1_0_0_1_n_n 64 rfl rfl).symm]
  refine Finset.sum_congr rfl fun k _ => ?_
  have hk := ValueIdx.contrEquiv1_symm_val dot_S4000x64_S64x32_S4000x32_1_0_0_1_n_n 64 rfl rfl k
  have el : dot_S4000x64_S64x32_S4000x32_1_0_0_1_n_n.lhsIdx (ix2 p q) ((ValueIdx.contrEquiv1 dot_S4000x64_S64x32_S4000x32_1_0_0_1_n_n 64 rfl rfl).symm k) = ix2 p k := funext fun a => Fin.ext (by
    match a with
    | ⟨0, _⟩ => exact lhsB_0 _ _
    | ⟨1, _⟩ => exact (lhsB_1 _ _).trans hk)
  have er : dot_S4000x64_S64x32_S4000x32_1_0_0_1_n_n.rhsIdx (ix2 p q) ((ValueIdx.contrEquiv1 dot_S4000x64_S64x32_S4000x32_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## The layout operations, entry by entry -/

/-- Target features beside the difference, at column `d`: the left piece below 45, the right piece from 45 on. -/
theorem cat_apply (u v : FVec Ideal S4000x45 .f32) (p : Fin 4000) (d : Fin 90) :
    concatenate S4000x90 1 [⟨S4000x45, u⟩, ⟨S4000x45, v⟩] concatenates_S4000x45_S4000x45_S4000x90_d1 (ix2 p d)
      = if h : d.val < 45 then u (ix2 p ⟨d.val, h⟩) else v (ix2 p ⟨d.val - 45, by omega⟩) := by
  by_cases h : d.val < 45
  · rw [dif_pos h]
    refine concatenate_pair_apply_left (1 : Fin S4000x90.rank) u v _ (ix2 p d) rfl (ix2 p ⟨d.val, h⟩) (fun b => ?_)
    match b with
    | ⟨0, _⟩ => rfl
    | ⟨1, _⟩ => rfl
  · rw [dif_neg h]
    refine concatenate_pair_apply_right (1 : Fin S4000x90.rank) u v _ (ix2 p d) rfl rfl (ix2 p ⟨d.val - 45, by omega⟩) (fun b hb => ?_) ?_
    · match b with
      | ⟨0, _⟩ => rfl
      | ⟨1, _⟩ => exact absurd rfl hb
    · show d.val - 45 + 45 = d.val
      omega

/-- A one-row matrix broadcast down 4000 rows reads its row. -/
theorem bcast64_apply (r : FVec Ideal S1x64 .f32) (p : Fin 4000) (h : Fin 64) :
    broadcastTo S4000x64 r broadcasts_S1x64_S4000x64 (ix2 p h) = r (ix2 0 h) := by
  refine broadcastTo_apply r _ (ix2 p h) (ix2 0 h) (fun a => ?_)
  match a with
  | ⟨0, _⟩ => show 0 = if (1 : Nat) = 1 then 0 else _; rw [if_pos rfl]
  | ⟨1, _⟩ => show h.val = if (64 : Nat) = 1 then 0 else h.val; rw [if_neg (by decide)]

theorem bcast32_apply (r : FVec Ideal S1x32 .f32) (p : Fin 4000) (q : Fin 32) :
    broadcastTo S4000x32 r broadcasts_S1x32_S4000x32 (ix2 p q) = r (ix2 0 q) := by
  refine broadcastTo_apply r _ (ix2 p q) (ix2 0 q) (fun a => ?_)
  match a with
  | ⟨0, _⟩ => show 0 = if (1 : Nat) = 1 then 0 else _; rw [if_pos rfl]
  | ⟨1, _⟩ => show q.val = if (32 : Nat) = 1 then 0 else q.val; rw [if_neg (by decide)]

/-! ## The body's payload, entry by entry -/

/-- What the body stores for edge `p` of the block, output `q`: the perceptron of the block's edge input. -/
theorem pay_apply (x0 x1 : Vec Ideal S4000x45 .f32) (x2 : Vec Ideal S90x64 .f32) (x3 : Vec Ideal S1x64 .f32)
    (x4 : Vec Ideal S64x32 .f32) (x5 : Vec Ideal S1x32 .f32) (p : Fin 4000) (q : Fin 32) :
    k1_pay1 (F := Ideal) x0 x1 x2 x3 x4 x5 (ix2 p q)
      = mlp2 Ideal.tanh (edgeIn (fun e d => x0 (ix2 e d)) (fun e d => x1 (ix2 e d)))
          (fun k h => x2 (ix2 k h)) (fun h => x3 (ix2 0 h)) (fun h q => x4 (ix2 h q)) (fun q => x5 (ix2 0 q)) p q := by
  unfold k1_pay1
  simp only [shapeCast_self]
  rw [show ∀ (v : FVec Ideal S4000x32 .f32), tanh v (ix2 p q) = Ideal.tanh (v (ix2 p q)) from fun _ => rfl]
  rw [addf_apply, mmB_apply, bcast32_apply]
  unfold mlp2
  congr 2
  refine Finset.sum_congr rfl fun h _ => ?_
  rw [truncf_apply, truncf_apply, maximumf_apply, addf_apply, mmA_apply, bcast64_apply, broadcast_apply]
  rw [show (Scalar.ofBits (F := Ideal) .f32 0x00000000#32) = (0 : EReal) from Ideal.ofBits_zero_f32]
  congr 3
  refine Finset.sum_congr rfl fun k _ => ?_
  rw [truncf_apply, truncf_apply, cat_apply]
  unfold edgeIn
  by_cases hk : k.val < 45
  · rw [dif_pos hk, dif_pos hk, shapeCast_self]
  · rw [dif_neg hk, dif_neg hk, subf_apply, shapeCast_self, shapeCast_self]

/-! ## From the blocks to the array -/

/-- The message array as a function of the two gathered arrays and the weights. -/
abbrev G (Xi Xj : Arr 1600000 45) (W1 : Arr 90 64) (B1 : Arr 1 64) (W2 : Arr 64 32) (B2 : Arr 1 32) : Arr 1600000 32 :=
  arr2 (mlp2 Ideal.tanh (edgeIn (fun e d => at2 Xi e d) (fun e d => at2 Xj e d))
    (fun k h => at2 W1 k h) (fun h => at2 B1 0 h) (fun h q => at2 W2 h q) (fun q => at2 B2 0 q))

/-- Block `T`'s payload is block `T` of the message array: the edge blocks hold rows `4000 T …` of the gathered
    arrays, the weight blocks the whole weights. -/
theorem blk_point (x0 x1 : Vec Ideal S4000x45 .f32) (x2 : Vec Ideal S90x64 .f32) (x3 : Vec Ideal S1x64 .f32)
    (x4 : Vec Ideal S64x32 .f32) (x5 : Vec Ideal S1x32 .f32)
    (Xi Xj : Arr 1600000 45) (W1 : Arr 90 64) (B1 : Arr 1 64) (W2 : Arr 64 32) (B2 : Arr 1 32) (T : Nat)
    (h0 : ∀ (p : Fin 4000) (d : Fin 45) (r : Fin 1600000), r.val = T * 4000 + p.val → x0 (ix2 p d) = Xi (ix2 r d))
    (h1 : ∀ (p : Fin 4000) (d : Fin 45) (r : Fin 1600000), r.val = T * 4000 + p.val → x1 (ix2 p d) = Xj (ix2 r d))
    (h2 : ∀ (k : Fin 90) (h : Fin 64), x2 (ix2 k h) = W1 (ix2 k h))
    (h3 : ∀ (h : Fin 64), x3 (ix2 0 h) = B1 (ix2 0 h))
    (h4 : ∀ (h : Fin 64) (q : Fin 32), x4 (ix2 h q) = W2 (ix2 h q))
    (h5 : ∀ (q : Fin 32), x5 (ix2 0 q) = B2 (ix2 0 q))
    (y : S4000x32.Idx) (i : S1600000x32.Idx) (hi0 : (i 0).val = T * 4000 + (y 0).val) (hi1 : (i 1).val = (y 1).val) :
    k1_pay1 (F := Ideal) x0 x1 x2 x3 x4 x5 y = G Xi Xj W1 B1 W2 B2 i := by
  obtain ⟨p, q, rfl⟩ : ∃ (p : Fin 4000) (q : Fin 32), y = ix2 p q := ⟨y 0, y 1, eq_ix2 y⟩
  obtain ⟨r, q', rfl⟩ : ∃ (r : Fin 1600000) (q' : Fin 32), i = ix2 r q' := ⟨i 0, i 1, eq_ix2 i⟩
  have hr : r.val = T * 4000 + p.val := hi0
  obtain rfl : q' = q := Fin.ext hi1
  rw [pay_apply]
  unfold G
  rw [arr2_ix2]
  rw [show (fun k h => x2 (ix2 k h)) = (fun k h => at2 W1 k h) from funext fun k => funext fun h => h2 k h,
    show (fun h => x3 (ix2 0 h)) = (fun h => at2 B1 0 h) from funext fun h => h3 h,
    show (fun h q => x4 (ix2 h q)) = (fun h q => at2 W2 h q) from funext fun h => funext fun q => h4 h q,
    show (fun q => x5 (ix2 0 q)) = (fun q => at2 B2 0 q) from funext fun q => h5 q]
  refine mlp2_congr_row _ _ _ _ _ _ _ p r q' fun k => ?_
  unfold edgeIn
  by_cases hk : k.val < 45
  · rw [dif_pos hk, dif_pos hk]; exact h0 p _ r hr
  · rw [dif_neg hk, dif_neg hk]
    exact congrArg₂ (fun a b : EReal => a - b) (h1 p _ r hr) (h0 p _ r hr)

theorem hz : (![0, 0] : Fin 2 → Nat) = fun _ => 0 := funext fun a => by fin_cases a <;> rfl

/-- The windows' block indices over the grid: the edge windows and the message window sit at row block `t`, the
    weight windows at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the message array. -/
theorem flushed_eq (c : Dev nD) (t : Fin cfg1.N) :
    (dat1 (F := Ideal) V c).flushed 6 t = ((cfg1.win 6).blk t).view.read (Elt Ideal)
      (G (V c main_v27) (V c main_v28) (V c main_arg9) (V c main_v29) (V c main_arg11) (V c main_v30)) := by
  show (cfg1.win 6).cut (grid1.coords t) ((dat1 (F := Ideal) V c).after 6 t) = _
  rw [after1_6]
  unfold out1_6
  rw [View.canon_unit_zero hz]
  simp only [View.ld_unit_zero (S := S4000x45) hz, View.ld_unit_zero (S := S90x64) hz, View.ld_unit_zero (S := S1x64) hz,
    View.ld_unit_zero (S := S64x32) hz, View.ld_unit_zero (S := S1x32) hz]
  obtain ⟨e00, e01, e10, e11, e20, e21, e30, e31, e40, e41, e50, e51, e60, e61⟩ := idx_facts t
  funext j
  show k1_pay1 (F := Ideal) (iblk1 V c 0 t) (iblk1 V c 1 t) (iblk1 V c 2 t) (iblk1 V c 3 t) (iblk1 V c 4 t) (iblk1 V c 5 t) j
    = G (V c main_v27) (V c main_v28) (V c main_arg9) (V c main_v29) (V c main_arg11) (V c main_v30) (((cfg1.win 6).blk t).view.emb j)
  refine blk_point (iblk1 V c 0 t) (iblk1 V c 1 t) (iblk1 V c 2 t) (iblk1 V c 3 t) (iblk1 V c 4 t) (iblk1 V c 5 t)
    (V c main_v27) (V c main_v28) (V c main_arg9) (V c main_v29) (V c main_arg11) (V c main_v30) t.val
    ?_ ?_ ?_ ?_ ?_ ?_ j (((cfg1.win 6).blk t).view.emb j) ?_ ?_
  · intro p d r hr
    show V c main_v27 (((cfg1.win 0).blk t).view.emb (ix2 p d)) = V c main_v27 (ix2 r d)
    refine congrArg (V c main_v27) (funext fun a => Fin.ext ?_)
    match a with
    | ⟨0, _⟩ => show win1_0.index t (0 : Fin 2) * 4000 + 1 * p.val = r.val; rw [e00, hr]; omega
    | ⟨1, _⟩ => show win1_0.index t (1 : Fin 2) * 45 + 1 * d.val = d.val; rw [e01]; omega
  · intro p d r hr
    show V c main_v28 (((cfg1.win 1).blk t).view.emb (ix2 p d)) = V c main_v28 (ix2 r d)
    refine congrArg (V c main_v28) (funext fun a => Fin.ext ?_)
    match a with
    | ⟨0, _⟩ => show win1_1.index t (0 : Fin 2) * 4000 + 1 * p.val = r.val; rw [e10, hr]; omega
    | ⟨1, _⟩ => show win1_1.index t (1 : Fin 2) * 45 + 1 * d.val = d.val; rw [e11]; omega
  · intro k h
    show V c main_arg9 (((cfg1.win 2).blk t).view.emb (ix2 k h)) = V c main_arg9 (ix2 k h)
    refine congrArg (V c main_arg9) (funext fun a => Fin.ext ?_)
    match a with
    | ⟨0, _⟩ => show win1_2.index t (0 : Fin 2) * 90 + 1 * k.val = k.val; rw [e20]; omega
    | ⟨1, _⟩ => show win1_2.index t (1 : Fin 2) * 64 + 1 * h.val = h.val; rw [e21]; omega
  · intro h
    show V c main_v29 (((cfg1.win 3).blk t).view.emb (ix2 0 h)) = V c main_v29 (ix2 0 h)
    refine congrArg (V c main_v29) (funext fun a => Fin.ext ?_)
    match a with
    | ⟨0, _⟩ => show win1_3.index t (0 : Fin 2) * 1 + 1 * 0 = 0; rw [e30]
    | ⟨1, _⟩ => show win1_3.index t (1 : Fin 2) * 64 + 1 * h.val = h.val; rw [e31]; omega
  · intro h q
    show V c main_arg11 (((cfg1.win 4).blk t).view.emb (ix2 h q)) = V c main_arg11 (ix2 h q)
    refine congrArg (V c main_arg11) (funext fun a => Fin.ext ?_)
    match a with
    | ⟨0, _⟩ => show win1_4.index t (0 : Fin 2) * 64 + 1 * h.val = h.val; rw [e40]; omega
    | ⟨1, _⟩ => show win1_4.index t (1 : Fin 2) * 32 + 1 * q.val = q.val; rw [e41]; omega
  · intro q
    show V c main_v30 (((cfg1.win 5).blk t).view.emb (ix2 0 q)) = V c main_v30 (ix2 0 q)
    refine congrArg (V c main_v30) (funext fun a => Fin.ext ?_)
    match a with
    | ⟨0, _⟩ => show win1_5.index t (0 : Fin 2) * 1 + 1 * 0 = 0; rw [e50]
    | ⟨1, _⟩ => show win1_5.index t (1 : Fin 2) * 32 + 1 * q.val = q.val; rw [e51]; omega
  · show win1_6.index t (0 : Fin 2) * 4000 + 1 * (j 0).val = t.val * 4000 + (j 0).val; rw [e60]; omega
  · show win1_6.index t (1 : Fin 2) * 32 + 1 * (j 1).val = (j 1).val; rw [e61]; omega

/-- An edge-output pair is in point `t`'s block iff each coordinate is in the block's range on its axis. -/
theorem mem_blk (t : Fin cfg1.N) (i : S1600000x32.Idx) :
    i ∈ ((cfg1.win 6).blk t).view.set ↔ ∀ a : Fin 2, win1_6.index t a * S4000x32.size a ≤ (i a).val ∧ (i a).val < win1_6.index t a * S4000x32.size a + S4000x32.size a := by
  show i ∈ ((View.whole main_v31).slice (win1_6.rect t)).set ↔ _
  rw [View.set_slice_whole, Rect.mem_set_unit]
  exact Iff.rfl

/-- Edge `r` lies in the block of point `r / 4000`. -/
theorem cover (i : S1600000x32.Idx) :
    ∃ t : Fin cfg1.N, (cfg1.win 6).flush t = true ∧ i ∈ ((cfg1.win 6).blk t).view.set := by
  have hi0 : (i 0).val < 1600000 := (i 0).isLt
  have hi1 : (i 1).val < 32 := (i 1).isLt
  have hlt : (i 0).val / 4000 < cfg1.N := by rw [show cfg1.N = 400 from N_1]; omega
  obtain ⟨t, ht⟩ : ∃ t : Fin cfg1.N, t.val = (i 0).val / 4000 := ⟨⟨_, hlt⟩, rfl⟩
  refine ⟨t, flush1_6 t, ?_⟩
  rw [mem_blk]
  obtain ⟨e00, e01, e10, e11, e20, e21, e30, e31, e40, e41, e50, e51, e60, e61⟩ := idx_facts t
  intro a
  match a with
  | ⟨0, _⟩ =>
    show win1_6.index t (0 : Fin 2) * 4000 ≤ (i 0).val ∧ (i 0).val < win1_6.index t (0 : Fin 2) * 4000 + 4000
    rw [e60, ht]; omega
  | ⟨1, _⟩ =>
    show win1_6.index t (1 : Fin 2) * 32 ≤ (i 1).val ∧ (i 1).val < win1_6.index t (1 : Fin 2) * 32 + 32
    rw [e61]; omega

/-- The messages after the stage. -/
theorem final_m (c : Dev nD) :
    ((dat1 (F := Ideal) V c).arrAt 6 cfg1.N : Arr 1600000 32)
      = arr2 (mlp2 Ideal.tanh
          (edgeIn (fun e d => at2 (V c main_v27) e d) (fun e d => at2 (V c main_v28) e d))
          (fun k h => at2 (V c main_arg9) k h) (fun h => at2 (V c main_v29) 0 h)
          (fun h q => at2 (V c main_arg11) h q) (fun q => at2 (V c main_v30) 0 q)) :=
  (dat1 (F := Ideal) V c).arrAt_eq_of_cover 6
    (G (V c main_v27) (V c main_v28) (V c main_arg9) (V c main_v29) (V c main_arg11) (V c main_v30))
    (fun t _ => flushed_eq V c t) cover

end Cert.KernelIdeal.Reg1

end
-- ==== Proof.Reg2.lean ====
import proofs.«417757_j46952582480249_1_alg».proof.Proof.Gen.KernelIdeal.Frame
import proofs.«417757_j46952582480249_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The read-out stage, read off its pipeline: one block of the 128 pooled rows through the perceptron with the
logistic function at the end.
-/

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx Cert.Spec
open Idealize.ShloMosaic.Pipeline (Dat)

/-! ## The two products: the operand indices of each, axis by axis, then the product at an entry as a sum -/

theorem lhs_hidden_0 (i : S128x32.Idx) (q : dot_S128x45_S45x32_S128x32_1_0_0_1_n_n.contr.Idx) :
    (dot_S128x45_S45x32_S128x32_1_0_0_1_n_n.lhsIdx i q 0).val = (i 0).val := by
  unfold DotDims.lhsIdx
  rw [dif_neg (show ¬(0 : Fin S128x45.rank) ∈ dot_S128x45_S45x32_S128x32_1_0_0_1_n_n.lhsBatch by decide), dif_pos (show (0 : Fin S128x45.rank) ∈ dot_S128x45_S45x32_S128x32_1_0_0_1_n_n.lhsNonContracting by decide)]
  rfl
theorem lhs_hidden_1 (i : S128x32.Idx) (q : dot_S128x45_S45x32_S128x32_1_0_0_1_n_n.contr.Idx) :
    (dot_S128x45_S45x32_S128x32_1_0_0_1_n_n.lhsIdx i q 1).val = (q ⟨0, by decide⟩).val :=
  dot_S128x45_S45x32_S128x32_1_0_0_1_n_n.lhsIdx_val_of_single rfl i q
theorem rhs_hidden_0 (i : S128x32.Idx) (q : dot_S128x45_S45x32_S128x32_1_0_0_1_n_n.contr.Idx) :
    (dot_S128x45_S45x32_S128x32_1_0_0_1_n_n.rhsIdx i q 0).val = (q ⟨0, by decide⟩).val :=
  dot_S128x45_S45x32_S128x32_1_0_0_1_n_n.rhsIdx_val_of_single rfl i q
theorem rhs_hidden_1 (i : S128x32.Idx) (q : dot_S128x45_S45x32_S128x32_1_0_0_1_n_n.contr.Idx) :
    (dot_S128x45_S45x32_S128x32_1_0_0_1_n_n.rhsIdx i q 1).val = (i 1).val := by
  unfold DotDims.rhsIdx
  rw [dif_neg (show ¬(1 : Fin S45x32.rank) ∈ dot_S128x45_S45x32_S128x32_1_0_0_1_n_n.rhsBatch by decide), dif_pos (show (1 : Fin S45x32.rank) ∈ dot_S128x45_S45x32_S128x32_1_0_0_1_n_n.rhsNonContracting by decide)]
  rfl

/-- The first product at row `p`, unit `h`: the row against the weight's column, summed over the 45 features. -/
theorem hidden_product (a : FVec Ideal S128x45 .bf16) (w : FVec Ideal S45x32 .bf16) (p : Fin 128) (h : Fin 32) :
    matmul dot_S128x45_S45x32_S128x32_1_0_0_1_n_n none a w (constant (F := Ideal) S128x32 .f32 0x00000000#32) (ix2 p h)
      = ∑ k : Fin 45, a (ix2 p k) * w (ix2 k h) := by
  refine (Ideal.matmul_constant_zero_apply dot_S128x45_S45x32_S128x32_1_0_0_1_n_n none a w (ix2 p h)).trans ?_
  rw [← Equiv.sum_comp (ValueIdx.contrEquiv1 dot_S128x45_S45x32_S128x32_1_0_0_1_n_n 45 rfl rfl).symm]
  refine Finset.sum_congr rfl fun k _ => ?_
  have hk := ValueIdx.contrEquiv1_symm_val dot_S128x45_S45x32_S128x32_1_0_0_1_n_n 45 rfl rfl k
  have el : dot_S128x45_S45x32_S128x32_1_0_0_1_n_n.lhsIdx (ix2 p h) ((ValueIdx.contrEquiv1 dot_S128x45_S45x32_S128x32_1_0_0_1_n_n 45 rfl rfl).symm k) = ix2 p k := funext fun a => Fin.ext (by
    match a with
    | ⟨0, _⟩ => exact lhs_hidden_0 _ _
    | ⟨1, _⟩ => exact (lhs_hidden_1 _ _).trans hk)
  have er : dot_S128x45_S45x32_S128x32_1_0_0_1_n_n.rhsIdx (ix2 p h) ((ValueIdx.contrEquiv1 dot_S128x45_S45x32_S128x32_1_0_0_1_n_n 45 rfl rfl).symm k) = ix2 k h := funext fun a => Fin.ext (by
    match a with
    | ⟨0, _⟩ => exact (rhs_hidden_0 _ _).trans hk
    | ⟨1, _⟩ => exact rhs_hidden_1 _ _)
  rw [el, er]

theorem lhs_score_0 (i : S128x1.Idx) (q : dot_S128x32_S32x1_S128x1_1_0_0_1_n_n.contr.Idx) :
    (dot_S128x32_S32x1_S128x1_1_0_0_1_n_n.lhsIdx i q 0).val = (i 0).val := by
  unfold DotDims.lhsIdx
  rw [dif_neg (show ¬(0 : Fin S128x32.rank) ∈ dot_S128x32_S32x1_S128x1_1_0_0_1_n_n.lhsBatch by decide), dif_pos (show (0 : Fin S128x32.rank) ∈ dot_S128x32_S32x1_S128x1_1_0_0_1_n_n.lhsNonContracting by decide)]
  rfl
theorem lhs_score_1 (i : S128x1.Idx) (q : dot_S128x32_S32x1_S128x1_1_0_0_1_n_n.contr.Idx) :
    (dot_S128x32_S32x1_S128x1_1_0_0_1_n_n.lhsIdx i q 1).val = (q ⟨0, by decide⟩).val :=
  dot_S128x32_S32x1_S128x1_1_0_0_1_n_n.lhsIdx_val_of_single rfl i q
theorem rhs_score_0 (i : S128x1.Idx) (q : dot_S128x32_S32x1_S128x1_1_0_0_1_n_n.contr.Idx) :
    (dot_S128x32_S32x1_S128x1_1_0_0_1_n_n.rhsIdx i q 0).val = (q ⟨0, by decide⟩).val :=
  dot_S128x32_S32x1_S128x1_1_0_0_1_n_n.rhsIdx_val_of_single rfl i q
theorem rhs_score_1 (i : S128x1.Idx) (q : dot_S128x32_S32x1_S128x1_1_0_0_1_n_n.contr.Idx) :
    (dot_S128x32_S32x1_S128x1_1_0_0_1_n_n.rhsIdx i q 1).val = (i 1).val := by
  unfold DotDims.rhsIdx
  rw [dif_neg (show ¬(1 : Fin S32x1.rank) ∈ dot_S128x32_S32x1_S128x1_1_0_0_1_n_n.rhsBatch by decide), dif_pos (show (1 : Fin S32x1.rank) ∈ dot_S128x32_S32x1_S128x1_1_0_0_1_n_n.rhsNonContracting by decide)]
  rfl

/-- The second product at row `p`: the hidden row against the weight's column, summed over the 32 units. -/
theorem score_product (a : FVec Ideal S128x32 .bf16) (w : FVec Ideal S32x1 .bf16) (p : Fin 128) (h : Fin 1) :
    matmul dot_S128x32_S32x1_S128x1_1_0_0_1_n_n none a w (constant (F := Ideal) S128x1 .f32 0x00000000#32) (ix2 p h)
      = ∑ k : Fin 32, a (ix2 p k) * w (ix2 k h) := by
  refine (Ideal.matmul_constant_zero_apply dot_S128x32_S32x1_S128x1_1_0_0_1_n_n none a w (ix2 p h)).trans ?_
  rw [← Equiv.sum_comp (ValueIdx.contrEquiv1 dot_S128x32_S32x1_S128x1_1_0_0_1_n_n 32 rfl rfl).symm]
  refine Finset.sum_congr rfl fun k _ => ?_
  have hk := ValueIdx.contrEquiv1_symm_val dot_S128x32_S32x1_S128x1_1_0_0_1_n_n 32 rfl rfl k
  have el : dot_S128x32_S32x1_S128x1_1_0_0_1_n_n.lhsIdx (ix2 p h) ((ValueIdx.contrEquiv1 dot_S128x32_S32x1_S128x1_1_0_0_1_n_n 32 rfl rfl).symm k) = ix2 p k := funext fun a => Fin.ext (by
    match a with
    | ⟨0, _⟩ => exact lhs_score_0 _ _
    | ⟨1, _⟩ => exact (lhs_score_1 _ _).trans hk)
  have er : dot_S128x32_S32x1_S128x1_1_0_0_1_n_n.rhsIdx (ix2 p h) ((ValueIdx.contrEquiv1 dot_S128x32_S32x1_S128x1_1_0_0_1_n_n 32 rfl rfl).symm k) = ix2 k h := funext fun a => Fin.ext (by
    match a with
    | ⟨0, _⟩ => exact (rhs_score_0 _ _).trans hk
    | ⟨1, _⟩ => exact rhs_score_1 _ _)
  rw [el, er]

/-! ## What the body computes, at an entry -/

/-- The hidden layer of the block: the first product plus the bias row, clamped below at zero. -/
def hidden (x0 : FVec Ideal S128x45 .f32) (x1 : FVec Ideal S45x32 .f32) (x2 : FVec Ideal S1x32 .f32) : FVec Ideal S128x32 .bf16 :=
  truncf .bf16 (maximumf
    (addf (matmul dot_S128x45_S45x32_S128x32_1_0_0_1_n_n none (truncf .bf16 (shapeCast S128x45 x0 shapeCasts_S128x45_S128x45) bitsLt_bf16_f32)
        (truncf .bf16 x1 bitsLt_bf16_f32) (constant (F := Ideal) S128x32 .f32 0x00000000#32))
      (broadcastTo S128x32 (shapeCast S1x32 x2 shapeCasts_S1x32_S1x32) broadcasts_S1x32_S128x32))
    (broadcast S128x32 (Scalar.ofBits (F := Ideal) .f32 0x00000000#32))) bitsLt_bf16_f32

theorem hidden_apply (x0 : FVec Ideal S128x45 .f32) (x1 : FVec Ideal S45x32 .f32) (x2 : FVec Ideal S1x32 .f32) (p : Fin 128) (h : Fin 32) :
    hidden x0 x1 x2 (ix2 p h) = max ((∑ k : Fin 45, x0 (ix2 p k) * x1 (ix2 k h)) + x2 (ix2 (0 : Fin 1) h)) 0 := by
  unfold hidden
  show max (matmul (F := Ideal) dot_S128x45_S45x32_S128x32_1_0_0_1_n_n none _ _ _ (ix2 p h) + broadcastTo S128x32 _ _ (ix2 p h)) (Ideal.ofBits .f32 0x00000000#32) = _
  rw [hidden_product, broadcastTo_1b_ab_apply, shapeCast_self, shapeCast_self, Ideal.ofBits_zero_f32]
  rfl

/-- The body's stored block is the logistic function of the second product of the hidden layer plus the last bias. -/
theorem pay_eq (x0 : FVec Ideal S128x45 .f32) (x1 : FVec Ideal S45x32 .f32) (x2 : FVec Ideal S1x32 .f32) (x3 : FVec Ideal S32x1 .f32) (x4 : FVec Ideal S1x1 .f32) :
    k2_pay1 (F := Ideal) x0 x1 x2 x3 x4
      = logistic (addf (matmul dot_S128x32_S32x1_S128x1_1_0_0_1_n_n none (hidden x0 x1 x2) (truncf .bf16 x3 bitsLt_bf16_f32) (constant (F := Ideal) S128x1 .f32 0x00000000#32))
          (broadcastTo S128x1 (shapeCast S1x1 x4 shapeCasts_S1x1_S1x1) broadcasts_S1x1_S128x1)) := rfl

/-- The stored block at row `p`: the perceptron of the row. -/
theorem pay_apply (x0 : FVec Ideal S128x45 .f32) (x1 : FVec Ideal S45x32 .f32) (x2 : FVec Ideal S1x32 .f32) (x3 : FVec Ideal S32x1 .f32) (x4 : FVec Ideal S1x1 .f32)
    (p : Fin 128) (q : Fin 1) :
    k2_pay1 (F := Ideal) x0 x1 x2 x3 x4 (ix2 p q)
      = mlp2 Ideal.logistic (fun g d => x0 (ix2 g d)) (fun k h => x1 (ix2 k h)) (fun h => x2 (ix2 (0 : Fin 1) h))
          (fun h q => x3 (ix2 h q)) (fun q => x4 (ix2 (0 : Fin 1) q)) p q := by
  rw [pay_eq]
  show Ideal.logistic (matmul (F := Ideal) dot_S128x32_S32x1_S128x1_1_0_0_1_n_n none _ _ _ (ix2 p q) + broadcastTo S128x1 _ _ (ix2 p q)) = _
  rw [score_product, broadcastTo_1b_ab_apply, shapeCast_self]
  unfold mlp2
  simp only [hidden_apply]
  rfl

variable (V : (c : Dev nD) → (b : Ref sig .tc) → Buf (Elt Ideal) ((c : Thread nD τ).loc b))

/-! ## From the one block to the array -/

theorem offsets_zero : (![0, 0] : Fin 2 → Nat) = fun _ => 0 := funext fun a => by fin_cases a <;> rfl

/-- At the grid's one point every window's block index is zero on both axes. -/
theorem block_index : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-! Each input window's one block is its whole array. -/

theorem block_pooled (c : Dev nD) (t : Fin cfg2.N) : (iblk2 (F := Ideal) V c 0 t : S128x45.Idx → EReal) = V c main_v46 := by
  obtain ⟨e00, e01, e10, e11, e20, e21, e30, e31, e40, e41, e50, e51⟩ := block_index t
  funext y
  have h : ((cfg2.win 0).blk t).view.emb y = y := funext fun a => Fin.ext (by
    match a with
    | ⟨0, _⟩ => show win2_0.index t (0 : Fin 2) * 128 + 1 * (y 0).val = (y 0).val; omega
    | ⟨1, _⟩ => show win2_0.index t (1 : Fin 2) * 45 + 1 * (y 1).val = (y 1).val; omega)
  show V c main_v46 (((cfg2.win 0).blk t).view.emb y) = V c main_v46 y
  rw [h]

theorem block_weight1 (c : Dev nD) (t : Fin cfg2.N) : (iblk2 (F := Ideal) V c 1 t : S45x32.Idx → EReal) = V c main_arg13 := by
  obtain ⟨e00, e01, e10, e11, e20, e21, e30, e31, e40, e41, e50, e51⟩ := block_index t
  funext y
  have h : ((cfg2.win 1).blk t).view.emb y = y := funext fun a => Fin.ext (by
    match a with
    | ⟨0, _⟩ => show win2_1.index t (0 : Fin 2) * 45 + 1 * (y 0).val = (y 0).val; omega
    | ⟨1, _⟩ => show win2_1.index t (1 : Fin 2) * 32 + 1 * (y 1).val = (y 1).val; omega)
  show V c main_arg13 (((cfg2.win 1).blk t).view.emb y) = V c main_arg13 y
  rw [h]

theorem block_bias1 (c : Dev nD) (t : Fin cfg2.N) : (iblk2 (F := Ideal) V c 2 t : S1x32.Idx → EReal) = V c main_v47 := by
  obtain ⟨e00, e01, e10, e11, e20, e21, e30, e31, e40, e41, e50, e51⟩ := block_index t
  funext y
  have h : ((cfg2.win 2).blk t).view.emb y = y := funext fun a => Fin.ext (by
    match a with
    | ⟨0, _⟩ => show win2_2.index t (0 : Fin 2) * 1 + 1 * (y 0).val = (y 0).val; omega
    | ⟨1, _⟩ => show win2_2.index t (1 : Fin 2) * 32 + 1 * (y 1).val = (y 1).val; omega)
  show V c main_v47 (((cfg2.win 2).blk t).view.emb y) = V c main_v47 y
  rw [h]

theorem block_weight2 (c : Dev nD) (t : Fin cfg2.N) : (iblk2 (F := Ideal) V c 3 t : S32x1.Idx → EReal) = V c main_arg15 := by
  obtain ⟨e00, e01, e10, e11, e20, e21, e30, e31, e40, e41, e50, e51⟩ := block_index t
  funext y
  have h : ((cfg2.win 3).blk t).view.emb y = y := funext fun a => Fin.ext (by
    match a with
    | ⟨0, _⟩ => show win2_3.index t (0 : Fin 2) * 32 + 1 * (y 0).val = (y 0).val; omega
    | ⟨1, _⟩ => show win2_3.index t (1 : Fin 2) * 1 + 1 * (y 1).val = (y 1).val; omega)
  show V c main_arg15 (((cfg2.win 3).blk t).view.emb y) = V c main_arg15 y
  rw [h]

theorem block_bias2 (c : Dev nD) (t : Fin cfg2.N) : (iblk2 (F := Ideal) V c 4 t : S1x1.Idx → EReal) = V c main_v48 := by
  obtain ⟨e00, e01, e10, e11, e20, e21, e30, e31, e40, e41, e50, e51⟩ := block_index t
  funext y
  have h : ((cfg2.win 4).blk t).view.emb y = y := funext fun a => Fin.ext (by
    match a with
    | ⟨0, _⟩ => show win2_4.index t (0 : Fin 2) * 1 + 1 * (y 0).val = (y 0).val; omega
    | ⟨1, _⟩ => show win2_4.index t (1 : Fin 2) * 1 + 1 * (y 1).val = (y 1).val; omega)
  show V c main_v48 (((cfg2.win 4).blk t).view.emb y) = V c main_v48 y
  rw [h]

/-- The scores as one function of the arrays the stage reads. -/
def scores (c : Dev nD) : Arr 128 1 :=
  arr2 (mlp2 Ideal.logistic
    (fun g d => at2 (V c main_v46) g d)
    (fun k h => at2 (V c main_arg13) k h) (fun h => at2 (V c main_v47) 0 h)
    (fun h q => at2 (V c main_arg15) h q) (fun q => at2 (V c main_v48) 0 q))

/-- What the one point writes back is the block of the scores. -/
theorem flushed_eq (c : Dev nD) (t : Fin cfg2.N) :
    (dat2 (F := Ideal) V c).flushed 5 t = ((cfg2.win 5).blk t).view.read (Elt Ideal) (scores V c) := by
  show (cfg2.win 5).cut (grid2.coords t) ((dat2 (F := Ideal) V c).after 5 t) = _
  rw [after2_5]
  unfold out2_5
  rw [View.canon_unit_zero offsets_zero]
  simp only [View.ld_unit_zero (S := S128x45) offsets_zero, View.ld_unit_zero (S := S45x32) offsets_zero,
    View.ld_unit_zero (S := S1x32) offsets_zero, View.ld_unit_zero (S := S32x1) offsets_zero,
    View.ld_unit_zero (S := S1x1) offsets_zero]
  rw [block_pooled V c t, block_weight1 V c t, block_bias1 V c t, block_weight2 V c t, block_bias2 V c t]
  obtain ⟨e00, e01, e10, e11, e20, e21, e30, e31, e40, e41, e50, e51⟩ := block_index t
  funext y
  have h : ((cfg2.win 5).blk t).view.emb y = y := funext fun a => Fin.ext (by
    match a with
    | ⟨0, _⟩ => show win2_5.index t (0 : Fin 2) * 128 + 1 * (y 0).val = (y 0).val; omega
    | ⟨1, _⟩ => show win2_5.index t (1 : Fin 2) * 1 + 1 * (y 1).val = (y 1).val; omega)
  show k2_pay1 (F := Ideal) (V c main_v46) (V c main_arg13) (V c main_v47) (V c main_arg15) (V c main_v48) y
    = scores V c (((cfg2.win 5).blk t).view.emb y)
  rw [h]
  obtain ⟨p, q, rfl⟩ : ∃ (p : Fin 128) (q : Fin 1), y = ix2 p q := ⟨y 0, y 1, eq_ix2 y⟩
  exact pay_apply _ _ _ _ _ p q

/-- An index of the array is in the point's block iff each coordinate is in the block's range on its axis. -/
theorem mem_blk (t : Fin cfg2.N) (i : S128x1.Idx) :
    i ∈ ((cfg2.win 5).blk t).view.set ↔ ∀ a : Fin 2, win2_5.index t a * S128x1.size a ≤ (i a).val ∧ (i a).val < win2_5.index t a * S128x1.size a + S128x1.size a := by
  show i ∈ ((View.whole main_v49).slice (win2_5.rect t)).set ↔ _
  rw [View.set_slice_whole, Rect.mem_set_unit]
  exact Iff.rfl

/-- The one block covers the array. -/
theorem cover (i : S128x1.Idx) : ∃ t : Fin cfg2.N, (cfg2.win 5).flush t = true ∧ i ∈ ((cfg2.win 5).blk t).view.set := by
  refine ⟨t2_0, flush2_5 t2_0, ?_⟩
  obtain ⟨e00, e01, e10, e11, e20, e21, e30, e31, e40, e41, e50, e51⟩ := block_index t2_0
  rw [mem_blk]
  intro a
  have h0 : (i 0).val < 128 := (i 0).isLt
  have h1 : (i 1).val < 1 := (i 1).isLt
  match a with
  | ⟨0, _⟩ => show win2_5.index t2_0 (0 : Fin 2) * 128 ≤ (i 0).val ∧ (i 0).val < win2_5.index t2_0 (0 : Fin 2) * 128 + 128; omega
  | ⟨1, _⟩ => show win2_5.index t2_0 (1 : Fin 2) * 1 ≤ (i 1).val ∧ (i 1).val < win2_5.index t2_0 (1 : Fin 2) * 1 + 1; omega

/-- The scores after the stage. -/
theorem final_out (c : Dev nD) :
    ((dat2 (F := Ideal) V c).arrAt 5 cfg2.N : Arr 128 1)
      = arr2 (mlp2 Ideal.logistic
          (fun g d => at2 (V c main_v46) g d)
          (fun k h => at2 (V c main_arg13) k h) (fun h => at2 (V c main_v47) 0 h)
          (fun h q => at2 (V c main_arg15) h q) (fun q => at2 (V c main_v48) 0 q)) :=
  (dat2 (F := Ideal) V c).arrAt_eq_of_cover 5 (scores V c) (fun t _ => flushed_eq V c t) cover

end Cert.KernelIdeal.Reg2

end
-- ==== Proof.Host0.lean ====
import proofs.«417757_j46952582480249_1_alg».proof.Proof.Gen.KernelIdeal.Frame
import proofs.«417757_j46952582480249_1_alg».proof.Proof.ReadP
import proofs.«417757_j46952582480249_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

/-!
What the host operations before the node stage leave in the buffers that stage reads: the arguments untouched, the
column scale `gamma * rsqrt (var + eps)`, the column shift `beta - mean * gamma * rsqrt (var + eps)`, and the two
bias vectors laid out as single rows.  Mean and variance are the reference's own terms of the input.
-/

set_option maxRecDepth 16384

noncomputable section

namespace Cert.KernelIdeal.Host0

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ) (ρ : Dev nD → PrngReg)

/-! ## The arguments: none of these operations writes one -/

theorem V1_arg0 (c : Dev nD) : V1 m ρ c main_arg0 = m ((c : Thread nD τ).loc main_arg0) := by
  show StableHlo.after hostOps0 (W0 m ρ c) (Proc.devRef .tc main_arg0) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg7 (c : Dev nD) : V1 m ρ c main_arg7 = m ((c : Thread nD τ).loc main_arg7) := by
  show StableHlo.after hostOps0 (W0 m ρ c) (Proc.devRef .tc main_arg7) = _
  after_results

/-! ## Scale and shift as whole rows

With `x` the input, `mean x` its column means and `var x + eps` its column variances plus epsilon (both the
reference's terms), the scale row is `gamma * rsqrt (var x + eps)` and the shift row is
`beta - (mean x * gamma) * rsqrt (var x + eps)`, each a vector of 13 entries laid out as one row. -/

/-- The scale row: `gamma * rsqrt (var x + eps)` as a `1 × 13` array. -/
theorem V1_scale_row (c : Dev nD) :
    (V1 m ρ c main_v14 : S1x13.Idx → EReal)
      = (shapeCast S1x13 (mulf (F := Ideal) (s := S13) (φ := .f32) (m ((c : Thread nD τ).loc main_arg3))
          (Host.rsqrt (Cert.ReferenceIdeal.Read.val_main_v14 (F := Ideal) (m ((c : Thread nD τ).loc main_arg0)))))
          shapeCasts_S13_S1x13 : S1x13.Idx → EReal) := by
  show StableHlo.after hostOps0 (W0 m ρ c) (Proc.devRef .tc main_v14) = _
  after_results_simp
  unfold Cert.ReferenceIdeal.Read.val_main_v14 Cert.ReferenceIdeal.Read.val_main_v13
    Cert.ReferenceIdeal.Read.val_main_cst_3 Cert.ReferenceIdeal.Read.val_main_v9 Cert.ReferenceIdeal.Read.val_main_v8
    Cert.ReferenceIdeal.Read.val_main_cst_2 Cert.ReferenceIdeal.Read.val_main_v7 Cert.ReferenceIdeal.Read.val_main_cst_1
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_cst_0 Cert.ReferenceIdeal.Read.val_main_v0 Cert.ReferenceIdeal.Read.val_main_cst
  rfl

/-- The shift row: `beta - (mean x * gamma) * rsqrt (var x + eps)` as a `1 × 13` array. -/
theorem V1_shift_row (c : Dev nD) :
    (V1 m ρ c main_v18 : S1x13.Idx → EReal)
      = (shapeCast S1x13 (subf (F := Ideal) (s := S13) (φ := .f32) (m ((c : Thread nD τ).loc main_arg4))
          (mulf (mulf (Cert.ReferenceIdeal.Read.val_main_v2 (F := Ideal) (m ((c : Thread nD τ).loc main_arg0)))
              (m ((c : Thread nD τ).loc main_arg3)))
            (Host.rsqrt (Cert.ReferenceIdeal.Read.val_main_v14 (F := Ideal) (m ((c : Thread nD τ).loc main_arg0))))))
          shapeCasts_S13_S1x13 : S1x13.Idx → EReal) := by
  show StableHlo.after hostOps0 (W0 m ρ c) (Proc.devRef .tc main_v18) = _
  after_results_simp
  unfold Cert.ReferenceIdeal.Read.val_main_v14 Cert.ReferenceIdeal.Read.val_main_v13
    Cert.ReferenceIdeal.Read.val_main_cst_3 Cert.ReferenceIdeal.Read.val_main_v9 Cert.ReferenceIdeal.Read.val_main_v8
    Cert.ReferenceIdeal.Read.val_main_cst_2 Cert.ReferenceIdeal.Read.val_main_v7 Cert.ReferenceIdeal.Read.val_main_cst_1
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_cst_0 Cert.ReferenceIdeal.Read.val_main_v0 Cert.ReferenceIdeal.Read.val_main_cst
  rfl

/-! ## The rows read at a column: a vector laid out as one row has, at column `d`, the vector's entry `d` -/

/-- The column scale. -/
theorem V1_scale (c : Dev nD) (d : Fin 13) :
    at2 (V1 m ρ c main_v14) 0 d
      = at1 (m ((c : Thread nD τ).loc main_arg3)) d * Ideal.rsqrt (at1 (Cert.ReferenceIdeal.Read.val_main_v14 (F := Ideal) (m ((c : Thread nD τ).loc main_arg0))) d) := by
  show (V1 m ρ c main_v14 : S1x13.Idx → EReal) (ix2 0 d) = _
  rw [V1_scale_row, shapeCast_a_1a_apply]
  rfl

/-- The column shift. -/
theorem V1_shift (c : Dev nD) (d : Fin 13) :
    at2 (V1 m ρ c main_v18) 0 d
      = at1 (m ((c : Thread nD τ).loc main_arg4)) d - at1 (Cert.ReferenceIdeal.Read.val_main_v2 (F := Ideal) (m ((c : Thread nD τ).loc main_arg0))) d * at1 (m ((c : Thread nD τ).loc main_arg3)) d
          * Ideal.rsqrt (at1 (Cert.ReferenceIdeal.Read.val_main_v14 (F := Ideal) (m ((c : Thread nD τ).loc main_arg0))) d) := by
  show (V1 m ρ c main_v18 : S1x13.Idx → EReal) (ix2 0 d) = _
  rw [V1_shift_row, shapeCast_a_1a_apply]
  rfl

theorem V1_b1 (c : Dev nD) (h : Fin 32) : at2 (V1 m ρ c main_v19) 0 h = at1 (m ((c : Thread nD τ).loc main_arg6)) h := by
  have e : (V1 m ρ c main_v19 : S1x32.Idx → EReal)
      = shapeCast S1x32 (m ((c : Thread nD τ).loc main_arg6) : S32.Idx → EReal) shapeCasts_S32_S1x32 := by
    show StableHlo.after hostOps0 (W0 m ρ c) (Proc.devRef .tc main_v19) = _
    after_results
    rfl
  show (V1 m ρ c main_v19 : S1x32.Idx → EReal) (ix2 0 h) = _
  rw [e]
  exact shapeCast_a_1a_apply _ _ 0 h
theorem V1_b2 (c : Dev nD) (q : Fin 32) : at2 (V1 m ρ c main_v20) 0 q = at1 (m ((c : Thread nD τ).loc main_arg8)) q := by
  have e : (V1 m ρ c main_v20 : S1x32.Idx → EReal)
      = shapeCast S1x32 (m ((c : Thread nD τ).loc main_arg8) : S32.Idx → EReal) shapeCasts_S32_S1x32 := by
    show StableHlo.after hostOps0 (W0 m ρ c) (Proc.devRef .tc main_v20) = _
    after_results
    rfl
  show (V1 m ρ c main_v20 : S1x32.Idx → EReal) (ix2 0 q) = _
  rw [e]
  exact shapeCast_a_1a_apply _ _ 0 q

end Cert.KernelIdeal.Host0

end
-- ==== Proof.Host1.lean ====
import proofs.«417757_j46952582480249_1_alg».proof.Proof.Gen.KernelIdeal.Frame
import proofs.«417757_j46952582480249_1_alg».proof.Proof.ReadP
import proofs.«417757_j46952582480249_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

/-!
What the host operations between the node stage and the edge stage leave in the buffers the edge stage reads.  The
features of every node are the hidden features beside the normalised ones; `jnp.take` gathers a row per edge and
would fill a row with a fixed pattern where the edge's index is out of range.  With every index in `[0, 50000)` no
row is filled and the index needs no wrapping, so each gathered array is the plain gather the reference performs.
-/

set_option maxRecDepth 16384

noncomputable section

namespace Cert.KernelIdeal.Host1

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ) (ρ : Dev nD → PrngReg)

/-- A buffer that no operation of a stretch writes holds after the stretch what it held before. -/
macro "unwritten" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ## Words: an index in `[0, 50000)` is not negative, is at least 0 and at most 49999 -/

theorem cmpi_slt_zero {w : BitVec 32} (h : 0 ≤ w.toInt) : IntOp.cmpi .slt w 0#32 = 0#1 := by
  have h0 : (0#32 : BitVec 32).toInt = 0 := by decide
  have e : w.slt 0#32 = false := by
    simp only [BitVec.slt, h0, decide_eq_false_iff_not, not_lt]; exact h
  show BitVec.ofBool (w.slt 0#32) = 0#1
  rw [e]; rfl

theorem cmpi_sge_zero {w : BitVec 32} (h : 0 ≤ w.toInt) : IntOp.cmpi .sge w 0#32 = 1#1 := by
  have h0 : (0#32 : BitVec 32).toInt = 0 := by decide
  have e : (0#32 : BitVec 32).sle w = true := by
    simp only [BitVec.sle, h0, decide_eq_true_eq]; exact h
  show BitVec.ofBool ((0#32 : BitVec 32).sle w) = 1#1
  rw [e]; rfl

theorem cmpi_sle_last {w : BitVec 32} (h : w.toInt < 50000) : IntOp.cmpi .sle w 49999#32 = 1#1 := by
  have h0 : (49999#32 : BitVec 32).toInt = 49999 := by decide
  have e : w.sle 49999#32 = true := by
    simp only [BitVec.sle, h0, decide_eq_true_eq]; omega
  show BitVec.ofBool (w.sle 49999#32) = 1#1
  rw [e]; rfl

/-- A left fold by `and` from 1 over ones is 1. -/
theorem foldl_andi_ones {ι : Type} (g : ι → BitVec 1) (hg : ∀ n, g n = 1#1) :
    ∀ l : List ι, l.foldl (fun r n => IntOp.andi r (g n)) 1#1 = 1#1
  | [] => rfl
  | a :: l => by
    rw [List.foldl_cons, hg a, show IntOp.andi 1#1 1#1 = 1#1 from by decide]
    exact foldl_andi_ones g hg l

/-- A reduction by `and` from 1 of an array of ones is 1 everywhere. -/
theorem reduce_andi_ones {s t u : Shape} {axes : List (Fin s.rank)} (x : s.Idx → BitVec 1) (hx : ∀ i, x i = 1#1)
    (init : u.Idx → BitVec 1) (hi : ∀ k, init k = 1#1) (h : s.ReducesTo axes t) (hu : 0 < u.numel) (j : t.Idx) :
    Host.reduce IntOp.andi x init h hu j = 1#1 := by
  unfold Host.reduce
  rw [hi]
  exact foldl_andi_ones _ (fun n => hx _) _

/-- A broadcast reads, at every index, some entry of its operand. -/
theorem broadcastInDim_exists {α : Type} {s : Shape} (t : Shape) (dims : Fin s.rank → Fin t.rank) (h : s.BroadcastsInDim t dims)
    (x : s.Idx → α) (j : t.Idx) : ∃ k, broadcastInDim t dims h x j = x k := ⟨_, rfl⟩

/-! ## `jnp.take(feat, idx, axis = 0)` in fill mode -/

/-- The normalised index column: a negative index counts from the end. -/
def wrapped (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 50000#32))) idx)

/-- The rows whose normalised index lies in `[0, 49999]`. -/
def inRange (J : IVec S1600000x1 32) : IVec S1600000 1 :=
  Host.reduce IntOp.andi
    (andi (cmpi .sge J (broadcastInDim S1600000x1 ![] bcast_S_S1600000x1 (constantI S_ 32 0#32)))
      (cmpi .sle J (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The gathered rows, a fixed pattern in the rows out of range. -/
def takeFill (feat : Vec Ideal S50000x45 .f32) (idx : IVec S1600000 32) : Vec Ideal S1600000x45 .f32 :=
  select (broadcastInDim S1600000x45 ![0] bcast_S1600000_S1600000x45_0 (inRange (wrapped idx)))
    (Host.gather gather_S50000x45_S1600000x1_S1600000x45_1_0_n_n_0_1_145 feat (wrapped idx))
    (broadcastInDim S1600000x45 ![] bcast_S_S1600000x45 (constant (F := Ideal) S_ .f32 0x7FC00000#32))

/-- With every index in `[0, 50000)` the normalised index at a row is an entry of `idx`. -/
theorem wrapped_apply (idx : IVec S1600000 32) (h : ∀ i, 0 ≤ (idx i).toInt ∧ (idx i).toInt < 50000) (i : S1600000x1.Idx) :
    ∃ k, wrapped idx i = idx k := by
  obtain ⟨k, hk⟩ := broadcastInDim_exists S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 50000#32))) idx) i
  refine ⟨k, ?_⟩
  unfold wrapped
  rw [hk]
  show Scalar.select (IntOp.cmpi .slt (idx k) 0#32) (IntOp.addi (idx k) 50000#32) (idx k) = idx k
  rw [cmpi_slt_zero (h k).1, select_zero]

/-- With every index in `[0, 50000)` no row is out of range. -/
theorem inRange_wrapped (idx : IVec S1600000 32) (h : ∀ i, 0 ≤ (idx i).toInt ∧ (idx i).toInt < 50000) (j : S1600000.Idx) :
    inRange (wrapped idx) j = 1#1 := by
  unfold inRange
  refine reduce_andi_ones _ (fun i => ?_) _ (fun _ => rfl) _ _ j
  obtain ⟨k, hk⟩ := wrapped_apply idx h i
  show IntOp.andi (IntOp.cmpi .sge (wrapped idx i) 0#32) (IntOp.cmpi .sle (wrapped idx i) 49999#32) = 1#1
  rw [hk, cmpi_sge_zero (h k).1, cmpi_sle_last (h k).2]
  decide

/-- With every index in `[0, 50000)` the take is the plain gather at the normalised indices. -/
theorem takeFill_eq (feat : Vec Ideal S50000x45 .f32) (idx : IVec S1600000 32)
    (h : ∀ i, 0 ≤ (idx i).toInt ∧ (idx i).toInt < 50000) :
    takeFill feat idx = Host.gather gather_S50000x45_S1600000x1_S1600000x45_1_0_n_n_0_1_145 feat (wrapped idx) := by
  funext y
  unfold takeFill
  rw [select_apply]
  have hm : broadcastInDim S1600000x45 ![0] bcast_S1600000_S1600000x45_0 (inRange (wrapped idx)) y = 1#1 :=
    inRange_wrapped idx h _
  rw [hm, select_one]

/-- The normalised targets (row 1 of the edge index array) are the reference's. -/
theorem wrapped_targets (a1 : IVec S2x1600000 32) :
    wrapped (shapeCast S1600000 (extractStridedSlice S1x1600000 ![1, 0] a1 slices_S2x1600000_S1x1600000_1_0) shapeCasts_S1x1600000_S1600000)
      = Cert.ReferenceIdeal.Read.val_main_v45 (F := Ideal) a1 := rfl

/-- The normalised sources (row 0 of the edge index array) are the reference's. -/
theorem wrapped_sources (a1 : IVec S2x1600000 32) :
    wrapped (shapeCast S1600000 (extractStridedSlice S1x1600000 ![0, 0] a1 slices_S2x1600000_S1x1600000_0_0) shapeCasts_S1x1600000_S1600000)
      = Cert.ReferenceIdeal.Read.val_main_v52 (F := Ideal) a1 := rfl

/-- The take at the targets, every entry of the edge index array in `[0, 50000)`. -/
theorem takeFill_targets (feat : Vec Ideal S50000x45 .f32) (a1 : IVec S2x1600000 32)
    (h : ∀ i, 0 ≤ (a1 i).toInt ∧ (a1 i).toInt < 50000) :
    takeFill feat (shapeCast S1600000 (extractStridedSlice S1x1600000 ![1, 0] a1 slices_S2x1600000_S1x1600000_1_0) shapeCasts_S1x1600000_S1600000)
      = Host.gather gather_S50000x45_S1600000x1_S1600000x45_1_0_n_n_0_1_145 feat (Cert.ReferenceIdeal.Read.val_main_v45 (F := Ideal) a1) :=
  (takeFill_eq feat _ (fun i => h _)).trans (congrArg _ (wrapped_targets a1))

/-- The take at the sources, every entry of the edge index array in `[0, 50000)`. -/
theorem takeFill_sources (feat : Vec Ideal S50000x45 .f32) (a1 : IVec S2x1600000 32)
    (h : ∀ i, 0 ≤ (a1 i).toInt ∧ (a1 i).toInt < 50000) :
    takeFill feat (shapeCast S1600000 (extractStridedSlice S1x1600000 ![0, 0] a1 slices_S2x1600000_S1x1600000_0_0) shapeCasts_S1x1600000_S1600000)
      = Host.gather gather_S50000x45_S1600000x1_S1600000x45_1_0_n_n_0_1_145 feat (Cert.ReferenceIdeal.Read.val_main_v52 (F := Ideal) a1) :=
  (takeFill_eq feat _ (fun i => h _)).trans (congrArg _ (wrapped_sources a1))

/-! ## Contents at a buffer's own type

An operation of a called function reads and writes its buffers at the type of the value each holds, carried to the
buffer's own type and back; for these buffers the two types are one and the carrying is the identity. -/

/-- Contents carried to a buffer's own type and back are unchanged. -/
theorem ofBuf_toBuf {Val : EltTy → Type} {T : BufTy} (x : StableHlo.TRef sig T) (v : T.Contents Val) : x.ofBuf (x.toBuf v) = v := by
  obtain ⟨r, rfl, _, _⟩ := x
  rfl

theorem toBuf_v27 (h1 h2 h3) (v : Vec Ideal S1600000x45 .f32) :
    (StableHlo.TRef.of main_v27 h1 h2 h3 : StableHlo.TRef sig ⟨S1600000x45, .f32⟩).toBuf v = v := cast_eq _ _
theorem toBuf_v28 (h1 h2 h3) (v : Vec Ideal S1600000x45 .f32) :
    (StableHlo.TRef.of main_v28 h1 h2 h3 : StableHlo.TRef sig ⟨S1600000x45, .f32⟩).toBuf v = v := cast_eq _ _
theorem ofBuf_v26 (h1 h2 h3) (v : Vec Ideal S50000x45 .f32) :
    (StableHlo.TRef.of main_v26 h1 h2 h3 : StableHlo.TRef sig ⟨S50000x45, .f32⟩).ofBuf v = v := cast_eq _ _
theorem ofBuf_v25 (h1 h2 h3) (v : IVec S1600000 32) :
    (StableHlo.TRef.of main_v25 h1 h2 h3 : StableHlo.TRef sig ⟨S1600000, .i32⟩).ofBuf (Val := Elt Ideal) v = v := cast_eq _ _
theorem ofBuf_v23 (h1 h2 h3) (v : IVec S1600000 32) :
    (StableHlo.TRef.of main_v23 h1 h2 h3 : StableHlo.TRef sig ⟨S1600000, .i32⟩).ofBuf (Val := Elt Ideal) v = v := cast_eq _ _

/-! ## The buffers after each stretch of host operations -/

/-- The edge index array is an argument: as launched. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by unwritten hostOps0
    _ = m ((c : Thread nD τ).loc main_arg1) := rfl

/-- The targets: row 1 of the edge index array. -/
theorem W3_v25 (c : Dev nD) : W3 m ρ c (Proc.devRef .tc main_v25)
    = shapeCast S1600000 (extractStridedSlice S1x1600000 ![1, 0] (W2 m ρ c (Proc.devRef .tc main_arg1)) slices_S2x1600000_S1x1600000_1_0)
        shapeCasts_S1x1600000_S1600000 := by
  show StableHlo.after hostOps1 (W2 m ρ c) (Proc.devRef .tc main_v25) = _
  after_results
  rfl

/-- The sources: row 0 of the edge index array. -/
theorem W3_v23 (c : Dev nD) : W3 m ρ c (Proc.devRef .tc main_v23)
    = shapeCast S1600000 (extractStridedSlice S1x1600000 ![0, 0] (W2 m ρ c (Proc.devRef .tc main_arg1)) slices_S2x1600000_S1x1600000_0_0)
        shapeCasts_S1x1600000_S1600000 := by
  show StableHlo.after hostOps1 (W2 m ρ c) (Proc.devRef .tc main_v23) = _
  after_results
  rfl

/-- The node features: the hidden features beside the normalised ones. -/
theorem W3_v26 (c : Dev nD) : W3 m ρ c (Proc.devRef .tc main_v26)
    = concatenate S50000x45 1 [⟨S50000x32, W2 m ρ c (Proc.devRef .tc main_v21_1)⟩, ⟨S50000x13, W2 m ρ c (Proc.devRef .tc main_v21_0)⟩]
        concatenates_S50000x32_S50000x13_S50000x45_d1 := by
  show StableHlo.after hostOps1 (W2 m ρ c) (Proc.devRef .tc main_v26) = _
  after_results

set_option maxHeartbeats 4000000 in
/-- The first take writes the rows of the features at the targets. -/
theorem after_take_targets (V : Valuation τ sig (Elt Ideal)) : StableHlo.after hostOps1_1 V (Proc.devRef .tc main_v27)
    = takeFill (V (Proc.devRef .tc main_v26)) (V (Proc.devRef .tc main_v25)) := by
  after_results_simp
  simp only [ofBuf_toBuf, toBuf_v27, ofBuf_v26, ofBuf_v25]
  rfl

set_option maxHeartbeats 4000000 in
/-- The second take writes the rows of the features at the sources. -/
theorem after_take_sources (V : Valuation τ sig (Elt Ideal)) : StableHlo.after hostOps1_2 V (Proc.devRef .tc main_v28)
    = takeFill (V (Proc.devRef .tc main_v26)) (V (Proc.devRef .tc main_v23)) := by
  after_results_simp
  simp only [ofBuf_toBuf, toBuf_v28, ofBuf_v26, ofBuf_v23]
  rfl

/-- Rows gathered at the edges' targets. -/
theorem V6_xi (c : Dev nD) (X : Vec Ideal S50000x13 .f32) (Hn : Vec Ideal S50000x32 .f32)
    (hx : W2 m ρ c (Proc.devRef .tc main_v21_0) = X) (hh : W2 m ρ c (Proc.devRef .tc main_v21_1) = Hn)
    (hidx : ∀ i, 0 ≤ ((m ((c : Thread nD τ).loc main_arg1)) i).toInt ∧ ((m ((c : Thread nD τ).loc main_arg1)) i).toInt < 50000) :
    V6 m ρ c main_v27
      = Host.gather gather_S50000x45_S1600000x1_S1600000x45_1_0_n_n_0_1_145
          (concatenate S50000x45 1 [⟨S50000x32, Hn⟩, ⟨S50000x13, X⟩] concatenates_S50000x32_S50000x13_S50000x45_d1)
          (Cert.ReferenceIdeal.Read.val_main_v45 (F := Ideal) (m ((c : Thread nD τ).loc main_arg1))) := by
  have e : V6 m ρ c main_v27 = W4 m ρ c (Proc.devRef .tc main_v27) :=
    calc V6 m ρ c main_v27
      _ = W5 m ρ c (Proc.devRef .tc main_v27) := by unwritten hostOps1_3
      _ = W4 m ρ c (Proc.devRef .tc main_v27) := by unwritten hostOps1_2
  have e4 : W4 m ρ c (Proc.devRef .tc main_v27)
      = takeFill (W3 m ρ c (Proc.devRef .tc main_v26)) (W3 m ρ c (Proc.devRef .tc main_v25)) := after_take_targets (W3 m ρ c)
  rw [e, e4, W3_v26, W3_v25, W2_arg1, hx, hh]
  exact takeFill_targets _ _ hidx

/-- Rows gathered at the edges' sources. -/
theorem V6_xj (c : Dev nD) (X : Vec Ideal S50000x13 .f32) (Hn : Vec Ideal S50000x32 .f32)
    (hx : W2 m ρ c (Proc.devRef .tc main_v21_0) = X) (hh : W2 m ρ c (Proc.devRef .tc main_v21_1) = Hn)
    (hidx : ∀ i, 0 ≤ ((m ((c : Thread nD τ).loc main_arg1)) i).toInt ∧ ((m ((c : Thread nD τ).loc main_arg1)) i).toInt < 50000) :
    V6 m ρ c main_v28
      = Host.gather gather_S50000x45_S1600000x1_S1600000x45_1_0_n_n_0_1_145
          (concatenate S50000x45 1 [⟨S50000x32, Hn⟩, ⟨S50000x13, X⟩] concatenates_S50000x32_S50000x13_S50000x45_d1)
          (Cert.ReferenceIdeal.Read.val_main_v52 (F := Ideal) (m ((c : Thread nD τ).loc main_arg1))) := by
  have e : V6 m ρ c main_v28 = W5 m ρ c (Proc.devRef .tc main_v28) := by unwritten hostOps1_3
  have e5 : W5 m ρ c (Proc.devRef .tc main_v28)
      = takeFill (W4 m ρ c (Proc.devRef .tc main_v26)) (W4 m ρ c (Proc.devRef .tc main_v23)) := after_take_sources (W4 m ρ c)
  have e26 : W4 m ρ c (Proc.devRef .tc main_v26) = W3 m ρ c (Proc.devRef .tc main_v26) := by unwritten hostOps1_1
  have e23 : W4 m ρ c (Proc.devRef .tc main_v23) = W3 m ρ c (Proc.devRef .tc main_v23) := by unwritten hostOps1_1
  rw [e, e5, e26, e23, W3_v26, W3_v23, W2_arg1, hx, hh]
  exact takeFill_sources _ _ hidx

end Cert.KernelIdeal.Host1

end
-- ==== Proof.Host1b.lean ====
import proofs.«417757_j46952582480249_1_alg».proof.Proof.Gen.KernelIdeal.Frame
import proofs.«417757_j46952582480249_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

/-!
The weights and biases of the edge stage as that stage finds them: the two weight matrices are arguments no
operation has written, and the two bias vectors are laid out as single rows.
-/

set_option maxRecDepth 16384

noncomputable section

namespace Cert.KernelIdeal.Host1

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ) (ρ : Dev nD → PrngReg)

/-- None of a stretch's operations writes the reference: each operation writes one reference, and it is another one. -/
local macro "not_written" ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- A buffer that no host operation before the last stretch writes and that is not an array of the node stage holds,
    before that stretch, what it held at the launch: stretch by stretch back to the launch memory. -/
theorem W5_of_untouched (c : Dev nD) (b : Ref sig .tc)
    (h12 : ∀ op ∈ (hostOps1_2 : List (HloOp τ sig (Elt Ideal))), Proc.devRef .tc b ∉ op.writes)
    (h11 : ∀ op ∈ (hostOps1_1 : List (HloOp τ sig (Elt Ideal))), Proc.devRef .tc b ∉ op.writes)
    (h1 : ∀ op ∈ (hostOps1 : List (HloOp τ sig (Elt Ideal))), Proc.devRef .tc b ∉ op.writes)
    (hr : ∀ w, Pipeline.arrRef spec0 w ≠ b)
    (h0 : ∀ op ∈ (hostOps0 : List (HloOp τ sig (Elt Ideal))), Proc.devRef .tc b ∉ op.writes) :
    W5 m ρ c (Proc.devRef .tc b) = m ((c : Thread nD τ).loc b) :=
  calc W5 m ρ c (Proc.devRef .tc b)
    _ = W4 m ρ c (Proc.devRef .tc b) := StableHlo.after_of_forall_not_mem (b := Proc.devRef .tc b) _ _ h12
    _ = W3 m ρ c (Proc.devRef .tc b) := StableHlo.after_of_forall_not_mem (b := Proc.devRef .tc b) _ _ h11
    _ = W2 m ρ c (Proc.devRef .tc b) := StableHlo.after_of_forall_not_mem (b := Proc.devRef .tc b) _ _ h1
    _ = W1 m ρ c (Proc.devRef .tc b) := W2_of_ne m ρ c b hr
    _ = W0 m ρ c (Proc.devRef .tc b) := StableHlo.after_of_forall_not_mem (b := Proc.devRef .tc b) _ _ h0
    _ = m ((c : Thread nD τ).loc b) := rfl

/-- The same through the last stretch, to the edge stage's entry. -/
theorem V6_of_untouched (c : Dev nD) (b : Ref sig .tc)
    (h13 : ∀ op ∈ (hostOps1_3 : List (HloOp τ sig (Elt Ideal))), Proc.devRef .tc b ∉ op.writes)
    (h12 : ∀ op ∈ (hostOps1_2 : List (HloOp τ sig (Elt Ideal))), Proc.devRef .tc b ∉ op.writes)
    (h11 : ∀ op ∈ (hostOps1_1 : List (HloOp τ sig (Elt Ideal))), Proc.devRef .tc b ∉ op.writes)
    (h1 : ∀ op ∈ (hostOps1 : List (HloOp τ sig (Elt Ideal))), Proc.devRef .tc b ∉ op.writes)
    (hr : ∀ w, Pipeline.arrRef spec0 w ≠ b)
    (h0 : ∀ op ∈ (hostOps0 : List (HloOp τ sig (Elt Ideal))), Proc.devRef .tc b ∉ op.writes) :
    V6 m ρ c b = m ((c : Thread nD τ).loc b) :=
  (StableHlo.after_of_forall_not_mem (b := Proc.devRef .tc b) _ _ h13).trans (W5_of_untouched m ρ c b h12 h11 h1 hr h0)

/-- The first bias as the last stretch leaves it: the launch's vector laid out as one row. -/
theorem row_b1 (c : Dev nD) : (V6 m ρ c main_v29 : S1x64.Idx → EReal)
    = shapeCast S1x64 (m ((c : Thread nD τ).loc main_arg10) : S64.Idx → EReal) shapeCasts_S64_S1x64 := by
  rw [← W5_of_untouched m ρ c main_arg10 (by not_written hostOps1_2) (by not_written hostOps1_1) (by not_written hostOps1)
    (by decide) (by not_written hostOps0)]
  show StableHlo.after hostOps1_3 (W5 m ρ c) (Proc.devRef .tc main_v29) = _
  after_results
  rfl

/-- The second bias likewise. -/
theorem row_b2 (c : Dev nD) : (V6 m ρ c main_v30 : S1x32.Idx → EReal)
    = shapeCast S1x32 (m ((c : Thread nD τ).loc main_arg12) : S32.Idx → EReal) shapeCasts_S32_S1x32 := by
  rw [← W5_of_untouched m ρ c main_arg12 (by not_written hostOps1_2) (by not_written hostOps1_1) (by not_written hostOps1)
    (by decide) (by not_written hostOps0)]
  show StableHlo.after hostOps1_3 (W5 m ρ c) (Proc.devRef .tc main_v30) = _
  after_results
  rfl

theorem V6_arg9 (c : Dev nD) : V6 m ρ c main_arg9 = m ((c : Thread nD τ).loc main_arg9) :=
  V6_of_untouched m ρ c main_arg9 (by not_written hostOps1_3) (by not_written hostOps1_2) (by not_written hostOps1_1)
    (by not_written hostOps1) (by decide) (by not_written hostOps0)
theorem V6_arg11 (c : Dev nD) : V6 m ρ c main_arg11 = m ((c : Thread nD τ).loc main_arg11) :=
  V6_of_untouched m ρ c main_arg11 (by not_written hostOps1_3) (by not_written hostOps1_2) (by not_written hostOps1_1)
    (by not_written hostOps1) (by decide) (by not_written hostOps0)
theorem V6_b1 (c : Dev nD) (h : Fin 64) : at2 (V6 m ρ c main_v29) 0 h = at1 (m ((c : Thread nD τ).loc main_arg10)) h := by
  show (V6 m ρ c main_v29 : S1x64.Idx → EReal) (ix2 (0 : Fin 1) h) = _
  rw [row_b1 m ρ c]
  exact shapeCast_a_1a_apply _ _ 0 h
theorem V6_b2 (c : Dev nD) (q : Fin 32) : at2 (V6 m ρ c main_v30) 0 q = at1 (m ((c : Thread nD τ).loc main_arg12)) q := by
  show (V6 m ρ c main_v30 : S1x32.Idx → EReal) (ix2 (0 : Fin 1) q) = _
  rw [row_b2 m ρ c]
  exact shapeCast_a_1a_apply _ _ 0 q

end Cert.KernelIdeal.Host1

end
-- ==== Proof.Host2.lean ====
import proofs.«417757_j46952582480249_1_alg».proof.Proof.Gen.KernelIdeal.Frame
import proofs.«417757_j46952582480249_1_alg».proof.Proof.ReadP
import proofs.«417757_j46952582480249_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

/-!
What the host operations between the edge stage and the read-out stage leave in the buffers the read-out reads: the
messages summed into their target nodes, set beside the normalised features, summed per graph and divided by the
graph's node count (at least one).  The reference applies the very same operations, so the pooled rows are stated
as that chain applied to the messages and the normalised features, whatever those are.
-/

set_option maxRecDepth 16384

noncomputable section

namespace Cert.KernelIdeal.Host2

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ) (ρ : Dev nD → PrngReg)

/-- A buffer that no operation of a stretch writes holds after the stretch what it held before. -/
macro "unwritten" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Buffers carried unchanged up to the edge stage's exit -/

/-- The edge list at the edge stage's exit is the argument. -/
theorem W7_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := by unwritten hostOps1_3
    _ = W4 m ρ c (Proc.devRef .tc main_arg1) := by unwritten hostOps1_2
    _ = W3 m ρ c (Proc.devRef .tc main_arg1) := by unwritten hostOps1_1
    _ = W2 m ρ c (Proc.devRef .tc main_arg1) := by unwritten hostOps1
    _ = W1 m ρ c (Proc.devRef .tc main_arg1) := W2_of_ne m ρ c main_arg1 (by decide)
    _ = W0 m ρ c (Proc.devRef .tc main_arg1) := by unwritten hostOps0
    _ = m ((c : Thread nD τ).loc main_arg1) := rfl

/-- The graph assignment at the edge stage's exit is the argument. -/
theorem W7_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := by unwritten hostOps1_3
    _ = W4 m ρ c (Proc.devRef .tc main_arg2) := by unwritten hostOps1_2
    _ = W3 m ρ c (Proc.devRef .tc main_arg2) := by unwritten hostOps1_1
    _ = W2 m ρ c (Proc.devRef .tc main_arg2) := by unwritten hostOps1
    _ = W1 m ρ c (Proc.devRef .tc main_arg2) := W2_of_ne m ρ c main_arg2 (by decide)
    _ = W0 m ρ c (Proc.devRef .tc main_arg2) := by unwritten hostOps0
    _ = m ((c : Thread nD τ).loc main_arg2) := rfl

/-- The read-out's first weight matrix at the edge stage's exit is the argument. -/
theorem W7_arg13 (c : Dev nD) : W7 m ρ c (Proc.devRef .tc main_arg13) = m ((c : Thread nD τ).loc main_arg13) :=
  calc W7 m ρ c (Proc.devRef .tc main_arg13)
    _ = W6 m ρ c (Proc.devRef .tc main_arg13) := W7_of_ne m ρ c main_arg13 (by decide)
    _ = W5 m ρ c (Proc.devRef .tc main_arg13) := by unwritten hostOps1_3
    _ = W4 m ρ c (Proc.devRef .tc main_arg13) := by unwritten hostOps1_2
    _ = W3 m ρ c (Proc.devRef .tc main_arg13) := by unwritten hostOps1_1
    _ = W2 m ρ c (Proc.devRef .tc main_arg13) := by unwritten hostOps1
    _ = W1 m ρ c (Proc.devRef .tc main_arg13) := W2_of_ne m ρ c main_arg13 (by decide)
    _ = W0 m ρ c (Proc.devRef .tc main_arg13) := by unwritten hostOps0
    _ = m ((c : Thread nD τ).loc main_arg13) := rfl

/-- The read-out's first bias at the edge stage's exit is the argument. -/
theorem W7_arg14 (c : Dev nD) : W7 m ρ c (Proc.devRef .tc main_arg14) = m ((c : Thread nD τ).loc main_arg14) :=
  calc W7 m ρ c (Proc.devRef .tc main_arg14)
    _ = W6 m ρ c (Proc.devRef .tc main_arg14) := W7_of_ne m ρ c main_arg14 (by decide)
    _ = W5 m ρ c (Proc.devRef .tc main_arg14) := by unwritten hostOps1_3
    _ = W4 m ρ c (Proc.devRef .tc main_arg14) := by unwritten hostOps1_2
    _ = W3 m ρ c (Proc.devRef .tc main_arg14) := by unwritten hostOps1_1
    _ = W2 m ρ c (Proc.devRef .tc main_arg14) := by unwritten hostOps1
    _ = W1 m ρ c (Proc.devRef .tc main_arg14) := W2_of_ne m ρ c main_arg14 (by decide)
    _ = W0 m ρ c (Proc.devRef .tc main_arg14) := by unwritten hostOps0
    _ = m ((c : Thread nD τ).loc main_arg14) := rfl

/-- The read-out's second weight matrix at the edge stage's exit is the argument. -/
theorem W7_arg15 (c : Dev nD) : W7 m ρ c (Proc.devRef .tc main_arg15) = m ((c : Thread nD τ).loc main_arg15) :=
  calc W7 m ρ c (Proc.devRef .tc main_arg15)
    _ = W6 m ρ c (Proc.devRef .tc main_arg15) := W7_of_ne m ρ c main_arg15 (by decide)
    _ = W5 m ρ c (Proc.devRef .tc main_arg15) := by unwritten hostOps1_3
    _ = W4 m ρ c (Proc.devRef .tc main_arg15) := by unwritten hostOps1_2
    _ = W3 m ρ c (Proc.devRef .tc main_arg15) := by unwritten hostOps1_1
    _ = W2 m ρ c (Proc.devRef .tc main_arg15) := by unwritten hostOps1
    _ = W1 m ρ c (Proc.devRef .tc main_arg15) := W2_of_ne m ρ c main_arg15 (by decide)
    _ = W0 m ρ c (Proc.devRef .tc main_arg15) := by unwritten hostOps0
    _ = m ((c : Thread nD τ).loc main_arg15) := rfl

/-- The read-out's second bias at the edge stage's exit is the argument. -/
theorem W7_arg16 (c : Dev nD) : W7 m ρ c (Proc.devRef .tc main_arg16) = m ((c : Thread nD τ).loc main_arg16) :=
  calc W7 m ρ c (Proc.devRef .tc main_arg16)
    _ = W6 m ρ c (Proc.devRef .tc main_arg16) := W7_of_ne m ρ c main_arg16 (by decide)
    _ = W5 m ρ c (Proc.devRef .tc main_arg16) := by unwritten hostOps1_3
    _ = W4 m ρ c (Proc.devRef .tc main_arg16) := by unwritten hostOps1_2
    _ = W3 m ρ c (Proc.devRef .tc main_arg16) := by unwritten hostOps1_1
    _ = W2 m ρ c (Proc.devRef .tc main_arg16) := by unwritten hostOps1
    _ = W1 m ρ c (Proc.devRef .tc main_arg16) := W2_of_ne m ρ c main_arg16 (by decide)
    _ = W0 m ρ c (Proc.devRef .tc main_arg16) := by unwritten hostOps0
    _ = m ((c : Thread nD τ).loc main_arg16) := rfl

/-- The normalised features at the edge stage's exit are what the node stage left. -/
theorem W7_xn (c : Dev nD) : W7 m ρ c (Proc.devRef .tc main_v21_0) = W2 m ρ c (Proc.devRef .tc main_v21_0) :=
  calc W7 m ρ c (Proc.devRef .tc main_v21_0)
    _ = W6 m ρ c (Proc.devRef .tc main_v21_0) := W7_of_ne m ρ c main_v21_0 (by decide)
    _ = W5 m ρ c (Proc.devRef .tc main_v21_0) := by unwritten hostOps1_3
    _ = W4 m ρ c (Proc.devRef .tc main_v21_0) := by unwritten hostOps1_2
    _ = W3 m ρ c (Proc.devRef .tc main_v21_0) := by unwritten hostOps1_1
    _ = W2 m ρ c (Proc.devRef .tc main_v21_0) := by unwritten hostOps1

/-- The edge list when the node stage ends is the argument. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by unwritten hostOps0
    _ = m ((c : Thread nD τ).loc main_arg1) := rfl

/-- The edges' targets at the edge stage's exit: row 1 of the edge list, as a vector. -/
theorem W7_dst (c : Dev nD) :
    W7 m ρ c (Proc.devRef .tc main_v25)
      = shapeCast S1600000 (extractStridedSlice S1x1600000 ![1, 0] (m ((c : Thread nD τ).loc main_arg1)) slices_S2x1600000_S1x1600000_1_0)
          shapeCasts_S1x1600000_S1600000 :=
  calc W7 m ρ c (Proc.devRef .tc main_v25)
    _ = W6 m ρ c (Proc.devRef .tc main_v25) := W7_of_ne m ρ c main_v25 (by decide)
    _ = W5 m ρ c (Proc.devRef .tc main_v25) := by unwritten hostOps1_3
    _ = W4 m ρ c (Proc.devRef .tc main_v25) := by unwritten hostOps1_2
    _ = W3 m ρ c (Proc.devRef .tc main_v25) := by unwritten hostOps1_1
    _ = shapeCast S1600000 (extractStridedSlice S1x1600000 ![1, 0] (W2 m ρ c (Proc.devRef .tc main_arg1)) slices_S2x1600000_S1x1600000_1_0)
          shapeCasts_S1x1600000_S1600000 := by
        show StableHlo.after hostOps1 (W2 m ρ c) (Proc.devRef .tc main_v25) = _
        after_results
        rfl
    _ = _ := by rw [W2_arg1]

/-! ## The read-out stage's inputs -/

/-- The pooled rows as the chain of the stretch's operations over what its four inputs held. -/
theorem pool_of (V : Valuation τ sig (Elt Ideal)) (G : Vec Ideal S50000 .i32) (D : Vec Ideal S1600000 .i32)
    (M : Vec Ideal S1600000x32 .f32) (X : Vec Ideal S50000x13 .f32)
    (hg : V (Proc.devRef .tc main_arg2) = G) (hd : V (Proc.devRef .tc main_v25) = D)
    (hm : V (Proc.devRef .tc main_v31) = M) (hx : V (Proc.devRef .tc main_v21_0) = X) :
    StableHlo.after hostOps2 V (Proc.devRef .tc main_v46)
      = Host.divf
          (Host.scatterAdd scatter_S128x45_S50000x1_S50000x45_1_0_0_1
            (broadcastInDim S128x45 ![] bcast_S_S128x45 (constant (F := Ideal) S_ .f32 0x00000000#32))
            (broadcastInDim S50000x1 ![0] bcast_S50000_S50000x1_0 G)
            (concatenate S50000x45 1
              [⟨S50000x32, Host.scatterAdd scatter_S50000x32_S1600000x1_S1600000x32_1_0_0_1
                  (broadcastInDim S50000x32 ![] bcast_S_S50000x32 (constant (F := Ideal) S_ .f32 0x00000000#32))
                  (broadcastInDim S1600000x1 ![0] bcast_S1600000_S1600000x1_0 D) M⟩,
               ⟨S50000x13, X⟩] concatenates_S50000x32_S50000x13_S50000x45_d1))
          (broadcastInDim S128x45 ![0, 1] bcast_S128x1_S128x45_0_1
            (maximumf
              (Host.scatterAdd scatter_S128x1_S50000x1_S50000x1_1_0_0_1
                (broadcastInDim S128x1 ![] bcast_S_S128x1 (constant (F := Ideal) S_ .f32 0x00000000#32))
                (broadcastInDim S50000x1 ![0] bcast_S50000_S50000x1_0 G)
                (broadcastInDim S50000x1 ![] bcast_S_S50000x1 (constant (F := Ideal) S_ .f32 0x3F800000#32)))
              (broadcastInDim S128x1 ![] bcast_S_S128x1 (constant (F := Ideal) S_ .f32 0x3F800000#32)))) := by
  subst hg hd hm hx
  after_results_simp
  rfl

/-- The pooled rows. -/
theorem V8_xmean (c : Dev nD) (M : Vec Ideal S1600000x32 .f32) (X : Vec Ideal S50000x13 .f32)
    (hm : W7 m ρ c (Proc.devRef .tc main_v31) = M) (hx : W2 m ρ c (Proc.devRef .tc main_v21_0) = X) :
    V8 m ρ c main_v46
      = Host.divf (F := Ideal) (s := S128x45) (φ := .f32)
          (Host.scatterAdd scatter_S128x45_S50000x1_S50000x45_1_0_0_1 (Cert.ReferenceIdeal.Read.val_main_v70 (F := Ideal)) (Cert.ReferenceIdeal.Read.val_main_v71 (F := Ideal) (m ((c : Thread nD τ).loc main_arg2)))
            (concatenate S50000x45 1
              [⟨S50000x32, Host.scatterAdd scatter_S50000x32_S1600000x1_S1600000x32_1_0_0_1 (Cert.ReferenceIdeal.Read.val_main_v66 (F := Ideal)) (Cert.ReferenceIdeal.Read.val_main_v67 (F := Ideal) (m ((c : Thread nD τ).loc main_arg1))) M⟩,
               ⟨S50000x13, X⟩] concatenates_S50000x32_S50000x13_S50000x45_d1))
          (Cert.ReferenceIdeal.Read.val_main_v79 (F := Ideal) (m ((c : Thread nD τ).loc main_arg2))) := by
  unfold Cert.ReferenceIdeal.Read.val_main_v79 Cert.ReferenceIdeal.Read.val_main_v78 Cert.ReferenceIdeal.Read.val_main_v77
    Cert.ReferenceIdeal.Read.val_main_v76 Cert.ReferenceIdeal.Read.val_main_v75 Cert.ReferenceIdeal.Read.val_main_v74
    Cert.ReferenceIdeal.Read.val_main_v73 Cert.ReferenceIdeal.Read.val_main_v71 Cert.ReferenceIdeal.Read.val_main_v70
    Cert.ReferenceIdeal.Read.val_main_v67 Cert.ReferenceIdeal.Read.val_main_v66 Cert.ReferenceIdeal.Read.val_main_v39
    Cert.ReferenceIdeal.Read.val_main_v38 Cert.ReferenceIdeal.Read.val_main_cst_7 Cert.ReferenceIdeal.Read.val_main_cst_8
    Cert.ReferenceIdeal.Read.val_main_cst_9 Cert.ReferenceIdeal.Read.val_main_cst_10 Cert.ReferenceIdeal.Read.val_main_cst_11
  exact pool_of (W7 m ρ c) _ _ M X (W7_arg2 m ρ c) (W7_dst m ρ c) hm ((W7_xn m ρ c).trans hx)

theorem V8_arg13 (c : Dev nD) : V8 m ρ c main_arg13 = m ((c : Thread nD τ).loc main_arg13) :=
  calc V8 m ρ c main_arg13
    _ = W7 m ρ c (Proc.devRef .tc main_arg13) := by unwritten hostOps2
    _ = _ := W7_arg13 m ρ c

theorem V8_arg15 (c : Dev nD) : V8 m ρ c main_arg15 = m ((c : Thread nD τ).loc main_arg15) :=
  calc V8 m ρ c main_arg15
    _ = W7 m ρ c (Proc.devRef .tc main_arg15) := by unwritten hostOps2
    _ = _ := W7_arg15 m ρ c

theorem V8_b1 (c : Dev nD) (h : Fin 32) : at2 (V8 m ρ c main_v47) 0 h = at1 (m ((c : Thread nD τ).loc main_arg14)) h := by
  have e : (V8 m ρ c main_v47 : S1x32.Idx → EReal)
      = shapeCast S1x32 (W7 m ρ c (Proc.devRef .tc main_arg14)) shapeCasts_S32_S1x32 := by
    show StableHlo.after hostOps2 (W7 m ρ c) (Proc.devRef .tc main_v47) = _
    after_results
    rfl
  rw [e, W7_arg14]
  exact shapeCast_a_1a_apply _ _ 0 h

theorem V8_b2 (c : Dev nD) (q : Fin 1) : at2 (V8 m ρ c main_v48) 0 q = at1 (m ((c : Thread nD τ).loc main_arg16)) q := by
  have e : (V8 m ρ c main_v48 : S1x1.Idx → EReal)
      = shapeCast S1x1 (W7 m ρ c (Proc.devRef .tc main_arg16)) shapeCasts_S1_S1x1 := by
    show StableHlo.after hostOps2 (W7 m ρ c) (Proc.devRef .tc main_v48) = _
    after_results
    rfl
  rw [e, W7_arg16]
  exact shapeCast_a_1a_apply _ _ 0 q

end Cert.KernelIdeal.Host2

end
-- ==== Proof.RefSpec.lean ====
import proofs.«417757_j46952582480249_1_alg».proof.Proof.ReadP
import proofs.«417757_j46952582480249_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The reference's first dense stages, read one operation at a time and gathered into the row-wise perceptron the
kernel's stages compute: batch normalisation entry by entry, then the node perceptron as `mlp2` of the normalised
rows.  Two facts the later stages share are here too: the edge stage's input row is the target row followed by source
minus target, and the word of the constant one denotes one.
-/

set_option maxRecDepth 16384

noncomputable section

namespace Cert.ReferenceIdeal.RefSpec

open Cert.ReferenceIdeal Cert.ReferenceIdeal.Gen Cert.ReferenceIdeal.Read Idealize.ShloMosaic Idealize.ShloMosaic.TcCoe Idealize.SL.Sem
open Idealize.ShloMosaic.ValueIdx Cert.Spec

variable (x0 : (⟨S50000x13, .f32⟩ : BufTy).Contents (Elt Ideal)) (x1 : (⟨S2x1600000, .i32⟩ : BufTy).Contents (Elt Ideal)) (x2 : (⟨S50000, .i32⟩ : BufTy).Contents (Elt Ideal)) (x3 : (⟨S13, .f32⟩ : BufTy).Contents (Elt Ideal)) (x4 : (⟨S13, .f32⟩ : BufTy).Contents (Elt Ideal)) (x5 : (⟨S13x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S90x64, .f32⟩ : BufTy).Contents (Elt Ideal)) (x10 : (⟨S64, .f32⟩ : BufTy).Contents (Elt Ideal)) (x11 : (⟨S64x32, .f32⟩ : BufTy).Contents (Elt Ideal)) (x12 : (⟨S32, .f32⟩ : BufTy).Contents (Elt Ideal)) (x13 : (⟨S45x32, .f32⟩ : BufTy).Contents (Elt Ideal)) (x14 : (⟨S32, .f32⟩ : BufTy).Contents (Elt Ideal)) (x15 : (⟨S32x1, .f32⟩ : BufTy).Contents (Elt Ideal)) (x16 : (⟨S1, .f32⟩ : BufTy).Contents (Elt Ideal))

/-- An index of a rank-two array is determined by the values of its two coordinates. -/
theorem idx2_eq {m n : Nat} (f : (⟨2, ![m, n]⟩ : Shape).Idx) (p : Fin m) (q : Fin n)
    (h0 : (f 0).val = p.val) (h1 : (f 1).val = q.val) : f = ix2 p q :=
  funext fun a => match a with
    | ⟨0, _⟩ => Fin.ext h0
    | ⟨1, _⟩ => Fin.ext h1

/-- An index of a rank-one array is determined by the value of its coordinate. -/
theorem idx1_eq {n : Nat} (f : (⟨1, ![n]⟩ : Shape).Idx) (q : Fin n) (h0 : (f 0).val = q.val) : f = ix1 q :=
  funext fun a => match a with
    | ⟨0, _⟩ => Fin.ext h0

/-- The word of the constant one denotes one. -/
theorem ofBits_one_f32 : Ideal.ofBits .f32 0x3F800000#32 = 1 := by
  simp [Ideal.ofBits, Ideal.ieee, -EReal.coe_mul]; norm_num

/-- Batch normalisation at one entry: centre by the column mean, divide by the root of variance plus epsilon, scale
    and shift. -/
theorem ref_xn (n : Fin 50000) (d : Fin 13) :
    at2 (val_main_v24 (F := Ideal) x0 x3 x4) n d
      = Ideal.div (at2 x0 n d - at1 (val_main_v2 (F := Ideal) x0) d) (Ideal.sqrt (at1 (val_main_v14 (F := Ideal) x0) d)) * at1 x3 d + at1 x4 d := by
  have e1 : idx_main_v10 (idx_main_v11 (ix2 n d)) = ix1 d := idx1_eq _ _ rfl
  have e2 : idx_main_v16 (idx_main_v17 (ix2 n d)) = ix1 d := idx1_eq _ _ rfl
  have e3 : idx_main_v19 (idx_main_v20 (ix2 n d)) = ix1 d := idx1_eq _ _ rfl
  have e4 : idx_main_v22 (idx_main_v23 (ix2 n d)) = ix1 d := idx1_eq _ _ rfl
  show val_main_v24 (F := Ideal) x0 x3 x4 (ix2 n d) = _
  rw [val_main_v24_apply, val_main_v21_apply, val_main_v18_apply, val_main_v12_apply, val_main_v11_apply,
    val_main_v10_apply, val_main_v17_apply, val_main_v16_apply, val_main_v15_apply, val_main_v20_apply,
    val_main_v19_apply, val_main_v23_apply, val_main_v22_apply, e1, e2, e3, e4]
  simp only [Ideal.addf_def, Ideal.mulf_def, Ideal.subf_def, Ideal.hostDivf_def, Ideal.hostUnary_sqrt_def]

/-- The node stage is the perceptron of the normalised rows. -/
theorem ref_hn :
    (val_main_v34 (F := Ideal) x0 x3 x4 x5 x6 x7 x8 : Arr 50000 32)
      = arr2 (mlp2 Ideal.tanh (fun n d => at2 (val_main_v24 (F := Ideal) x0 x3 x4) n d)
          (fun k h => at2 x5 k h) (fun h => at1 x6 h) (fun h q => at2 x7 h q) (fun q => at1 x8 q)) := by
  refine arr_ext fun n q => ?_
  have e1 : ∀ k : Fin 32, lidx_main_v30 (ix2 n q) k = ix2 n k := fun k => idx2_eq _ _ _ rfl rfl
  have e2 : ∀ k : Fin 32, ridx_main_v30 (ix2 n q) k = ix2 k q := fun k => idx2_eq _ _ _ rfl rfl
  have e3 : idx_main_v31 (idx_main_v32 (ix2 n q)) = ix1 q := idx1_eq _ _ rfl
  have e4 : ∀ (h : Fin 32) (k : Fin 13), lidx_main_v25 (ix2 n h) k = ix2 n k := fun h k => idx2_eq _ _ _ rfl rfl
  have e5 : ∀ (h : Fin 32) (k : Fin 13), ridx_main_v25 (ix2 n h) k = ix2 k h := fun h k => idx2_eq _ _ _ rfl rfl
  have e6 : ∀ h : Fin 32, idx_main_v26 (idx_main_v27 (ix2 n h)) = ix1 h := fun h => idx1_eq _ _ rfl
  rw [arr2_ix2, val_main_v34_apply, val_main_v33_apply, val_main_v30_apply, val_main_v32_apply, val_main_v31_apply]
  simp only [e1, e2, e3, val_main_v29_apply, val_main_v28_apply, val_main_v25_apply, val_main_v27_apply, val_main_v26_apply,
    val_main_call0_v0_apply, val_main_call0_cst_apply, e4, e5, e6,
    Ideal.hostUnary_tanh_def, Ideal.addf_def, Ideal.maximumf_def, Ideal.ofBits_def, Ideal.ofBits_zero_f32]
  rfl

/-- Two blocks of 45 columns side by side, read at one entry: the left block below column 45, the right block from
    column 45 on. -/
theorem cat45_apply (a b : (⟨S1600000x45, .f32⟩ : BufTy).Contents (Elt Ideal)) (e : Fin 1600000) (d : Fin 90) :
    concatenate S1600000x90 1 [⟨S1600000x45, a⟩, ⟨S1600000x45, b⟩] concatenates_S1600000x45_S1600000x45_S1600000x90_d1 (ix2 e d)
      = if h : d.val < 45 then a (ix2 e ⟨d.val, h⟩) else b (ix2 e ⟨d.val - 45, by omega⟩) := by
  split
  · next h =>
    exact concatenate_pair_apply_left (1 : Fin 2) a b _ (ix2 e d) rfl (ix2 e ⟨d.val, h⟩)
      (fun c => match c with | ⟨0, _⟩ => rfl | ⟨1, _⟩ => rfl)
  · next h =>
    refine concatenate_pair_apply_right (1 : Fin 2) a b _ (ix2 e d) rfl rfl (ix2 e ⟨d.val - 45, by omega⟩)
      (fun c hc => match c, hc with | ⟨0, _⟩, _ => rfl | ⟨1, _⟩, hc => (hc rfl).elim) ?_
    show d.val - 45 + 45 = d.val
    omega

/-- The edge stage's input row is the target row followed by source minus target. -/
theorem ref_edgeIn (e : Fin 1600000) (d : Fin 90) :
    val_main_v55 (F := Ideal) x0 x1 x3 x4 x5 x6 x7 x8 (ix2 e d)
      = edgeIn (fun e d => at2 (val_main_v46 (F := Ideal) x0 x1 x3 x4 x5 x6 x7 x8) e d)
          (fun e d => at2 (val_main_v53 (F := Ideal) x0 x1 x3 x4 x5 x6 x7 x8) e d) e d := by
  unfold val_main_v55 edgeIn
  rw [cat45_apply]
  split
  · rfl
  · rw [val_main_v54_apply, Ideal.subf_def]

end Cert.ReferenceIdeal.RefSpec

end
-- ==== Proof.RefSpecB.lean ====
import proofs.«417757_j46952582480249_1_alg».proof.Proof.ReadP
import proofs.«417757_j46952582480249_1_alg».proof.Proof.Spec
import proofs.«417757_j46952582480249_1_alg».proof.Proof.RefSpec
import Idealize.ShloMosaic.Lib.Pipeline.Value
import Idealize.ShloMosaic.Lib.ValueIdx
import Idealize.ShloMosaic.Lib.ValueLayout
import Idealize.ShloMosaic.PureOps.Ideal.Laws

/-!
The reference's edge and read-out stages, read one operation at a time and gathered into the same row-wise
perceptron the kernel's stages compute, as `mlp2` of the stage that feeds them.
-/

set_option maxRecDepth 16384

noncomputable section

namespace Cert.ReferenceIdeal.RefSpec

open Cert.ReferenceIdeal Cert.ReferenceIdeal.Gen Cert.ReferenceIdeal.Read Idealize.ShloMosaic Idealize.ShloMosaic.TcCoe Idealize.SL.Sem
open Idealize.ShloMosaic.ValueIdx Cert.Spec

variable (x0 : (⟨S50000x13, .f32⟩ : BufTy).Contents (Elt Ideal)) (x1 : (⟨S2x1600000, .i32⟩ : BufTy).Contents (Elt Ideal)) (x2 : (⟨S50000, .i32⟩ : BufTy).Contents (Elt Ideal)) (x3 : (⟨S13, .f32⟩ : BufTy).Contents (Elt Ideal)) (x4 : (⟨S13, .f32⟩ : BufTy).Contents (Elt Ideal)) (x5 : (⟨S13x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S90x64, .f32⟩ : BufTy).Contents (Elt Ideal)) (x10 : (⟨S64, .f32⟩ : BufTy).Contents (Elt Ideal)) (x11 : (⟨S64x32, .f32⟩ : BufTy).Contents (Elt Ideal)) (x12 : (⟨S32, .f32⟩ : BufTy).Contents (Elt Ideal)) (x13 : (⟨S45x32, .f32⟩ : BufTy).Contents (Elt Ideal)) (x14 : (⟨S32, .f32⟩ : BufTy).Contents (Elt Ideal)) (x15 : (⟨S32x1, .f32⟩ : BufTy).Contents (Elt Ideal)) (x16 : (⟨S1, .f32⟩ : BufTy).Contents (Elt Ideal))

/-- The edge stage is the perceptron of target row followed by source minus target. -/
theorem ref_m :
    (val_main_v65 (F := Ideal) x0 x1 x3 x4 x5 x6 x7 x8 x9 x10 x11 x12 : Arr 1600000 32)
      = arr2 (mlp2 Ideal.tanh
          (edgeIn (fun e d => at2 (val_main_v46 (F := Ideal) x0 x1 x3 x4 x5 x6 x7 x8) e d) (fun e d => at2 (val_main_v53 (F := Ideal) x0 x1 x3 x4 x5 x6 x7 x8) e d))
          (fun k h => at2 x9 k h) (fun h => at1 x10 h) (fun h q => at2 x11 h q) (fun q => at1 x12 q)) := by
  refine arr_ext fun e q => ?_
  have e1 : ∀ k : Fin 64, lidx_main_v61 (ix2 e q) k = ix2 e k := fun k => idx2_eq _ _ _ rfl rfl
  have e2 : ∀ k : Fin 64, ridx_main_v61 (ix2 e q) k = ix2 k q := fun k => idx2_eq _ _ _ rfl rfl
  have e3 : idx_main_v62 (idx_main_v63 (ix2 e q)) = ix1 q := idx1_eq _ _ rfl
  have e4 : ∀ (h : Fin 64) (k : Fin 90), lidx_main_v56 (ix2 e h) k = ix2 e k := fun h k => idx2_eq _ _ _ rfl rfl
  have e5 : ∀ (h : Fin 64) (k : Fin 90), ridx_main_v56 (ix2 e h) k = ix2 k h := fun h k => idx2_eq _ _ _ rfl rfl
  have e6 : ∀ h : Fin 64, idx_main_v57 (idx_main_v58 (ix2 e h)) = ix1 h := fun h => idx1_eq _ _ rfl
  rw [arr2_ix2, val_main_v65_apply, val_main_v64_apply, val_main_v61_apply, val_main_v63_apply, val_main_v62_apply]
  simp only [e1, e2, e3, val_main_v60_apply, val_main_v59_apply, val_main_v56_apply, val_main_v58_apply, val_main_v57_apply,
    val_main_call1_v0_apply, val_main_call1_cst_apply, e4, e5, e6, ref_edgeIn,
    Ideal.hostUnary_tanh_def, Ideal.addf_def, Ideal.maximumf_def, Ideal.ofBits_def, Ideal.ofBits_zero_f32]
  rfl

/-- The read-out stage is the perceptron of the pooled rows with the logistic function at the end: the reference
    spells it `1 / (1 + exp (-z))`. -/
theorem ref_out :
    (val_main_v95 (F := Ideal) x0 x1 x2 x3 x4 x5 x6 x7 x8 x9 x10 x11 x12 x13 x14 x15 x16 : Arr 128 1)
      = arr2 (mlp2 Ideal.logistic (fun g d => at2 (val_main_v80 (F := Ideal) x0 x1 x2 x3 x4 x5 x6 x7 x8 x9 x10 x11 x12) g d)
          (fun k h => at2 x13 k h) (fun h => at1 x14 h) (fun h q => at2 x15 h q) (fun q => at1 x16 q)) := by
  refine arr_ext fun g q => ?_
  have e1 : ∀ k : Fin 32, lidx_main_v86 (ix2 g q) k = ix2 g k := fun k => idx2_eq _ _ _ rfl rfl
  have e2 : ∀ k : Fin 32, ridx_main_v86 (ix2 g q) k = ix2 k q := fun k => idx2_eq _ _ _ rfl rfl
  have e3 : idx_main_v87 (idx_main_v88 (ix2 g q)) = ix1 q := idx1_eq _ _ (Fin.val_eq_zero q).symm
  have e4 : ∀ (h : Fin 32) (k : Fin 45), lidx_main_v81 (ix2 g h) k = ix2 g k := fun h k => idx2_eq _ _ _ rfl rfl
  have e5 : ∀ (h : Fin 32) (k : Fin 45), ridx_main_v81 (ix2 g h) k = ix2 k h := fun h k => idx2_eq _ _ _ rfl rfl
  have e6 : ∀ h : Fin 32, idx_main_v82 (idx_main_v83 (ix2 g h)) = ix1 h := fun h => idx1_eq _ _ rfl
  rw [arr2_ix2, val_main_v95_apply, val_main_v94_apply, val_main_cst_13_apply, val_main_v93_apply, val_main_v92_apply,
    val_main_cst_12_apply, val_main_v91_apply, val_main_v90_apply, val_main_v89_apply, val_main_v86_apply,
    val_main_v88_apply, val_main_v87_apply]
  simp only [e1, e2, e3, val_main_v85_apply, val_main_v84_apply, val_main_v81_apply, val_main_v83_apply, val_main_v82_apply,
    val_main_call2_v0_apply, val_main_call2_cst_apply, e4, e5, e6,
    Ideal.hostDivf_def, Ideal.hostUnary_exp_def, Ideal.hostNegf_def, Ideal.negf_def, Ideal.addf_def, Ideal.maximumf_def,
    Ideal.ofBits_def, Ideal.ofBits_zero_f32, ofBits_one_f32]
  rfl

end Cert.ReferenceIdeal.RefSpec

end
-- ==== Proof.BNAlg.lean ====
import proofs.«417757_j46952582480249_1_alg».proof.Proof.ReadP
import proofs.«417757_j46952582480249_1_alg».proof.Proof.Spec
import Idealize.ShloMosaic.Lib.ValueIdx
import Idealize.ShloMosaic.PureOps.Ideal.Laws
import Mathlib.Data.EReal.Basic
import Mathlib.Analysis.SpecialFunctions.Sqrt
import Mathlib.Tactic.FieldSimp
import Mathlib.Tactic.Ring
import Mathlib.Tactic.NormNum
import Mathlib.Tactic.Positivity

/-!
Batch normalisation, folded and unfolded.  The kernel multiplies by `gamma * rsqrt (var + eps)` and adds
`beta - mean * gamma * rsqrt (var + eps)`; the reference centres, divides by `sqrt (var + eps)`, scales and shifts.
Over the reals these agree by distributivity, and `rsqrt v = 1 / sqrt v` for `v > 0`.  On the extended reals
distributivity needs every term finite: the features are finite by hypothesis, so the column mean (a finite sum
divided by 50000) and the variance (a finite sum of squares divided by 50000, hence non-negative) are real, and
`var + eps` is a positive real.
-/

set_option maxRecDepth 16384

noncomputable section

namespace Cert.ReferenceIdeal.BN

open Cert.ReferenceIdeal Cert.ReferenceIdeal.Gen Cert.ReferenceIdeal.Read Idealize.ShloMosaic Idealize.ShloMosaic.TcCoe Idealize.SL.Sem
open Idealize.ShloMosaic.ValueIdx Cert.Spec

/-! ### Finite sums of reals inside the extended reals -/

/-- A finite sum of reals, read on the extended reals, is the real sum. -/
theorem coe_sum {ι : Type} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- A finite sum of terms that are each real is real. -/
theorem sum_real {ι : Type} (s : Finset ι) (f : ι → EReal) (h : ∀ i, ∃ r : ℝ, f i = (r : EReal)) :
    ∃ r : ℝ, ∑ i ∈ s, f i = (r : EReal) := by
  choose g hg using h
  exact ⟨∑ i ∈ s, g i, (Finset.sum_congr rfl fun i _ => hg i).trans (coe_sum s g)⟩

/-- A finite sum of terms that are each a non-negative real is a non-negative real. -/
theorem sum_real_nonneg {ι : Type} (s : Finset ι) (f : ι → EReal) (h : ∀ i, ∃ r : ℝ, 0 ≤ r ∧ f i = (r : EReal)) :
    ∃ r : ℝ, 0 ≤ r ∧ ∑ i ∈ s, f i = (r : EReal) := by
  choose g hg0 hg using h
  exact ⟨∑ i ∈ s, g i, Finset.sum_nonneg fun i _ => hg0 i, (Finset.sum_congr rfl fun i _ => hg i).trans (coe_sum s g)⟩

/-! ### The two constants -/

/-- The divisor: the pattern of sign 0, exponent 142, fraction `0x435000` is `(2^23 + 0x435000) * 2^(142 - 150) = 50000`. -/
theorem ofBits_50000 : Ideal.ofBits .f32 0x47435000#32 = ((50000 : ℝ) : EReal) := by
  simp [Ideal.ofBits, Ideal.ieee, -EReal.coe_mul]; norm_num

/-- Epsilon: a pattern of sign 0 and exponent 110 (neither 0 nor 255) is a positive real, `(2^23 + fraction) * 2^(110 - 150)`. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-! ### The identity over the reals -/

/-- For `v > 0`: `x * (g / √v) + (b - μ * g / √v) = (x - μ) / √v * g + b`, every operation the extended reals' own. -/
theorem affine_real (x μ g b v : ℝ) (hv : 0 < v) :
    (x : EReal) * ((g : EReal) * Ideal.rsqrt (v : EReal)) + ((b : EReal) - (μ : EReal) * (g : EReal) * Ideal.rsqrt (v : EReal))
      = Ideal.div ((x : EReal) - (μ : EReal)) (Ideal.sqrt (v : EReal)) * (g : EReal) + (b : EReal) := by
  have hs : 0 < Real.sqrt v := Real.sqrt_pos.2 hv
  rw [Ideal.rsqrt_coe, if_neg (not_lt.2 hv.le), if_neg hv.ne', Ideal.sqrt_coe, if_neg (not_lt.2 hv.le),
    Ideal.div_coe hs.ne']
  simp only [← EReal.coe_mul, ← EReal.coe_add, ← EReal.coe_sub]
  rw [EReal.coe_eq_coe_iff]
  field_simp
  ring

variable (x0 : (⟨S50000x13, .f32⟩ : BufTy).Contents (Elt Ideal)) (x3 x4 : (⟨S13, .f32⟩ : BufTy).Contents (Elt Ideal))

/-! ### The statistics of finite features are real -/

/-- The column mean at any index of the 13 columns: the column's sum, a real, times `1 / 50000`. -/
theorem mean_real_idx (h0 : ∀ i, ∃ r : ℝ, x0 i = (r : EReal)) (i : S13.Idx) :
    ∃ μ : ℝ, val_main_v2 (F := Ideal) x0 i = (μ : EReal) := by
  obtain ⟨s, hs⟩ : ∃ s : ℝ, ∑ k : Fin 50000, x0 (idx_main_v0 i k) = (s : EReal) :=
    sum_real Finset.univ (fun k : Fin 50000 => x0 (idx_main_v0 i k)) (fun k => h0 _)
  refine ⟨s * (1 / 50000), ?_⟩
  rw [val_main_v2_apply, Ideal.hostDivf_def, val_main_v0_apply, val_main_cst_apply, Ideal.ofBits_def, Ideal.ofBits_zero_f32, zero_add, hs,
    val_main_v1_apply, val_main_cst_0_apply, Ideal.ofBits_def, ofBits_50000, Ideal.div_coe (by norm_num : (50000 : ℝ) ≠ 0),
    ← EReal.coe_mul]

/-- A centred feature is real: a real minus its column's real mean. -/
theorem centred_real (h0 : ∀ i, ∃ r : ℝ, x0 i = (r : EReal)) (i : S50000x13.Idx) :
    ∃ r : ℝ, val_main_v5 (F := Ideal) x0 i = (r : EReal) := by
  obtain ⟨a, ha⟩ := h0 i
  obtain ⟨μ, hμ⟩ := mean_real_idx x0 h0 (idx_main_v3 (idx_main_v4 i))
  exact ⟨a - μ, by rw [val_main_v5_apply, Ideal.subf_def, ha, val_main_v4_apply, val_main_v3_apply, hμ, EReal.coe_sub]⟩

/-- A squared centred feature is a non-negative real. -/
theorem square_real (h0 : ∀ i, ∃ r : ℝ, x0 i = (r : EReal)) (i : S50000x13.Idx) :
    ∃ r : ℝ, 0 ≤ r ∧ val_main_v6 (F := Ideal) x0 i = (r : EReal) := by
  obtain ⟨c, hc⟩ := centred_real x0 h0 i
  exact ⟨c * c, mul_self_nonneg c, by rw [val_main_v6_apply, Ideal.mulf_def, hc, EReal.coe_mul]⟩

/-- The column variance is a non-negative real: a sum of non-negative reals times `1 / 50000`. -/
theorem var_real (h0 : ∀ i, ∃ r : ℝ, x0 i = (r : EReal)) (i : S13.Idx) :
    ∃ r : ℝ, 0 ≤ r ∧ val_main_v9 (F := Ideal) x0 i = (r : EReal) := by
  obtain ⟨s, hs0, hs⟩ : ∃ s : ℝ, 0 ≤ s ∧ ∑ k : Fin 50000, val_main_v6 (F := Ideal) x0 (idx_main_v7 i k) = (s : EReal) :=
    sum_real_nonneg Finset.univ (fun k : Fin 50000 => val_main_v6 (F := Ideal) x0 (idx_main_v7 i k)) (fun k => square_real x0 h0 _)
  refine ⟨s * (1 / 50000), mul_nonneg hs0 (by norm_num), ?_⟩
  rw [val_main_v9_apply, Ideal.hostDivf_def, val_main_v7_apply, val_main_cst_1_apply, Ideal.ofBits_def, Ideal.ofBits_zero_f32, zero_add, hs,
    val_main_v8_apply, val_main_cst_2_apply, Ideal.ofBits_def, ofBits_50000, Ideal.div_coe (by norm_num : (50000 : ℝ) ≠ 0),
    ← EReal.coe_mul]

/-- Variance plus epsilon, at any index of the 13 columns, is a positive real. -/
theorem var_eps_pos_idx (h0 : ∀ i, ∃ r : ℝ, x0 i = (r : EReal)) (i : S13.Idx) :
    ∃ v : ℝ, 0 < v ∧ val_main_v14 (F := Ideal) x0 i = (v : EReal) := by
  obtain ⟨r, hr0, hr⟩ := var_real x0 h0 i
  obtain ⟨e, he0, he⟩ := ofBits_eps
  exact ⟨r + e, add_pos_of_nonneg_of_pos hr0 he0, by
    rw [val_main_v14_apply, Ideal.addf_def, hr, val_main_v13_apply, val_main_cst_3_apply, Ideal.ofBits_def, he, EReal.coe_add]⟩

/-- The column mean of finite features is a real number. -/
theorem mean_real (h0 : ∀ i, ∃ r : ℝ, x0 i = (r : EReal)) (d : Fin 13) :
    ∃ μ : ℝ, at1 (val_main_v2 (F := Ideal) x0) d = (μ : EReal) :=
  mean_real_idx x0 h0 (ix1 d)

/-- Variance plus epsilon of finite features is a positive real number. -/
theorem var_eps_pos (h0 : ∀ i, ∃ r : ℝ, x0 i = (r : EReal)) (d : Fin 13) :
    ∃ v : ℝ, 0 < v ∧ at1 (val_main_v14 (F := Ideal) x0) d = (v : EReal) :=
  var_eps_pos_idx x0 h0 (ix1 d)

/-- The folded affine form is the centred-and-divided form, entry by entry. -/
theorem affine_eq (h0 : ∀ i, ∃ r : ℝ, x0 i = (r : EReal)) (h3 : ∀ i, ∃ r : ℝ, x3 i = (r : EReal)) (h4 : ∀ i, ∃ r : ℝ, x4 i = (r : EReal))
    (n : Fin 50000) (d : Fin 13) :
    at2 x0 n d * (at1 x3 d * Ideal.rsqrt (at1 (val_main_v14 (F := Ideal) x0) d))
        + (at1 x4 d - at1 (val_main_v2 (F := Ideal) x0) d * at1 x3 d * Ideal.rsqrt (at1 (val_main_v14 (F := Ideal) x0) d))
      = Ideal.div (at2 x0 n d - at1 (val_main_v2 (F := Ideal) x0) d) (Ideal.sqrt (at1 (val_main_v14 (F := Ideal) x0) d)) * at1 x3 d + at1 x4 d := by
  obtain ⟨x, hx⟩ : ∃ r : ℝ, at2 x0 n d = (r : EReal) := h0 (ix2 n d)
  obtain ⟨g, hg⟩ : ∃ r : ℝ, at1 x3 d = (r : EReal) := h3 (ix1 d)
  obtain ⟨b, hb⟩ : ∃ r : ℝ, at1 x4 d = (r : EReal) := h4 (ix1 d)
  obtain ⟨μ, hμ⟩ := mean_real x0 h0 d
  obtain ⟨v, hv0, hv⟩ := var_eps_pos x0 h0 d
  rw [hx, hg, hb, hμ, hv]
  exact affine_real x μ g b v hv0

end Cert.ReferenceIdeal.BN

end
-- ==== Proof.Bridge.lean ====
import proofs.«417757_j46952582480249_1_alg».proof.Proof.Gen.KernelIdeal.Frame
import proofs.«417757_j46952582480249_1_alg».proof.Proof.ReadP
import proofs.«417757_j46952582480249_1_alg».proof.Proof.Spec
import proofs.«417757_j46952582480249_1_alg».proof.Proof.Reg0
import proofs.«417757_j46952582480249_1_alg».proof.Proof.Reg1
import proofs.«417757_j46952582480249_1_alg».proof.Proof.Reg2
import proofs.«417757_j46952582480249_1_alg».proof.Proof.Host0
import proofs.«417757_j46952582480249_1_alg».proof.Proof.Host1
import proofs.«417757_j46952582480249_1_alg».proof.Proof.Host1b
import proofs.«417757_j46952582480249_1_alg».proof.Proof.Host2
import proofs.«417757_j46952582480249_1_alg».proof.Proof.RefSpec
import proofs.«417757_j46952582480249_1_alg».proof.Proof.RefSpecB
import proofs.«417757_j46952582480249_1_alg».proof.Proof.BNAlg

/-!
The kernel's result is the reference's last stage of the same arguments.

The kernel program's buffer contents at its segment boundaries are followed from the launch to the return, and at
each stage the array the kernel has just produced is identified with the reference's stage function of the
arguments: the normalised features (here the folded affine form meets the centred-and-divided form, which needs the
features, scale and shift finite), the hidden features, the two gathered arrays (here the edge indices must lie in
range, so that `jnp.take` fills nothing), the messages, the pooled rows, and the scores.
-/

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert.Spec

/-- The perceptron depends on its five ingredients only through their values. -/
theorem mlp2_congr {M K H N : Nat} (act : EReal → EReal) {a a' : Fin M → Fin K → EReal} {w1 w1' : Fin K → Fin H → EReal} {b1 b1' : Fin H → EReal}
    {w2 w2' : Fin H → Fin N → EReal} {b2 b2' : Fin N → EReal} (ha : a = a') (hw1 : w1 = w1') (hb1 : b1 = b1') (hw2 : w2 = w2') (hb2 : b2 = b2') :
    mlp2 act a w1 b1 w2 b2 = mlp2 act a' w1' b1' w2' b2' := by
  subst ha hw1 hb1 hw2 hb2; rfl

variable (m : (ℓ : Loc nD τ sig) → Buf (Elt Ideal) ℓ) (ρ : Dev nD → PrngReg)

/-- The facts of the precondition the value proof uses, at one core's arguments. -/
structure Hyps (c : Dev nD) : Prop where
  fin0 : ∀ i, ∃ r : ℝ, (m ((c : Thread nD τ).loc main_arg0)) i = (r : EReal)
  fin3 : ∀ i, ∃ r : ℝ, (m ((c : Thread nD τ).loc main_arg3)) i = (r : EReal)
  fin4 : ∀ i, ∃ r : ℝ, (m ((c : Thread nD τ).loc main_arg4)) i = (r : EReal)
  idx : ∀ i, 0 ≤ ((m ((c : Thread nD τ).loc main_arg1)) i).toInt ∧ ((m ((c : Thread nD τ).loc main_arg1)) i).toInt < 50000

/-- One normalised entry: the folded affine form the node stage computes is the reference's entry. -/
theorem affine_entry (c : Dev nD) (hy : Hyps m c) (n : Fin 50000) (d : Fin 13) :
    at2 (V1 m ρ c main_arg0) n d * at2 (V1 m ρ c main_v14) 0 d + at2 (V1 m ρ c main_v18) 0 d
      = at2 (Cert.ReferenceIdeal.Read.val_main_v24 (F := Ideal) (m ((c : Thread nD τ).loc main_arg0)) (m ((c : Thread nD τ).loc main_arg3)) (m ((c : Thread nD τ).loc main_arg4))) n d := by
  rw [Host0.V1_arg0 m ρ c, Host0.V1_scale m ρ c d, Host0.V1_shift m ρ c d]
  exact (Cert.ReferenceIdeal.BN.affine_eq _ _ _ hy.fin0 hy.fin3 hy.fin4 n d).trans
    (Cert.ReferenceIdeal.RefSpec.ref_xn _ _ _ n d).symm

/-- After the node stage the normalised features are the reference's. -/
theorem xn_eq (c : Dev nD) (hy : Hyps m c) :
    W2 m ρ c (Proc.devRef .tc main_v21_0) = Cert.ReferenceIdeal.Read.val_main_v24 (F := Ideal) (m ((c : Thread nD τ).loc main_arg0)) (m ((c : Thread nD τ).loc main_arg3)) (m ((c : Thread nD τ).loc main_arg4)) := by
  refine (W2_arr m ρ c 7).trans ((Reg0.final_xn (V1 m ρ) c).trans ?_)
  refine arr_ext fun n d => ?_
  rw [arr2_ix2]
  exact affine_entry m ρ c hy n d

/-- After the node stage the hidden features are the reference's. -/
theorem hn_eq (c : Dev nD) (hy : Hyps m c) :
    W2 m ρ c (Proc.devRef .tc main_v21_1) = Cert.ReferenceIdeal.Read.val_main_v34 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 8).trans ((Reg0.final_hn (V1 m ρ) c).trans ?_)
  rw [Cert.ReferenceIdeal.RefSpec.ref_hn]
  exact congrArg arr2 (mlp2_congr _
    (funext fun n => funext fun d => affine_entry m ρ c hy n d)
    (by rw [Host0.V1_arg5 m ρ c]) (funext fun h => Host0.V1_b1 m ρ c h)
    (by rw [Host0.V1_arg7 m ρ c]) (funext fun q => Host0.V1_b2 m ρ c q))

/-- The rows gathered at the edges' targets are the reference's. -/
theorem xi_eq (c : Dev nD) (hy : Hyps m c) :
    V6 m ρ c main_v27 = Cert.ReferenceIdeal.Read.val_main_v46 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Host1.V6_xi m ρ c _ _ (xn_eq m ρ c hy) (hn_eq m ρ c hy) hy.idx]
  unfold Cert.ReferenceIdeal.Read.val_main_v46 Cert.ReferenceIdeal.Read.val_main_v35
  rfl

/-- The rows gathered at the edges' sources are the reference's. -/
theorem xj_eq (c : Dev nD) (hy : Hyps m c) :
    V6 m ρ c main_v28 = Cert.ReferenceIdeal.Read.val_main_v53 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Host1.V6_xj m ρ c _ _ (xn_eq m ρ c hy) (hn_eq m ρ c hy) hy.idx]
  unfold Cert.ReferenceIdeal.Read.val_main_v53 Cert.ReferenceIdeal.Read.val_main_v35
  rfl

/-- After the edge stage the messages are the reference's. -/
theorem m_eq (c : Dev nD) (hy : Hyps m c) :
    W7 m ρ c (Proc.devRef .tc main_v31) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W7_arr m ρ c 6).trans ((Reg1.final_m (V6 m ρ) c).trans ?_)
  rw [Cert.ReferenceIdeal.RefSpec.ref_m]
  exact congrArg arr2 (mlp2_congr _
    (by rw [xi_eq m ρ c hy, xj_eq m ρ c hy])
    (by rw [Host1.V6_arg9 m ρ c]) (funext fun h => Host1.V6_b1 m ρ c h)
    (by rw [Host1.V6_arg11 m ρ c]) (funext fun q => Host1.V6_b2 m ρ c q))

/-- Before the read-out stage the pooled rows are the reference's: the same host operations on equal operands. -/
theorem xmean_eq (c : Dev nD) (hy : Hyps m c) :
    V8 m ρ c main_v46 = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Host2.V8_xmean m ρ c _ _ (m_eq m ρ c hy) (xn_eq m ρ c hy)]
  unfold Cert.ReferenceIdeal.Read.val_main_v80 Cert.ReferenceIdeal.Read.val_main_v72 Cert.ReferenceIdeal.Read.val_main_v69 Cert.ReferenceIdeal.Read.val_main_v68
  rfl

/-- When @main returns, the result buffer holds the reference's last stage of the same arguments. -/
theorem out_eq (c : Dev nD) (hy : Hyps m c) :
    W9 m ρ c (Proc.devRef .tc main_v49) = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W9_arr m ρ c 5).trans ((Reg2.final_out (V8 m ρ) c).trans ?_)
  rw [Cert.ReferenceIdeal.RefSpec.ref_out]
  exact congrArg arr2 (mlp2_congr _
    (by rw [xmean_eq m ρ c hy])
    (by rw [Host2.V8_arg13 m ρ c]) (funext fun h => Host2.V8_b1 m ρ c h)
    (by rw [Host2.V8_arg15 m ρ c]) (funext fun q => Host2.V8_b2 m ρ c q))

end Cert.KernelIdeal.Bridge

end
-- ==== Proof.lean ====
/- Equivalence over the extended reals of an EdgeNet forward pass written as three tiled kernels (node, edge and
   read-out perceptrons) with plain host operations between them, against its reference in plain array operations.

   The precondition says that every float input is finite and, added here, that every edge index lies in
   `[0, 50000)`: outside that range the reference's own row lookup is out of range, and the kernel's `jnp.take` fills
   a row with a fixed pattern where the reference's lookup clamps, so the two programs differ there.

   The two kernel frames are the generated ones; the reference's is its run (`RefRun`: a straight line of host
   operations, folded stretch by stretch) with the result dropped.  The idealization rewrote nothing, so `preserves`
   is trivial.  The value claim follows the kernel program's buffer contents through its segments (`KRun`, `Bridge`)
   and identifies the result with the last stage of the reference's run. -/
import proofs.«417757_j46952582480249_1_alg».proof.Defs
import proofs.«417757_j46952582480249_1_alg».proof.Proof.Gen.Kernel
import proofs.«417757_j46952582480249_1_alg».proof.Proof.Gen.Kernel.Skeleton
import proofs.«417757_j46952582480249_1_alg».proof.Proof.Gen.Kernel.Launch
import proofs.«417757_j46952582480249_1_alg».proof.Proof.Gen.Kernel.Points
import proofs.«417757_j46952582480249_1_alg».proof.Proof.Gen.Kernel.Frame
import proofs.«417757_j46952582480249_1_alg».proof.Proof.Gen.KernelIdeal
import proofs.«417757_j46952582480249_1_alg».proof.Proof.Gen.KernelIdeal.Skeleton
import proofs.«417757_j46952582480249_1_alg».proof.Proof.Gen.KernelIdeal.Launch
import proofs.«417757_j46952582480249_1_alg».proof.Proof.Gen.KernelIdeal.Points
import proofs.«417757_j46952582480249_1_alg».proof.Proof.Gen.KernelIdeal.Frame
import proofs.«417757_j46952582480249_1_alg».proof.Proof.Gen.ReferenceIdeal
import proofs.«417757_j46952582480249_1_alg».proof.Proof.ReadP
import proofs.«417757_j46952582480249_1_alg».proof.Proof.RefRun
import proofs.«417757_j46952582480249_1_alg».proof.Proof.Gen.Pre_finite_inputs
import proofs.«417757_j46952582480249_1_alg».proof.Proof.KRun
import proofs.«417757_j46952582480249_1_alg».proof.Proof.PreDecode
import proofs.«417757_j46952582480249_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Chunks.run (F := Ideal) m ρ)

theorem preserves : Cert.preserves_Kernel_KernelIdeal := trivial

/-- The precondition at one core, read into the four facts the value proof uses. -/
theorem hyps_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Bridge.Hyps m c :=
  let h := Cert.Pre_finite_inputs.Decode.of_pre _ _ _ _ _ _ _ _ _ _ _ _ _ _ _ _ _ (hpre c)
  ⟨h.1, h.2.1, h.2.2.1, h.2.2.2⟩

/-- Both idealized programs run, and end with the same scores: the kernel's result buffer holds the reference's last
    stage of the kernel's arguments, and the reference's run ends at that stage of its own arguments, which agree. -/
theorem algebraic : Cert.algebraic_KernelIdeal_ReferenceIdeal := by
  intro m ρ m' ρ' hpre hagree
  refine ⟨fun c => Cert.KernelIdeal.Gen.W9 m ρ c (Proc.devRef .tc Cert.KernelIdeal.main_v49),
    Cert.KernelIdeal.Gen.run_result (F := Ideal) m ρ, ?_⟩
  refine (θ_run Cert.ReferenceIdeal.defs _ _).mono (fun _ h c => ⟨(h c).1.trans ?_, (h c).2⟩)
    (Cert.ReferenceIdeal.Chunks.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
  exact (Cert.KernelIdeal.Bridge.out_eq m ρ c (hyps_of_pre m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
